-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16384x3 : Shape := ⟨3, ![128, 16384, 3]⟩
abbrev S128 : Shape := ⟨1, ![128]⟩
abbrev S_ : Shape := ⟨0, ![]⟩

class Facts : Prop where
  bcast_S_S128x16384x3 : S_.BroadcastsInDim S128x16384x3 (![] : Fin 0 → Fin S128x16384x3.rank)
  reducesTo_S128x16384x3_S_d0_1_2 : S128x16384x3.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x16384x3 .f32) (main_arg1 : FVec F S128 .f32) (main_arg2 : FVec F S128 .f32) : IVec S_ 1 :=
  let main_v0 : FVec F S128x16384x3 .f32 := Host.absf main_arg0
  let main_cst : FVec F S_ .f32 := constant S_ .f32 0x7F800000#32
  let main_v1 : FVec F S128x16384x3 .f32 := broadcastInDim S128x16384x3 ![] bcast_S_S128x16384x3 main_cst
  let main_v2 : IVec S128x16384x3 1 := cmpf .olt main_v0 main_v1
  let main_c : IVec S_ 1 := constantI S_ 1 1#1
  let main_v3 : IVec S_ 1 := (fun x v => Host.reduce IntOp.andi x v reducesTo_S128x16384x3_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S128x16384x3 : Shape := ⟨3, ![128, 16384, 3]⟩
abbrev S128 : Shape := ⟨1, ![128]⟩
abbrev S_ : Shape := ⟨0, ![]⟩
abbrev S128x1 : Shape := ⟨2, ![128, 1]⟩
abbrev S128x3 : Shape := ⟨2, ![128, 3]⟩
abbrev S128x1x3 : Shape := ⟨3, ![128, 1, 3]⟩
abbrev S128x3x3 : Shape := ⟨3, ![128, 3, 3]⟩
abbrev S128x16384x2 : Shape := ⟨3, ![128, 16384, 2]⟩
abbrev S128x16384x1 : Shape := ⟨3, ![128, 16384, 1]⟩
abbrev S128x16384 : Shape := ⟨2, ![128, 16384]⟩
abbrev S128x1x16384 : Shape := ⟨3, ![128, 1, 16384]⟩
abbrev S128x224x224 : Shape := ⟨3, ![128, 224, 224]⟩
abbrev S1x1x2048 : Shape := ⟨3, ![1, 1, 2048]⟩
abbrev S1x224x224 : Shape := ⟨3, ![1, 224, 224]⟩
abbrev S1x2048 : Shape := ⟨2, ![1, 2048]⟩
abbrev S224x1 : Shape := ⟨2, ![224, 1]⟩
abbrev S224x2048 : Shape := ⟨2, ![224, 2048]⟩
abbrev S224x224 : Shape := ⟨2, ![224, 224]⟩
abbrev S128x1x224x224 : Shape := ⟨4, ![128, 1, 224, 224]⟩
abbrev S128x3x224x224 : Shape := ⟨4, ![128, 3, 224, 224]⟩

abbrev nBuf : Space → Nat
  | .hbm => 176
  | .vmem => 18
  | .smem => 0
  | _ => 0

abbrev hbmTy0_0 (i : Nat) : BufTy := match i % 128 with
  | 0 => ⟨S128x16384x3, .f32⟩
  | 1 => ⟨S128, .f32⟩
  | 2 => ⟨S128, .f32⟩
  | 3 => ⟨S128, .f32⟩
  | 4 => ⟨S128, .f32⟩
  | 5 => ⟨S128, .f32⟩
  | 6 => ⟨S128, .f32⟩
  | 7 => ⟨S_, .f32⟩
  | 8 => ⟨S128, .f32⟩
  | 9 => ⟨S_, .f32⟩
  | 10 => ⟨S128, .f32⟩
  | 11 => ⟨S128x1, .f32⟩
  | 12 => ⟨S128x1, .f32⟩
  | 13 => ⟨S128x1, .f32⟩
  | 14 => ⟨S128x3, .f32⟩
  | 15 => ⟨S128x1, .f32⟩
  | 16 => ⟨S128x1, .f32⟩
  | 17 => ⟨S128x1, .f32⟩
  | 18 => ⟨S128x3, .f32⟩
  | 19 => ⟨S128, .f32⟩
  | 20 => ⟨S128x1, .f32⟩
  | 21 => ⟨S128x1, .f32⟩
  | 22 => ⟨S128x1, .f32⟩
  | 23 => ⟨S128x3, .f32⟩
  | 24 => ⟨S128x1x3, .f32⟩
  | 25 => ⟨S128x1x3, .f32⟩
  | 26 => ⟨S128x1x3, .f32⟩
  | 27 => ⟨S128x3x3, .f32⟩
  | 28 => ⟨S128x1, .f32⟩
  | 29 => ⟨S128x1, .f32⟩
  | 30 => ⟨S128x1, .f32⟩
  | 31 => ⟨S128x3, .f32⟩
  | 32 => ⟨S128, .f32⟩
  | 33 => ⟨S128x1, .f32⟩
  | 34 => ⟨S128x1, .f32⟩
  | 35 => ⟨S128x1, .f32⟩
  | 36 => ⟨S128x3, .f32⟩
  | 37 => ⟨S128x1, .f32⟩
  | 38 => ⟨S128x1, .f32⟩
  | 39 => ⟨S128x1, .f32⟩
  | 40 => ⟨S128x3, .f32⟩
  | 41 => ⟨S128x1x3, .f32⟩
  | 42 => ⟨S128x1x3, .f32⟩
  | 43 => ⟨S128x1x3, .f32⟩
  | 44 => ⟨S128x3x3, .f32⟩
  | 45 => ⟨S128x3x3, .f32⟩
  | 46 => ⟨S128x16384x3, .f32⟩
  | 47 => ⟨S128x16384x2, .f32⟩
  | 48 => ⟨S128x16384x1, .f32⟩
  | 49 => ⟨S128x16384, .f32⟩
  | 50 => ⟨S_, .f32⟩
  | 51 => ⟨S128, .f32⟩
  | 52 => ⟨S128x1, .f32⟩
  | 53 => ⟨S_, .f32⟩
  | 54 => ⟨S128, .f32⟩
  | 55 => ⟨S128x1, .f32⟩
  | 56 => ⟨S128x16384, .f32⟩
  | 57 => ⟨S128x16384, .f32⟩
  | 58 => ⟨S_, .f32⟩
  | 59 => ⟨S128x16384, .f32⟩
  | 60 => ⟨S128x16384, .f32⟩
  | 61 => ⟨S128x1, .f32⟩
  | 62 => ⟨S_, .f32⟩
  | 63 => ⟨S128x1, .f32⟩
  | 64 => ⟨S128x1, .f32⟩
  | 65 => ⟨S128x16384, .f32⟩
  | 66 => ⟨S128x16384, .f32⟩
  | 67 => ⟨S_, .f32⟩
  | 68 => ⟨S128x16384, .f32⟩
  | 69 => ⟨S128x16384, .f32⟩
  | 70 => ⟨S128x16384x1, .f32⟩
  | 71 => ⟨S128x16384, .f32⟩
  | 72 => ⟨S_, .f32⟩
  | 73 => ⟨S128x16384, .f32⟩
  | 74 => ⟨S128x16384, .f32⟩
  | 75 => ⟨S_, .f32⟩
  | 76 => ⟨S128x16384, .f32⟩
  | 77 => ⟨S128x16384, .f32⟩
  | 78 => ⟨S_, .f32⟩
  | 79 => ⟨S128x16384, .f32⟩
  | 80 => ⟨S128x16384, .f32⟩
  | 81 => ⟨S_, .f32⟩
  | 82 => ⟨S128x16384, .f32⟩
  | 83 => ⟨S128x16384, .f32⟩
  | 84 => ⟨S128x16384x1, .f32⟩
  | 85 => ⟨S128x16384, .f32⟩
  | 86 => ⟨S_, .f32⟩
  | 87 => ⟨S128x16384, .f32⟩
  | 88 => ⟨S128x16384, .f32⟩
  | 89 => ⟨S_, .f32⟩
  | 90 => ⟨S128x16384, .f32⟩
  | 91 => ⟨S128x16384, .f32⟩
  | 92 => ⟨S_, .f32⟩
  | 93 => ⟨S128x16384, .f32⟩
  | 94 => ⟨S128x16384, .f32⟩
  | 95 => ⟨S_, .f32⟩
  | 96 => ⟨S128x16384, .f32⟩
  | 97 => ⟨S128x16384, .f32⟩
  | 98 => ⟨S128x16384, .f32⟩
  | 99 => ⟨S128x16384, .f32⟩
  | 100 => ⟨S_, .f32⟩
  | 101 => ⟨S128x16384, .f32⟩
  | 102 => ⟨S128x16384, .f32⟩
  | 103 => ⟨S_, .f32⟩
  | 104 => ⟨S128x16384, .f32⟩
  | 105 => ⟨S128x16384, .f32⟩
  | 106 => ⟨S128x16384, .f32⟩
  | 107 => ⟨S128x16384, .f32⟩
  | 108 => ⟨S128x16384, .f32⟩
  | 109 => ⟨S128x16384, .f32⟩
  | 110 => ⟨S_, .f32⟩
  | 111 => ⟨S128x16384, .f32⟩
  | 112 => ⟨S128x16384, .i1⟩
  | 113 => ⟨S_, .f32⟩
  | 114 => ⟨S128x16384, .f32⟩
  | 115 => ⟨S128x16384, .i1⟩
  | 116 => ⟨S128x16384, .i1⟩
  | 117 => ⟨S_, .f32⟩
  | 118 => ⟨S128x16384, .f32⟩
  | 119 => ⟨S128x16384, .i1⟩
  | 120 => ⟨S128x16384, .i1⟩
  | 121 => ⟨S_, .f32⟩
  | 122 => ⟨S128x16384, .f32⟩
  | 123 => ⟨S128x16384, .i1⟩
  | 124 => ⟨S128x16384, .i1⟩
  | 125 => ⟨S128x16384, .f32⟩
  | 126 => ⟨S128x16384, .f32⟩
  | 127 => ⟨S128x16384, .f32⟩
  | _ => ⟨S128x16384x3, .f32⟩

abbrev hbmTy0_1 (i : Nat) : BufTy := match i % 128 with
  | 0 => ⟨S128x16384, .f32⟩
  | 1 => ⟨S_, .i32⟩
  | 2 => ⟨S_, .i32⟩
  | 3 => ⟨S_, .f32⟩
  | 4 => ⟨S128x16384, .f32⟩
  | 5 => ⟨S128x16384, .f32⟩
  | 6 => ⟨S_, .f32⟩
  | 7 => ⟨S128x16384, .f32⟩
  | 8 => ⟨S128x16384, .f32⟩
  | 9 => ⟨S128x16384, .i32⟩
  | 10 => ⟨S_, .i32⟩
  | 11 => ⟨S_, .i32⟩
  | 12 => ⟨S_, .f32⟩
  | 13 => ⟨S128x16384, .f32⟩
  | 14 => ⟨S128x16384, .f32⟩
  | 15 => ⟨S_, .f32⟩
  | 16 => ⟨S128x16384, .f32⟩
  | 17 => ⟨S128x16384, .f32⟩
  | 18 => ⟨S128x16384, .i32⟩
  | 19 => ⟨S_, .i32⟩
  | 20 => ⟨S_, .i32⟩
  | 21 => ⟨S_, .f32⟩
  | 22 => ⟨S128x16384, .f32⟩
  | 23 => ⟨S128x16384, .f32⟩
  | 24 => ⟨S_, .f32⟩
  | 25 => ⟨S128x16384, .f32⟩
  | 26 => ⟨S128x16384, .f32⟩
  | 27 => ⟨S128x16384, .i32⟩
  | 28 => ⟨S_, .i32⟩
  | 29 => ⟨S_, .i32⟩
  | 30 => ⟨S_, .f32⟩
  | 31 => ⟨S128x16384, .f32⟩
  | 32 => ⟨S128x16384, .f32⟩
  | 33 => ⟨S_, .f32⟩
  | 34 => ⟨S128x16384, .f32⟩
  | 35 => ⟨S128x16384, .f32⟩
  | 36 => ⟨S128x16384, .i32⟩
  | 37 => ⟨S128x1x16384, .i32⟩
  | 38 => ⟨S128x1x16384, .i32⟩
  | 39 => ⟨S128x1x16384, .i32⟩
  | 40 => ⟨S128x1x16384, .i32⟩
  | 41 => ⟨S128x1x16384, .f32⟩
  | 42 => ⟨S128x1x16384, .f32⟩
  | 43 => ⟨S128x1x16384, .f32⟩
  | 44 => ⟨S128x1x16384, .f32⟩
  | 45 => ⟨S128x224x224, .f32⟩
  | 46 => ⟨S128x1x224x224, .f32⟩
  | 47 => ⟨S128x3x224x224, .f32⟩
  | _ => ⟨S128x16384x3, .f32⟩

abbrev hbmTy (i : Nat) : BufTy := match i / 128 with
  | 0 => hbmTy0_0 i
  | 1 => hbmTy0_1 i
  | _ => ⟨S128x16384x3, .f32⟩

abbrev bufTy : (tb : Table) → Fin (tcTables nBuf tb) → BufTy
  | .hbm, ⟨i, _⟩ => hbmTy i
  | .local _ .vmem, ⟨0, _⟩ => ⟨S1x1x2048, .i32⟩
  | .local _ .vmem, ⟨1, _⟩ => ⟨S1x1x2048, .i32⟩
  | .local _ .vmem, ⟨2, _⟩ => ⟨S1x1x2048, .i32⟩
  | .local _ .vmem, ⟨3, _⟩ => ⟨S1x1x2048, .i32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x224x224, .f32⟩
  | .local _ .vmem, ⟨17, _⟩ => ⟨S1x224x224, .f32⟩
  | _, _ => ⟨S128x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_cst_7 : Ref sig .tc := ⟨.hbm, 75, rfl⟩
abbrev main_v64 : Ref sig .tc := ⟨.hbm, 76, rfl⟩
abbrev main_v65 : Ref sig .tc := ⟨.hbm, 77, rfl⟩
abbrev main_cst_8 : Ref sig .tc := ⟨.hbm, 78, rfl⟩
abbrev main_v66 : Ref sig .tc := ⟨.hbm, 79, rfl⟩
abbrev main_v67 : Ref sig .tc := ⟨.hbm, 80, rfl⟩
abbrev main_cst_9 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_10 : Ref sig .tc := ⟨.hbm, 86, rfl⟩
abbrev main_v72 : Ref sig .tc := ⟨.hbm, 87, rfl⟩
abbrev main_v73 : Ref sig .tc := ⟨.hbm, 88, rfl⟩
abbrev main_cst_11 : Ref sig .tc := ⟨.hbm, 89, rfl⟩
abbrev main_v74 : Ref sig .tc := ⟨.hbm, 90, rfl⟩
abbrev main_v75 : Ref sig .tc := ⟨.hbm, 91, rfl⟩
abbrev main_cst_12 : Ref sig .tc := ⟨.hbm, 92, rfl⟩
abbrev main_v76 : Ref sig .tc := ⟨.hbm, 93, rfl⟩
abbrev main_v77 : Ref sig .tc := ⟨.hbm, 94, rfl⟩
abbrev main_cst_13 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_14 : Ref sig .tc := ⟨.hbm, 100, rfl⟩
abbrev main_v82 : Ref sig .tc := ⟨.hbm, 101, rfl⟩
abbrev main_v83 : Ref sig .tc := ⟨.hbm, 102, rfl⟩
abbrev main_cst_15 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_16 : Ref sig .tc := ⟨.hbm, 110, rfl⟩
abbrev main_v90 : Ref sig .tc := ⟨.hbm, 111, rfl⟩
abbrev main_v91 : Ref sig .tc := ⟨.hbm, 112, rfl⟩
abbrev main_cst_17 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_18 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_19 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_c : Ref sig .tc := ⟨.hbm, 129, rfl⟩
abbrev main_c_20 : Ref sig .tc := ⟨.hbm, 130, rfl⟩
abbrev main_call0_v0 : Ref sig .tc := ⟨.hbm, 131, rfl⟩
abbrev main_call0_v1 : Ref sig .tc := ⟨.hbm, 132, rfl⟩
abbrev main_call0_v2 : Ref sig .tc := ⟨.hbm, 133, rfl⟩
abbrev main_call0_v3 : Ref sig .tc := ⟨.hbm, 134, rfl⟩
abbrev main_call0_v4 : Ref sig .tc := ⟨.hbm, 135, rfl⟩
abbrev main_v105 : Ref sig .tc := ⟨.hbm, 136, rfl⟩
abbrev main_v106 : Ref sig .tc := ⟨.hbm, 137, rfl⟩
abbrev main_c_21 : Ref sig .tc := ⟨.hbm, 138, rfl⟩
abbrev main_c_22 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_call1_v3 : Ref sig .tc := ⟨.hbm, 143, rfl⟩
abbrev main_call1_v4 : Ref sig .tc := ⟨.hbm, 144, rfl⟩
abbrev main_v107 : Ref sig .tc := ⟨.hbm, 145, rfl⟩
abbrev main_v108 : Ref sig .tc := ⟨.hbm, 146, rfl⟩
abbrev main_c_23 : Ref sig .tc := ⟨.hbm, 147, rfl⟩
abbrev main_c_24 : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_v109 : Ref sig .tc := ⟨.hbm, 154, rfl⟩
abbrev main_v110 : Ref sig .tc := ⟨.hbm, 155, rfl⟩
abbrev main_c_25 : Ref sig .tc := ⟨.hbm, 156, rfl⟩
abbrev main_c_26 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![128, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x224x224 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S128 : S_.BroadcastsInDim S128 (![] : Fin 0 → Fin S128.rank)
  bcast_S128_S128x1_0 : S128.BroadcastsInDim S128x1 (![0] : Fin 1 → Fin S128x1.rank)
  concatenates_S128x1_S128x1_S128x1_S128x3_d1 : Shape.Concatenates [S128x1, S128x1, S128x1] S128x3 1
  bcast_S128x3_S128x1x3_0_2 : S128x3.BroadcastsInDim S128x1x3 (![0, 2] : Fin 2 → Fin S128x1x3.rank)
  concatenates_S128x1x3_S128x1x3_S128x1x3_S128x3x3_d1 : Shape.Concatenates [S128x1x3, S128x1x3, S128x1x3] S128x3x3 1
  slices_S128x16384x3_S128x16384x2_0_0_0 : S128x16384x3.Slices ![0, 0, 0] S128x16384x2
  slices_S128x16384x3_S128x16384x1_0_0_2 : S128x16384x3.Slices ![0, 0, 2] S128x16384x1
  shapeCasts_S128x16384x1_S128x16384 : S128x16384x1.ShapeCasts S128x16384
  reducesTo_S128x16384_S128_d1 : S128x16384.ReducesTo [1] S128
  h_S_ : 0 < S_.numel
  bcast_S128x1_S128x16384_0_1 : S128x1.BroadcastsInDim S128x16384 (![0, 1] : Fin 2 → Fin S128x16384.rank)
  bcast_S_S128x16384 : S_.BroadcastsInDim S128x16384 (![] : Fin 0 → Fin S128x16384.rank)
  bcast_S_S128x1 : S_.BroadcastsInDim S128x1 (![] : Fin 0 → Fin S128x1.rank)
  slices_S128x16384x2_S128x16384x1_0_0_0 : S128x16384x2.Slices ![0, 0, 0] S128x16384x1
  slices_S128x16384x2_S128x16384x1_0_0_1 : S128x16384x2.Slices ![0, 0, 1] S128x16384x1
  bcast_S128x16384_S128x1x16384_0_2 : S128x16384.BroadcastsInDim S128x1x16384 (![0, 2] : Fin 2 → Fin S128x1x16384.rank)
  inb_S1x224x224_S1x224x224_0_0_0 : ∀ a, (![0, 0, 0] : Fin 3 → Nat) a + S1x224x224.size a ≤ S1x224x224.size a
  h_S1x224x224 : 0 < S1x224x224.numel
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S224x1_d0_w32 : S224x1.Iotas .tc 32 [0]
  broadcasts_S224x1_S224x2048 : S224x1.Broadcasts S224x2048
  broadcasts_S1x2048_S224x2048 : S1x2048.Broadcasts S224x2048
  shapeCasts_S1x2048_S1x2048 : S1x2048.ShapeCasts S1x2048
  bitsLt_bf16_f32 : FTy.bits .bf16 < FTy.bits .f32
  shapeCasts_S1x224x224_S224x224 : S1x224x224.ShapeCasts S224x224
  shapeCasts_S224x224_S1x224x224 : S224x224.ShapeCasts S1x224x224
  bcast_S128x224x224_S128x1x224x224_0_2_3 : S128x224x224.BroadcastsInDim S128x1x224x224 (![0, 2, 3] : Fin 3 → Fin S128x1x224x224.rank)
  bcast_S128x1x224x224_S128x3x224x224_0_1_2_3 : S128x1x224x224.BroadcastsInDim S128x3x224x224 (![0, 1, 2, 3] : Fin 4 → Fin S128x3x224x224.rank)
  dot_S128x3x3_S128x3x3_S128x3x3_2_1_1_2_0_0_wf : DotDims.WF S128x3x3 S128x3x3 S128x3x3 [2] [1] [1] [2] [0] [0]
  dot_S128x16384x3_S128x3x3_S128x16384x3_2_2_1_1_0_0_wf : DotDims.WF S128x16384x3 S128x3x3 S128x16384x3 [2] [2] [1] [1] [0] [0]
  dot_S224x2048_S224x2048_S224x224_1_1_0_0_n_n_wf : DotDims.WF S224x2048 S224x2048 S224x224 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S128x1x16384.size a
  hwx0_0 : ∀ i : grid0.Coords, EltTy.bits .i32 = 32 ∨ (Rect.block (s := S128x1x16384) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S128x1x16384.size a
  hwx0_1 : ∀ i : grid0.Coords, EltTy.bits .i32 = 32 ∨ (Rect.block (s := S128x1x16384) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S128x1x16384.size a
  hwx0_2 : ∀ i : grid0.Coords, EltTy.bits .i32 = 32 ∨ (Rect.block (s := S128x1x16384) S1x1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S128x1x16384.size a
  hwx0_3 : ∀ i : grid0.Coords, EltTy.bits .i32 = 32 ∨ (Rect.block (s := S128x1x16384) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S128x1x16384.size a
  hwx0_4 : ∀ i : grid0.Coords, EltTy.bits .f32 = 32 ∨ (Rect.block (s := S128x1x16384) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S128x1x16384.size a
  hwx0_5 : ∀ i : grid0.Coords, EltTy.bits .f32 = 32 ∨ (Rect.block (s := S128x1x16384) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S128x1x16384.size a
  hwx0_6 : ∀ i : grid0.Coords, EltTy.bits .f32 = 32 ∨ (Rect.block (s := S128x1x16384) S1x1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S128x1x16384.size a
  hwx0_7 : ∀ i : grid0.Coords, EltTy.bits .f32 = 32 ∨ (Rect.block (s := S128x1x16384) S1x1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x224x224.size a ≤ S128x224x224.size a
  hwx0_8 : ∀ i : grid0.Coords, EltTy.bits .f32 = 32 ∨ (Rect.block (s := S128x224x224) S1x224x224.size (cc0_transform_8 i) (hinb0_8 i)).WholeWords (EltTy.packing .f32)

variable [Facts₀]

def dot_S128x3x3_S128x3x3_S128x3x3_2_1_1_2_0_0 : DotDims S128x3x3 S128x3x3 S128x3x3 where
  lhsContracting := [2]
  rhsContracting := [1]
  lhsNonContracting := [1]
  rhsNonContracting := [2]
  lhsBatch := [0]
  rhsBatch := [0]
  wf := dot_S128x3x3_S128x3x3_S128x3x3_2_1_1_2_0_0_wf
def dot_S128x16384x3_S128x3x3_S128x16384x3_2_2_1_1_0_0 : DotDims S128x16384x3 S128x3x3 S128x16384x3 where
  lhsContracting := [2]
  rhsContracting := [2]
  lhsNonContracting := [1]
  rhsNonContracting := [1]
  lhsBatch := [0]
  rhsBatch := [0]
  wf := dot_S128x16384x3_S128x3x3_S128x16384x3_2_2_1_1_0_0_wf
def dot_S224x2048_S224x2048_S224x224_1_1_0_0_n_n : DotDims S224x2048 S224x2048 S224x224 where
  lhsContracting := [1]
  rhsContracting := [1]
  lhsNonContracting := [0]
  rhsNonContracting := [0]
  lhsBatch := []
  rhsBatch := []
  wf := dot_S224x2048_S224x2048_S224x224_1_1_0_0_n_n_wf

abbrev win0_0 : Pipeline.Window sig grid0 :=
  Pipeline.Window.ofSpec (Memref.whole main_v113) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v114) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v115) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v116) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v117) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v118) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v119) S1x1x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v120) S1x1x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v121) S1x224x224.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128x16384x3 : Shape := ⟨3, ![128, 16384, 3]⟩
abbrev S128 : Shape := ⟨1, ![128]⟩
abbrev S_ : Shape := ⟨0, ![]⟩
abbrev S128x1 : Shape := ⟨2, ![128, 1]⟩
abbrev S128x3 : Shape := ⟨2, ![128, 3]⟩
abbrev S128x1x3 : Shape := ⟨3, ![128, 1, 3]⟩
abbrev S128x3x3 : Shape := ⟨3, ![128, 3, 3]⟩
abbrev S128x16384x2 : Shape := ⟨3, ![128, 16384, 2]⟩
abbrev S128x16384x1 : Shape := ⟨3, ![128, 16384, 1]⟩
abbrev S128x16384 : Shape := ⟨2, ![128, 16384]⟩
abbrev S128x16384x4 : Shape := ⟨3, ![128, 16384, 4]⟩
abbrev S6422528 : Shape := ⟨1, ![6422528]⟩
abbrev S8388608 : Shape := ⟨1, ![8388608]⟩
abbrev S8388608x1 : Shape := ⟨2, ![8388608, 1]⟩
abbrev S128x1x224x224 : Shape := ⟨4, ![128, 1, 224, 224]⟩
abbrev S128x3x224x224 : Shape := ⟨4, ![128, 3, 224, 224]⟩

abbrev nBuf : Space → Nat
  | .hbm => 228
  | .vmem => 0
  | .smem => 0
  | _ => 0

abbrev hbmTy0_0 (i : Nat) : BufTy := match i % 128 with
  | 0 => ⟨S128x16384x3, .f32⟩
  | 1 => ⟨S128, .f32⟩
  | 2 => ⟨S128, .f32⟩
  | 3 => ⟨S128, .f32⟩
  | 4 => ⟨S128, .f32⟩
  | 5 => ⟨S128, .f32⟩
  | 6 => ⟨S128, .f32⟩
  | 7 => ⟨S_, .f32⟩
  | 8 => ⟨S128, .f32⟩
  | 9 => ⟨S_, .f32⟩
  | 10 => ⟨S128, .f32⟩
  | 11 => ⟨S128x1, .f32⟩
  | 12 => ⟨S128x1, .f32⟩
  | 13 => ⟨S128x1, .f32⟩
  | 14 => ⟨S128x3, .f32⟩
  | 15 => ⟨S128x1, .f32⟩
  | 16 => ⟨S128x1, .f32⟩
  | 17 => ⟨S128x1, .f32⟩
  | 18 => ⟨S128x3, .f32⟩
  | 19 => ⟨S128, .f32⟩
  | 20 => ⟨S128x1, .f32⟩
  | 21 => ⟨S128x1, .f32⟩
  | 22 => ⟨S128x1, .f32⟩
  | 23 => ⟨S128x3, .f32⟩
  | 24 => ⟨S128x1x3, .f32⟩
  | 25 => ⟨S128x1x3, .f32⟩
  | 26 => ⟨S128x1x3, .f32⟩
  | 27 => ⟨S128x3x3, .f32⟩
  | 28 => ⟨S128x1, .f32⟩
  | 29 => ⟨S128x1, .f32⟩
  | 30 => ⟨S128x1, .f32⟩
  | 31 => ⟨S128x3, .f32⟩
  | 32 => ⟨S128, .f32⟩
  | 33 => ⟨S128x1, .f32⟩
  | 34 => ⟨S128x1, .f32⟩
  | 35 => ⟨S128x1, .f32⟩
  | 36 => ⟨S128x3, .f32⟩
  | 37 => ⟨S128x1, .f32⟩
  | 38 => ⟨S128x1, .f32⟩
  | 39 => ⟨S128x1, .f32⟩
  | 40 => ⟨S128x3, .f32⟩
  | 41 => ⟨S128x1x3, .f32⟩
  | 42 => ⟨S128x1x3, .f32⟩
  | 43 => ⟨S128x1x3, .f32⟩
  | 44 => ⟨S128x3x3, .f32⟩
  | 45 => ⟨S128x3x3, .f32⟩
  | 46 => ⟨S128x16384x3, .f32⟩
  | 47 => ⟨S128x16384x2, .f32⟩
  | 48 => ⟨S128x16384x1, .f32⟩
  | 49 => ⟨S128x16384, .f32⟩
  | 50 => ⟨S_, .f32⟩
  | 51 => ⟨S128, .f32⟩
  | 52 => ⟨S128x1, .f32⟩
  | 53 => ⟨S_, .f32⟩
  | 54 => ⟨S128, .f32⟩
  | 55 => ⟨S128x1, .f32⟩
  | 56 => ⟨S128x16384, .f32⟩
  | 57 => ⟨S128x16384, .f32⟩
  | 58 => ⟨S_, .f32⟩
  | 59 => ⟨S128x16384, .f32⟩
  | 60 => ⟨S128x16384, .f32⟩
  | 61 => ⟨S128x1, .f32⟩
  | 62 => ⟨S_, .f32⟩
  | 63 => ⟨S128x1, .f32⟩
  | 64 => ⟨S128x1, .f32⟩
  | 65 => ⟨S128x16384, .f32⟩
  | 66 => ⟨S128x16384, .f32⟩
  | 67 => ⟨S_, .f32⟩
  | 68 => ⟨S128x16384, .f32⟩
  | 69 => ⟨S128x16384, .f32⟩
  | 70 => ⟨S128x16384x1, .f32⟩
  | 71 => ⟨S128x16384, .f32⟩
  | 72 => ⟨S_, .f32⟩
  | 73 => ⟨S128x16384, .f32⟩
  | 74 => ⟨S128x16384, .f32⟩
  | 75 => ⟨S_, .f32⟩
  | 76 => ⟨S128x16384, .f32⟩
  | 77 => ⟨S128x16384, .f32⟩
  | 78 => ⟨S_, .f32⟩
  | 79 => ⟨S128x16384, .f32⟩
  | 80 => ⟨S128x16384, .f32⟩
  | 81 => ⟨S_, .f32⟩
  | 82 => ⟨S128x16384, .f32⟩
  | 83 => ⟨S128x16384, .f32⟩
  | 84 => ⟨S128x16384x1, .f32⟩
  | 85 => ⟨S128x16384, .f32⟩
  | 86 => ⟨S_, .f32⟩
  | 87 => ⟨S128x16384, .f32⟩
  | 88 => ⟨S128x16384, .f32⟩
  | 89 => ⟨S_, .f32⟩
  | 90 => ⟨S128x16384, .f32⟩
  | 91 => ⟨S128x16384, .f32⟩
  | 92 => ⟨S_, .f32⟩
  | 93 => ⟨S128x16384, .f32⟩
  | 94 => ⟨S128x16384, .f32⟩
  | 95 => ⟨S_, .f32⟩
  | 96 => ⟨S128x16384, .f32⟩
  | 97 => ⟨S128x16384, .f32⟩
  | 98 => ⟨S128x16384, .f32⟩
  | 99 => ⟨S128x16384, .f32⟩
  | 100 => ⟨S_, .f32⟩
  | 101 => ⟨S128x16384, .f32⟩
  | 102 => ⟨S128x16384, .f32⟩
  | 103 => ⟨S_, .f32⟩
  | 104 => ⟨S128x16384, .f32⟩
  | 105 => ⟨S128x16384, .f32⟩
  | 106 => ⟨S128x16384, .f32⟩
  | 107 => ⟨S128x16384, .f32⟩
  | 108 => ⟨S128x16384, .f32⟩
  | 109 => ⟨S128x16384, .f32⟩
  | 110 => ⟨S128x16384, .f32⟩
  | 111 => ⟨S128x16384, .f32⟩
  | 112 => ⟨S128x16384, .f32⟩
  | 113 => ⟨S128x16384, .f32⟩
  | 114 => ⟨S128x16384, .f32⟩
  | 115 => ⟨S128x16384, .f32⟩
  | 116 => ⟨S128x16384, .f32⟩
  | 117 => ⟨S128x16384, .f32⟩
  | 118 => ⟨S_, .f32⟩
  | 119 => ⟨S128x16384, .f32⟩
  | 120 => ⟨S128x16384, .i1⟩
  | 121 => ⟨S_, .f32⟩
  | 122 => ⟨S128x16384, .f32⟩
  | 123 => ⟨S128x16384, .i1⟩
  | 124 => ⟨S128x16384, .i1⟩
  | 125 => ⟨S_, .f32⟩
  | 126 => ⟨S128x16384, .f32⟩
  | 127 => ⟨S128x16384, .i1⟩
  | _ => ⟨S128x16384x3, .f32⟩

abbrev hbmTy0_1 (i : Nat) : BufTy := match i % 128 with
  | 0 => ⟨S128x16384, .i1⟩
  | 1 => ⟨S_, .f32⟩
  | 2 => ⟨S128x16384, .f32⟩
  | 3 => ⟨S128x16384, .i1⟩
  | 4 => ⟨S128x16384, .i1⟩
  | 5 => ⟨S128x16384x1, .f32⟩
  | 6 => ⟨S128x16384x1, .f32⟩
  | 7 => ⟨S128x16384x1, .f32⟩
  | 8 => ⟨S128x16384x1, .f32⟩
  | 9 => ⟨S128x16384x4, .f32⟩
  | 10 => ⟨S128x16384, .f32⟩
  | 11 => ⟨S128x16384, .f32⟩
  | 12 => ⟨S128x16384x1, .f32⟩
  | 13 => ⟨S128x16384x4, .f32⟩
  | 14 => ⟨S128x16384x4, .f32⟩
  | 15 => ⟨S_, .i32⟩
  | 16 => ⟨S_, .i32⟩
  | 17 => ⟨S_, .f32⟩
  | 18 => ⟨S128x16384, .f32⟩
  | 19 => ⟨S128x16384, .f32⟩
  | 20 => ⟨S_, .f32⟩
  | 21 => ⟨S128x16384, .f32⟩
  | 22 => ⟨S128x16384, .f32⟩
  | 23 => ⟨S128x16384, .i32⟩
  | 24 => ⟨S_, .i32⟩
  | 25 => ⟨S_, .i32⟩
  | 26 => ⟨S_, .f32⟩
  | 27 => ⟨S128x16384, .f32⟩
  | 28 => ⟨S128x16384, .f32⟩
  | 29 => ⟨S_, .f32⟩
  | 30 => ⟨S128x16384, .f32⟩
  | 31 => ⟨S128x16384, .f32⟩
  | 32 => ⟨S128x16384, .i32⟩
  | 33 => ⟨S_, .i32⟩
  | 34 => ⟨S_, .i32⟩
  | 35 => ⟨S_, .f32⟩
  | 36 => ⟨S128x16384, .f32⟩
  | 37 => ⟨S128x16384, .f32⟩
  | 38 => ⟨S_, .f32⟩
  | 39 => ⟨S128x16384, .f32⟩
  | 40 => ⟨S128x16384, .f32⟩
  | 41 => ⟨S128x16384, .i32⟩
  | 42 => ⟨S_, .i32⟩
  | 43 => ⟨S_, .i32⟩
  | 44 => ⟨S_, .f32⟩
  | 45 => ⟨S128x16384, .f32⟩
  | 46 => ⟨S128x16384, .f32⟩
  | 47 => ⟨S_, .f32⟩
  | 48 => ⟨S128x16384, .f32⟩
  | 49 => ⟨S128x16384, .f32⟩
  | 50 => ⟨S128x16384, .i32⟩
  | 51 => ⟨S128, .i32⟩
  | 52 => ⟨S_, .i32⟩
  | 53 => ⟨S128, .i32⟩
  | 54 => ⟨S128, .i32⟩
  | 55 => ⟨S128x1, .i32⟩
  | 56 => ⟨S_, .i32⟩
  | 57 => ⟨S128x16384, .i32⟩
  | 58 => ⟨S128x16384, .i32⟩
  | 59 => ⟨S128x16384, .i32⟩
  | 60 => ⟨S128x16384, .i32⟩
  | 61 => ⟨S128x16384, .i32⟩
  | 62 => ⟨S_, .i32⟩
  | 63 => ⟨S128x16384, .i32⟩
  | 64 => ⟨S128x16384, .i32⟩
  | 65 => ⟨S128x16384, .i32⟩
  | 66 => ⟨S128x16384, .i32⟩
  | 67 => ⟨S128x16384, .i32⟩
  | 68 => ⟨S_, .i32⟩
  | 69 => ⟨S128x16384, .i32⟩
  | 70 => ⟨S128x16384, .i32⟩
  | 71 => ⟨S128x16384, .i32⟩
  | 72 => ⟨S128x16384, .i32⟩
  | 73 => ⟨S128x16384, .i32⟩
  | 74 => ⟨S_, .i32⟩
  | 75 => ⟨S128x16384, .i32⟩
  | 76 => ⟨S128x16384, .i32⟩
  | 77 => ⟨S128x16384, .i32⟩
  | 78 => ⟨S128x16384, .i32⟩
  | 79 => ⟨S128x16384, .i32⟩
  | 80 => ⟨S128x16384x1, .i32⟩
  | 81 => ⟨S128x16384x1, .i32⟩
  | 82 => ⟨S128x16384x1, .i32⟩
  | 83 => ⟨S128x16384x1, .i32⟩
  | 84 => ⟨S128x16384x4, .i32⟩
  | 85 => ⟨S_, .f32⟩
  | 86 => ⟨S6422528, .f32⟩
  | 87 => ⟨S8388608, .i32⟩
  | 88 => ⟨S8388608, .f32⟩
  | 89 => ⟨S_, .i32⟩
  | 90 => ⟨S8388608, .i32⟩
  | 91 => ⟨S8388608, .i1⟩
  | 92 => ⟨S_, .i32⟩
  | 93 => ⟨S8388608, .i32⟩
  | 94 => ⟨S8388608, .i32⟩
  | 95 => ⟨S8388608, .i32⟩
  | 96 => ⟨S8388608x1, .i32⟩
  | 97 => ⟨S6422528, .f32⟩
  | 98 => ⟨S128x1x224x224, .f32⟩
  | 99 => ⟨S128x3x224x224, .f32⟩
  | _ => ⟨S128x16384x3, .f32⟩

abbrev hbmTy (i : Nat) : BufTy := match i / 128 with
  | 0 => hbmTy0_0 i
  | 1 => hbmTy0_1 i
  | _ => ⟨S128x16384x3, .f32⟩

abbrev bufTy : (tb : Table) → Fin (tcTables nBuf tb) → BufTy
  | .hbm, ⟨i, _⟩ => hbmTy i
  | _, _ => ⟨S128x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_cst_7 : Ref sig .tc := ⟨.hbm, 75, rfl⟩
abbrev main_v64 : Ref sig .tc := ⟨.hbm, 76, rfl⟩
abbrev main_v65 : Ref sig .tc := ⟨.hbm, 77, rfl⟩
abbrev main_cst_8 : Ref sig .tc := ⟨.hbm, 78, rfl⟩
abbrev main_v66 : Ref sig .tc := ⟨.hbm, 79, rfl⟩
abbrev main_v67 : Ref sig .tc := ⟨.hbm, 80, rfl⟩
abbrev main_cst_9 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_10 : Ref sig .tc := ⟨.hbm, 86, rfl⟩
abbrev main_v72 : Ref sig .tc := ⟨.hbm, 87, rfl⟩
abbrev main_v73 : Ref sig .tc := ⟨.hbm, 88, rfl⟩
abbrev main_cst_11 : Ref sig .tc := ⟨.hbm, 89, rfl⟩
abbrev main_v74 : Ref sig .tc := ⟨.hbm, 90, rfl⟩
abbrev main_v75 : Ref sig .tc := ⟨.hbm, 91, rfl⟩
abbrev main_cst_12 : Ref sig .tc := ⟨.hbm, 92, rfl⟩
abbrev main_v76 : Ref sig .tc := ⟨.hbm, 93, rfl⟩
abbrev main_v77 : Ref sig .tc := ⟨.hbm, 94, rfl⟩
abbrev main_cst_13 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_14 : Ref sig .tc := ⟨.hbm, 100, rfl⟩
abbrev main_v82 : Ref sig .tc := ⟨.hbm, 101, rfl⟩
abbrev main_v83 : Ref sig .tc := ⟨.hbm, 102, rfl⟩
abbrev main_cst_15 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_16 : Ref sig .tc := ⟨.hbm, 118, rfl⟩
abbrev main_v98 : Ref sig .tc := ⟨.hbm, 119, rfl⟩
abbrev main_v99 : Ref sig .tc := ⟨.hbm, 120, rfl⟩
abbrev main_cst_17 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_18 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_19 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_c : Ref sig .tc := ⟨.hbm, 143, rfl⟩
abbrev main_c_20 : Ref sig .tc := ⟨.hbm, 144, rfl⟩
abbrev main_call0_v0 : Ref sig .tc := ⟨.hbm, 145, rfl⟩
abbrev main_call0_v1 : Ref sig .tc := ⟨.hbm, 146, rfl⟩
abbrev main_call0_v2 : Ref sig .tc := ⟨.hbm, 147, rfl⟩
abbrev main_call0_v3 : Ref sig .tc := ⟨.hbm, 148, rfl⟩
abbrev main_call0_v4 : Ref sig .tc := ⟨.hbm, 149, rfl⟩
abbrev main_v119 : Ref sig .tc := ⟨.hbm, 150, rfl⟩
abbrev main_v120 : Ref sig .tc := ⟨.hbm, 151, rfl⟩
abbrev main_c_21 : Ref sig .tc := ⟨.hbm, 152, rfl⟩
abbrev main_c_22 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_call1_v3 : Ref sig .tc := ⟨.hbm, 157, rfl⟩
abbrev main_call1_v4 : Ref sig .tc := ⟨.hbm, 158, rfl⟩
abbrev main_v121 : Ref sig .tc := ⟨.hbm, 159, rfl⟩
abbrev main_v122 : Ref sig .tc := ⟨.hbm, 160, rfl⟩
abbrev main_c_23 : Ref sig .tc := ⟨.hbm, 161, rfl⟩
abbrev main_c_24 : Ref sig .tc := ⟨.hbm, 162, rfl⟩
abbrev main_call2_v0 : Ref sig .tc := ⟨.hbm, 163, rfl⟩
abbrev main_call2_v1 : Ref sig .tc := ⟨.hbm, 164, rfl⟩
abbrev main_call2_v2 : Ref sig .tc := ⟨.hbm, 165, rfl⟩
abbrev main_call2_v3 : Ref sig .tc := ⟨.hbm, 166, rfl⟩
abbrev main_call2_v4 : Ref sig .tc := ⟨.hbm, 167, rfl⟩
abbrev main_v123 : Ref sig .tc := ⟨.hbm, 168, rfl⟩
abbrev main_v124 : Ref sig .tc := ⟨.hbm, 169, rfl⟩
abbrev main_c_25 : Ref sig .tc := ⟨.hbm, 170, rfl⟩
abbrev main_c_26 : Ref sig .tc := ⟨.hbm, 171, rfl⟩
abbrev main_call3_v0 : Ref sig .tc := ⟨.hbm, 172, rfl⟩
abbrev main_call3_v1 : Ref sig .tc := ⟨.hbm, 173, rfl⟩
abbrev main_call3_v2 : Ref sig .tc := ⟨.hbm, 174, rfl⟩
abbrev main_call3_v3 : Ref sig .tc := ⟨.hbm, 175, rfl⟩
abbrev main_call3_v4 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_c_27 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_c_28 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_c_29 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_c_30 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_c_31 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_32 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_c_33 : Ref sig .tc := ⟨.hbm, 217, rfl⟩
abbrev main_v159 : Ref sig .tc := ⟨.hbm, 218, rfl⟩
abbrev main_v160 : Ref sig .tc := ⟨.hbm, 219, rfl⟩
abbrev main_c_34 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  concatenates_S128x1_S128x1_S128x1_S128x3_d1 : Shape.Concatenates [S128x1, S128x1, S128x1] S128x3 1
  bcast_S128x3_S128x1x3_0_2 : S128x3.BroadcastsInDim S128x1x3 (![0, 2] : Fin 2 → Fin S128x1x3.rank)
  concatenates_S128x1x3_S128x1x3_S128x1x3_S128x3x3_d1 : Shape.Concatenates [S128x1x3, S128x1x3, S128x1x3] S128x3x3 1
  slices_S128x16384x3_S128x16384x2_0_0_0 : S128x16384x3.Slices ![0, 0, 0] S128x16384x2
  slices_S128x16384x3_S128x16384x1_0_0_2 : S128x16384x3.Slices ![0, 0, 2] S128x16384x1
  shapeCasts_S128x16384x1_S128x16384 : S128x16384x1.ShapeCasts S128x16384
  reducesTo_S128x16384_S128_d1 : S128x16384.ReducesTo [1] S128
  h_S_ : 0 < S_.numel
  bcast_S128x1_S128x16384_0_1 : S128x1.BroadcastsInDim S128x16384 (![0, 1] : Fin 2 → Fin S128x16384.rank)
  bcast_S_S128x16384 : S_.BroadcastsInDim S128x16384 (![] : Fin 0 → Fin S128x16384.rank)
  bcast_S_S128x1 : S_.BroadcastsInDim S128x1 (![] : Fin 0 → Fin S128x1.rank)
  slices_S128x16384x2_S128x16384x1_0_0_0 : S128x16384x2.Slices ![0, 0, 0] S128x16384x1
  slices_S128x16384x2_S128x16384x1_0_0_1 : S128x16384x2.Slices ![0, 0, 1] S128x16384x1
  bcast_S128x16384_S128x16384x1_0_1 : S128x16384.BroadcastsInDim S128x16384x1 (![0, 1] : Fin 2 → Fin S128x16384x1.rank)
  concatenates_S128x16384x1_S128x16384x1_S128x16384x1_S128x16384x1_S128x16384x4_d2 : Shape.Concatenates [S128x16384x1, S128x16384x1, S128x16384x1, S128x16384x1] S128x16384x4 2
  bcast_S128x16384x1_S128x16384x4_0_1_2 : S128x16384x1.BroadcastsInDim S128x16384x4 (![0, 1, 2] : Fin 3 → Fin S128x16384x4.rank)
  bcast_S_S6422528 : S_.BroadcastsInDim S6422528 (![] : Fin 0 → Fin S6422528.rank)
  shapeCasts_S128x16384x4_S8388608 : S128x16384x4.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S6422528_S128x1x224x224 : S6422528.ShapeCasts S128x1x224x224
  bcast_S128x1x224x224_S128x3x224x224_0_1_2_3 : S128x1x224x224.BroadcastsInDim S128x3x224x224 (![0, 1, 2, 3] : Fin 4 → Fin S128x3x224x224.rank)
  dot_S128x3x3_S128x3x3_S128x3x3_2_1_1_2_0_0_wf : DotDims.WF S128x3x3 S128x3x3 S128x3x3 [2] [1] [1] [2] [0] [0]
  dot_S128x16384x3_S128x3x3_S128x16384x3_2_2_1_1_0_0_wf : DotDims.WF S128x16384x3 S128x3x3 S128x16384x3 [2] [2] [1] [1] [0] [0]
  scatter_S6422528_S8388608x1_S8388608_n_0_0_1_wf : ScatterDims.WF S6422528 S8388608x1 S8388608 [] [0] [0] 1

variable [Facts₀]

def dot_S128x3x3_S128x3x3_S128x3x3_2_1_1_2_0_0 : DotDims S128x3x3 S128x3x3 S128x3x3 where
  lhsContracting := [2]
  rhsContracting := [1]
  lhsNonContracting := [1]
  rhsNonContracting := [2]
  lhsBatch := [0]
  rhsBatch := [0]
  wf := dot_S128x3x3_S128x3x3_S128x3x3_2_1_1_2_0_0_wf
def dot_S128x16384x3_S128x3x3_S128x16384x3_2_2_1_1_0_0 : DotDims S128x16384x3 S128x3x3 S128x16384x3 where
  lhsContracting := [2]
  rhsContracting := [2]
  lhsNonContracting := [1]
  rhsNonContracting := [1]
  lhsBatch := [0]
  rhsBatch := [0]
  wf := dot_S128x16384x3_S128x3x3_S128x16384x3_2_2_1_1_0_0_wf
def scatter_S6422528_S8388608x1_S8388608_n_0_0_1 : ScatterDims S6422528 S8388608x1 S8388608 where
  updateWindowDims := []
  insertedWindowDims := [0]
  scatterDimsToOperandDims := [0]
  indexVectorDim := 1
  wf := scatter_S6422528_S8388608x1_S8388608_n_0_0_1_wf

class Facts : Prop extends Facts₀ where

variable [Facts]
-- ==== Proof.KB.Around.lean ====
/-
  The main function around its one kernel region: nine stretches of host operations compute the eight operand arrays,
  the region runs over a grid of 128 x 8 points, and two host operations broadcast its result over the channel axis.

  This module fixes the valuation the region is entered at (the launch contents moved along the nine stretches), shows
  that the main function is these stretches, the region and the closing stretch, that the closing stretch keeps to
  buffers the region does not hold and writes none of its arrays, and that no host operation writes an argument of
  the main function, so that the arguments are found as launched before the region and after the closing stretch. It
  then names each window's block at a grid point, shows that every input window's staging buffer holds its block when
  the body is called, decides at which grid points the body resets the output block (the first point of each batch
  row: the second grid coordinate is zero), and names the staging buffers the pipeline passes to the body.
-/
import proofs.«118935_j6828998001445_1_alg».proof.Proof.Gen.Kernel.Launch
import proofs.«118935_j6828998001445_1_alg».proof.Proof.Gen.Kernel.Skeleton
import proofs.«118935_j6828998001445_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuation at the region's entry -/

/-- The buffer contents of core `c` when the region is entered: the launch contents moved along the nine stretches
    of host operations that precede it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The main function is the nine stretches, the region, and the closing stretch: it reduces to the region continued by
    the closing stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The closing stretch touches only the region's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's arrays: each of its two operations writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the closing stretch: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the closing stretch: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the closing stretch: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data whose array is the
    entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data whose array is the
    entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data whose array is the
    entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data whose array is the
    entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, for any proof data whose array is the
    entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- From a run that ends with every array of the region at what the write-backs leave and every other buffer at the
    contents after the closing stretch, the arguments of the main function end as launched: no window stages them and
    no host operation writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## Where the body resets its output block -/

/-- The body's one branch: the second grid coordinate is zero (the first of the eight points of a batch row). -/
abbrev cond0_0 (i : grid0.Coords) : Prop := (Scalar.cmpi .ne (Scalar.extui (Scalar.cmpi .eq (BitVec.ofNat 32 (i 1).val) 0#32)) 0#32) = 1#1
/-- It holds exactly at the points whose position is a multiple of eight. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging buffers the body is called with -/

/-- One staging buffer of the output window, through which its contents are stated. -/
abbrev VO0_8 : View sig .tc .vmem S1x224x224 .f32 := (Memref.whole cc0_stg8_0 : Memref sig .tc .vmem S1x224x224 .f32).view
abbrev ms0_0 (t : Fin cfg0.N) : Memref sig .tc .vmem S1x1x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x224x224 .f32 := win0_8.stage (cfg0.slots t 8)
abbrev hs0_8 (t : Fin cfg0.N) : (ms0_8 t).IsWhole := hstage0_8 ((cfg0.slots t 8).cast nbuf0_8)

end Cert.Kernel.Hand

end
-- ==== Proof.KB.RunReset.lean ====
/-
  The kernel body at a grid point where its branch is taken (the first of the eight points of a batch row): it stores
  zeros over the whole output block, loads the eight operand blocks, and stores the block read back plus the product of
  the two selection matrices. The run is found by symbolic execution over the body's skeleton; what it leaves in the
  output's staging buffer is the list of pieces the two stores wrote, the later first.
-/
import proofs.«118935_j6828998001445_1_alg».proof.Proof.KB.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is taken, on whole staging buffers: the eight inputs at given contents, the output at anything. It runs to the continuation holding the inputs as they were and the output's buffer with the pieces `L8` written. -/
noncomputable def kernelRunReset (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) :
    { L8 : List (View.Piece (Elt F) S1x224x224 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__hist_kernel i arg2 harg2 arg3 harg3 arg4 harg4 arg5 harg5 arg6 harg6 arg7 harg7 arg8 harg8 arg9 harg9 arg10 harg10) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.Kernel.Hand

end
-- ==== Proof.KB.RunAdd.lean ====
/-
  The kernel body at a grid point where its branch is not taken (the seven later points of a batch row): it loads the
  eight operand blocks and the output block as the point before left it, and stores that block plus the product of the
  two selection matrices. The run is found by symbolic execution over the body's skeleton; what it leaves in the
  output's staging buffer is the one piece the store wrote.
-/
import proofs.«118935_j6828998001445_1_alg».proof.Proof.KB.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is not taken, on whole staging buffers: the eight inputs at given contents, the output at its running contents `xo8`, which the body reads before it overwrites them. It runs to the continuation holding the inputs as they were and the output's buffer with the pieces `L8` written. -/
noncomputable def kernelRunAdd (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : ¬cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) (xo8 : Vec F S1x224x224 .f32) :
    { L8 : List (View.Piece (Elt F) S1x224x224 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__hist_kernel i arg2 harg2 arg3 harg3 arg4 harg4 arg5 harg5 arg6 harg6 arg7 harg7 arg8 harg8 arg9 harg9 arg10 harg10) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.Kernel.Hand

end
-- ==== Proof.KB.Frame.lean ====
/-
  The kernel region's run, point by point, and the program's frame.

  At the first of the eight points of a batch row the body resets the output block and adds the first tile's product;
  at the seven later points it adds the next tile's product to what the point before left. The output block is
  written back after the eighth point. This module names what the output's staging buffer holds after each point (by
  recursion on the point), gives the pipeline's proof data over it, discharges the body's obligation at every point
  from the two runs of the body, and concludes: every fair execution of the main function terminates, and every
  argument ends as launched.
-/
import proofs.«118935_j6828998001445_1_alg».proof.Proof.KB.RunReset
import proofs.«118935_j6828998001445_1_alg».proof.Proof.KB.RunAdd

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces a resetting point writes tile the output block, so they cover it. -/
theorem coverReset (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) (y : S1x224x224.Idx) :
    ∃ pc ∈ (kernelRunReset c i arg2 harg2 arg3 harg3 arg4 harg4 arg5 harg5 arg6 harg6 arg7 harg7 arg8 harg8 arg9 harg9 arg10 harg10 hc0 x0 x1 x2 x3 x4 x5 x6 x7).1, y ∈ pc.1.set :=
  View.cover_of_tiledL (kernelRunReset c i arg2 harg2 arg3 harg3 arg4 harg4 arg5 harg5 arg6 harg6 arg7 harg7 arg8 harg8 arg9 harg9 arg10 harg10 hc0 x0 x1 x2 x3 x4 x5 x6 x7).1 S1x224x224.size (by sl_kernel_rfl) y

/-- What a resetting point leaves in the output's staging buffer: its pieces read back. -/
def outReset (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) : Vec F S1x224x224 .f32 :=
  VO0_8.read (Elt F) (VO0_8.writes (Elt F) VO0_8.junk (kernelRunReset c i arg2 harg2 arg3 harg3 arg4 harg4 arg5 harg5 arg6 harg6 arg7 harg7 arg8 harg8 arg9 harg9 arg10 harg10 hc0 x0 x1 x2 x3 x4 x5 x6 x7).1)

/-- The piece an adding point writes is the whole output block. -/
theorem coverAdd (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : ¬cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) (xo8 : Vec F S1x224x224 .f32) (y : S1x224x224.Idx) :
    ∃ pc ∈ (kernelRunAdd c i arg2 harg2 arg3 harg3 arg4 harg4 arg5 harg5 arg6 harg6 arg7 harg7 arg8 harg8 arg9 harg9 arg10 harg10 hc0 x0 x1 x2 x3 x4 x5 x6 x7 xo8).1, y ∈ pc.1.set :=
  View.cover_of_tiledL (kernelRunAdd c i arg2 harg2 arg3 harg3 arg4 harg4 arg5 harg5 arg6 harg6 arg7 harg7 arg8 harg8 arg9 harg9 arg10 harg10 hc0 x0 x1 x2 x3 x4 x5 x6 x7 xo8).1 S1x224x224.size (by sl_kernel_rfl) y

/-- What an adding point leaves in the output's staging buffer, over what the point before left. -/
def outAdd (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : ¬cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) (xo8 : Vec F S1x224x224 .f32) : Vec F S1x224x224 .f32 :=
  VO0_8.read (Elt F) (VO0_8.writes (Elt F) VO0_8.junk (kernelRunAdd c i arg2 harg2 arg3 harg3 arg4 harg4 arg5 harg5 arg6 harg6 arg7 harg7 arg8 harg8 arg9 harg9 arg10 harg10 hc0 x0 x1 x2 x3 x4 x5 x6 x7 xo8).1)

/-! ## What the output's staging buffer holds after each point -/

/-- The accumulation: after position `n`, a resetting point's contents where `n` is a multiple of eight, and otherwise
    an adding point's contents over what position `n - 1` left (the buffer is not written back in between). -/
def outsAt0 (c : Dev nD) : (n : ℕ) → n < cfg0.N → Vec F S1x224x224 .f32
  | 0, hn => outReset c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 8 = 0 then
      outReset c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      outAdd c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- At a resetting point. -/
theorem outsAt0_reset (c : Dev nD) (t : Fin cfg0.N) (h0 : t.val % 8 = 0) :
    outsAt0 m c t.val t.isLt = outReset c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- At an adding point. -/
theorem outsAt0_add (c : Dev nD) (t : Fin cfg0.N) (h0 : ¬t.val % 8 = 0) :
    outsAt0 m c t.val t.isLt = outAdd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the output's
    at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At an adding point the output's staging buffer holds what the body left at the point before: the point is not the
    first, and the buffer is written back only after the eighth point of a row. -/
theorem before0_8_add (c : Dev nD) (t : Fin cfg0.N) (h0 : ¬t.val % 8 = 0) (d) :
    (dats m 0 c).before 8 t d = (outsAt0 m c (t.val - 1) (Nat.lt_of_le_of_lt (Nat.sub_le _ _) t.isLt)) := by
  have hN : t.val < 1024 := lt_of_lt_of_eq t.isLt (show cfg0.N = 1024 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point: the inputs' buffers hold their blocks; the point either resets or adds, and at an adding
    point the output's buffer holds what the point before left; so one of the two runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 1024 := lt_of_lt_of_eq t.isLt (show cfg0.N = 1024 from N_0)
  by_cases h0 : t.val % 8 = 0
  · rw [outsAt0_reset m c t h0]
    unfold outReset
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunReset c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverReset c _ _ _ _ _ _ _ _ _ _ _ _ _ _ _ _ _ _ _ _ _ _ _ _ _ _ _ _ )
  · rw [outsAt0_add m c t h0]
    simp only [before0_8_add m c t h0]
    unfold outAdd
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunAdd c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverAdd c _ _ _ _ _ _ _ _ _ _ _ _ _ _ _ _ _ _ _ _ _ _ _ _ _ _ _ _ _ )

/-- The body's obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every fair execution of the main function terminates; every final state has the region's arrays at what the proof
    data compute and every other buffer at the contents after the closing stretch. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every fair execution of the main function terminates without a fault and leaves its three arguments
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.KI.Around.lean ====
/-
  The main function around its one kernel region: nine stretches of host operations compute the eight operand arrays,
  the region runs over a grid of 128 x 8 points, and two host operations broadcast its result over the channel axis.

  This module fixes the valuation the region is entered at (the launch contents moved along the nine stretches), shows
  that the main function is these stretches, the region and the closing stretch, that the closing stretch keeps to
  buffers the region does not hold and writes none of its arrays, and that no host operation writes an argument of
  the main function, so that the arguments are found as launched before the region and after the closing stretch. It
  then names each window's block at a grid point, shows that every input window's staging buffer holds its block when
  the body is called, decides at which grid points the body resets the output block (the first point of each batch
  row: the second grid coordinate is zero), and names the staging buffers the pipeline passes to the body.
-/
import proofs.«118935_j6828998001445_1_alg».proof.Proof.Gen.KernelIdeal.Launch
import proofs.«118935_j6828998001445_1_alg».proof.Proof.Gen.KernelIdeal.Skeleton
import proofs.«118935_j6828998001445_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuation at the region's entry -/

/-- The buffer contents of core `c` when the region is entered: the launch contents moved along the nine stretches
    of host operations that precede it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The main function is the nine stretches, the region, and the closing stretch: it reduces to the region continued by
    the closing stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The closing stretch touches only the region's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's arrays: each of its two operations writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the closing stretch: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the closing stretch: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the closing stretch: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data whose array is the
    entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data whose array is the
    entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data whose array is the
    entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data whose array is the
    entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, for any proof data whose array is the
    entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- From a run that ends with every array of the region at what the write-backs leave and every other buffer at the
    contents after the closing stretch, the arguments of the main function end as launched: no window stages them and
    no host operation writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## Where the body resets its output block -/

/-- The body's one branch: the second grid coordinate is zero (the first of the eight points of a batch row). -/
abbrev cond0_0 (i : grid0.Coords) : Prop := (Scalar.cmpi .ne (Scalar.extui (Scalar.cmpi .eq (BitVec.ofNat 32 (i 1).val) 0#32)) 0#32) = 1#1
/-- It holds exactly at the points whose position is a multiple of eight. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging buffers the body is called with -/

/-- One staging buffer of the output window, through which its contents are stated. -/
abbrev VO0_8 : View sig .tc .vmem S1x224x224 .f32 := (Memref.whole cc0_stg8_0 : Memref sig .tc .vmem S1x224x224 .f32).view
abbrev ms0_0 (t : Fin cfg0.N) : Memref sig .tc .vmem S1x1x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x224x224 .f32 := win0_8.stage (cfg0.slots t 8)
abbrev hs0_8 (t : Fin cfg0.N) : (ms0_8 t).IsWhole := hstage0_8 ((cfg0.slots t 8).cast nbuf0_8)

end Cert.KernelIdeal.Hand

end
-- ==== Proof.KI.RunReset.lean ====
/-
  The kernel body at a grid point where its branch is taken (the first of the eight points of a batch row): it stores
  zeros over the whole output block, loads the eight operand blocks, and stores the block read back plus the product of
  the two selection matrices. The run is found by symbolic execution over the body's skeleton; what it leaves in the
  output's staging buffer is the list of pieces the two stores wrote, the later first.
-/
import proofs.«118935_j6828998001445_1_alg».proof.Proof.KI.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is taken, on whole staging buffers: the eight inputs at given contents, the output at anything. It runs to the continuation holding the inputs as they were and the output's buffer with the pieces `L8` written. -/
noncomputable def kernelRunReset (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) :
    { L8 : List (View.Piece (Elt F) S1x224x224 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__hist_kernel i arg2 harg2 arg3 harg3 arg4 harg4 arg5 harg5 arg6 harg6 arg7 harg7 arg8 harg8 arg9 harg9 arg10 harg10) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.KernelIdeal.Hand

end
-- ==== Proof.KI.RunAdd.lean ====
/-
  The kernel body at a grid point where its branch is not taken (the seven later points of a batch row): it loads the
  eight operand blocks and the output block as the point before left it, and stores that block plus the product of the
  two selection matrices. The run is found by symbolic execution over the body's skeleton; what it leaves in the
  output's staging buffer is the one piece the store wrote.
-/
import proofs.«118935_j6828998001445_1_alg».proof.Proof.KI.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is not taken, on whole staging buffers: the eight inputs at given contents, the output at its running contents `xo8`, which the body reads before it overwrites them. It runs to the continuation holding the inputs as they were and the output's buffer with the pieces `L8` written. -/
noncomputable def kernelRunAdd (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : ¬cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) (xo8 : Vec F S1x224x224 .f32) :
    { L8 : List (View.Piece (Elt F) S1x224x224 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8)) -∗ K ⟨⟩))
          ⊢ wp frame (wpE (defs₀ (F := F)) Variants.none c none) E (cc0__hist_kernel i arg2 harg2 arg3 harg3 arg4 harg4 arg5 harg5 arg6 harg6 arg7 harg7 arg8 harg8 arg9 harg9 arg10 harg10) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.KernelIdeal.Hand

end
-- ==== Proof.KI.Frame.lean ====
/-
  The kernel region's run, point by point, and the program's frame.

  At the first of the eight points of a batch row the body resets the output block and adds the first tile's product;
  at the seven later points it adds the next tile's product to what the point before left. The output block is
  written back after the eighth point. This module names what the output's staging buffer holds after each point (by
  recursion on the point), gives the pipeline's proof data over it, discharges the body's obligation at every point
  from the two runs of the body, and concludes: every fair execution of the main function terminates, and every
  argument ends as launched.
-/
import proofs.«118935_j6828998001445_1_alg».proof.Proof.KI.RunReset
import proofs.«118935_j6828998001445_1_alg».proof.Proof.KI.RunAdd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces a resetting point writes tile the output block, so they cover it. -/
theorem coverReset (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) (y : S1x224x224.Idx) :
    ∃ pc ∈ (kernelRunReset c i arg2 harg2 arg3 harg3 arg4 harg4 arg5 harg5 arg6 harg6 arg7 harg7 arg8 harg8 arg9 harg9 arg10 harg10 hc0 x0 x1 x2 x3 x4 x5 x6 x7).1, y ∈ pc.1.set :=
  View.cover_of_tiledL (kernelRunReset c i arg2 harg2 arg3 harg3 arg4 harg4 arg5 harg5 arg6 harg6 arg7 harg7 arg8 harg8 arg9 harg9 arg10 harg10 hc0 x0 x1 x2 x3 x4 x5 x6 x7).1 S1x224x224.size (by sl_kernel_rfl) y

/-- What a resetting point leaves in the output's staging buffer: its pieces read back. -/
def outReset (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) : Vec F S1x224x224 .f32 :=
  VO0_8.read (Elt F) (VO0_8.writes (Elt F) VO0_8.junk (kernelRunReset c i arg2 harg2 arg3 harg3 arg4 harg4 arg5 harg5 arg6 harg6 arg7 harg7 arg8 harg8 arg9 harg9 arg10 harg10 hc0 x0 x1 x2 x3 x4 x5 x6 x7).1)

/-- The piece an adding point writes is the whole output block. -/
theorem coverAdd (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : ¬cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) (xo8 : Vec F S1x224x224 .f32) (y : S1x224x224.Idx) :
    ∃ pc ∈ (kernelRunAdd c i arg2 harg2 arg3 harg3 arg4 harg4 arg5 harg5 arg6 harg6 arg7 harg7 arg8 harg8 arg9 harg9 arg10 harg10 hc0 x0 x1 x2 x3 x4 x5 x6 x7 xo8).1, y ∈ pc.1.set :=
  View.cover_of_tiledL (kernelRunAdd c i arg2 harg2 arg3 harg3 arg4 harg4 arg5 harg5 arg6 harg6 arg7 harg7 arg8 harg8 arg9 harg9 arg10 harg10 hc0 x0 x1 x2 x3 x4 x5 x6 x7 xo8).1 S1x224x224.size (by sl_kernel_rfl) y

/-- What an adding point leaves in the output's staging buffer, over what the point before left. -/
def outAdd (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : ¬cond0_0 i)
    (x0 : Vec F S1x1x2048 .i32) (x1 : Vec F S1x1x2048 .i32) (x2 : Vec F S1x1x2048 .i32) (x3 : Vec F S1x1x2048 .i32) (x4 : Vec F S1x1x2048 .f32) (x5 : Vec F S1x1x2048 .f32) (x6 : Vec F S1x1x2048 .f32) (x7 : Vec F S1x1x2048 .f32) (xo8 : Vec F S1x224x224 .f32) : Vec F S1x224x224 .f32 :=
  VO0_8.read (Elt F) (VO0_8.writes (Elt F) VO0_8.junk (kernelRunAdd c i arg2 harg2 arg3 harg3 arg4 harg4 arg5 harg5 arg6 harg6 arg7 harg7 arg8 harg8 arg9 harg9 arg10 harg10 hc0 x0 x1 x2 x3 x4 x5 x6 x7 xo8).1)

/-! ## What the output's staging buffer holds after each point -/

/-- The accumulation: after position `n`, a resetting point's contents where `n` is a multiple of eight, and otherwise
    an adding point's contents over what position `n - 1` left (the buffer is not written back in between). -/
def outsAt0 (c : Dev nD) : (n : ℕ) → n < cfg0.N → Vec F S1x224x224 .f32
  | 0, hn => outReset c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 8 = 0 then
      outReset c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      outAdd c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- At a resetting point. -/
theorem outsAt0_reset (c : Dev nD) (t : Fin cfg0.N) (h0 : t.val % 8 = 0) :
    outsAt0 m c t.val t.isLt = outReset c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- At an adding point. -/
theorem outsAt0_add (c : Dev nD) (t : Fin cfg0.N) (h0 : ¬t.val % 8 = 0) :
    outsAt0 m c t.val t.isLt = outAdd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the output's
    at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At an adding point the output's staging buffer holds what the body left at the point before: the point is not the
    first, and the buffer is written back only after the eighth point of a row. -/
theorem before0_8_add (c : Dev nD) (t : Fin cfg0.N) (h0 : ¬t.val % 8 = 0) (d) :
    (dats m 0 c).before 8 t d = (outsAt0 m c (t.val - 1) (Nat.lt_of_le_of_lt (Nat.sub_le _ _) t.isLt)) := by
  have hN : t.val < 1024 := lt_of_lt_of_eq t.isLt (show cfg0.N = 1024 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point: the inputs' buffers hold their blocks; the point either resets or adds, and at an adding
    point the output's buffer holds what the point before left; so one of the two runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 1024 := lt_of_lt_of_eq t.isLt (show cfg0.N = 1024 from N_0)
  by_cases h0 : t.val % 8 = 0
  · rw [outsAt0_reset m c t h0]
    unfold outReset
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunReset c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverReset c _ _ _ _ _ _ _ _ _ _ _ _ _ _ _ _ _ _ _ _ _ _ _ _ _ _ _ _ )
  · rw [outsAt0_add m c t h0]
    simp only [before0_8_add m c t h0]
    unfold outAdd
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunAdd c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverAdd c _ _ _ _ _ _ _ _ _ _ _ _ _ _ _ _ _ _ _ _ _ _ _ _ _ _ _ _ _ )

/-- The body's obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every fair execution of the main function terminates; every final state has the region's arrays at what the proof
    data compute and every other buffer at the contents after the closing stretch. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every fair execution of the main function terminates without a fault and leaves its three arguments
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.KI.PointValue.lean ====
/-
  What one grid point adds to the output block, at the ideal instance.

  The body builds two selection matrices over the tile's 2048 points: the row selector, whose entry (h, k) is the first
  row weight of point k where h is its first corner row plus the second row weight where h is its second corner row,
  and the column selector likewise over columns; it multiplies the first by the transpose of the second (a sum over the
  tile's points) and adds the product to the output block: to zeros at a resetting point, to what the point before left
  at an adding point. Changing the float format of the selectors is the identity on the extended reals.
-/
import proofs.«118935_j6828998001445_1_alg».proof.Proof.KI.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- One point's product of selectors at pixel (h, w): `x0, x1` the corner rows, `x2, x3` the corner columns, `x4, x5` the
    row weights (already scaled), `x6, x7` the column weights, all read at point `k` of the tile. -/
def tileTerm (x0 x1 x2 x3 : Vec Ideal S1x1x2048 .i32) (x4 x5 x6 x7 : Vec Ideal S1x1x2048 .f32) (h w : Fin 224) (k : Fin 2048) : EReal :=
  ((if BitVec.ofNat 32 h.val = x0 (ix3 0 0 k) then x4 (ix3 0 0 k) else 0) + (if BitVec.ofNat 32 h.val = x1 (ix3 0 0 k) then x5 (ix3 0 0 k) else 0))
    * ((if BitVec.ofNat 32 w.val = x2 (ix3 0 0 k) then x6 (ix3 0 0 k) else 0) + (if BitVec.ofNat 32 w.val = x3 (ix3 0 0 k) then x7 (ix3 0 0 k) else 0))

/-! ## What each run leaves is its last store's payload -/

section AnyInstance
variable {F : FTy → Type} [FloatOps F]

theorem hz3 : (![0, 0, 0] : Fin 3 → Nat) = fun _ => 0 := funext fun a => by fin_cases a <;> rfl

/-- What an adding point leaves is its one store's payload over the loaded blocks. -/
theorem outAdd_eq (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : ¬cond0_0 i)
    (x0 x1 x2 x3 : Vec F S1x1x2048 .i32) (x4 x5 x6 x7 : Vec F S1x1x2048 .f32) (xo8 : Vec F S1x224x224 .f32) :
    outAdd c i arg2 harg2 arg3 harg3 arg4 harg4 arg5 harg5 arg6 harg6 arg7 harg7 arg8 harg8 arg9 harg9 arg10 harg10 hc0 x0 x1 x2 x3 x4 x5 x6 x7 xo8
      = k0_pay1 (k0_pay3 x2) (k0_pay4 x3) (k0_pay5 x5) (k0_pay6 x6) (k0_pay7 x7) (iota .tc S224x1 32 [0] iota_S224x1_d0_w32) (k0_pay8 x0 x4) k0_pay9 (k0_pay10 x1) xo8 := by
  unfold outAdd
  rw [View.read_writes_eq_canon _ _ _ (coverAdd c i arg2 harg2 arg3 harg3 arg4 harg4 arg5 harg5 arg6 harg6 arg7 harg7 arg8 harg8 arg9 harg9 arg10 harg10 hc0 x0 x1 x2 x3 x4 x5 x6 x7 xo8)]
  unfold kernelRunAdd
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x1x2048) hz3, View.ld_unit_zero (S := S1x224x224) hz3]

/-- What a resetting point leaves is its last store's payload over the loaded blocks and the zeros it stored first. -/
theorem outReset_eq (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : cond0_0 i)
    (x0 x1 x2 x3 : Vec F S1x1x2048 .i32) (x4 x5 x6 x7 : Vec F S1x1x2048 .f32) :
    outReset c i arg2 harg2 arg3 harg3 arg4 harg4 arg5 harg5 arg6 harg6 arg7 harg7 arg8 harg8 arg9 harg9 arg10 harg10 hc0 x0 x1 x2 x3 x4 x5 x6 x7
      = k0_pay1 (k0_pay3 x2) (k0_pay4 x3) (k0_pay5 x5) (k0_pay6 x6) (k0_pay7 x7) (iota .tc S224x1 32 [0] iota_S224x1_d0_w32) (k0_pay8 x0 x4) k0_pay9 (k0_pay10 x1) k0_pay2 := by
  unfold outReset
  rw [View.read_writes_eq_canon _ _ _ (coverReset c i arg2 harg2 arg3 harg3 arg4 harg4 arg5 harg5 arg6 harg6 arg7 harg7 arg8 harg8 arg9 harg9 arg10 harg10 hc0 x0 x1 x2 x3 x4 x5 x6 x7)]
  unfold kernelRunReset
  dsimp only
  sl_unfold_words
  rw [View.canon_cons_unit_zero (S := S1x224x224) hz3, View.readCov_unit_zero (S := S1x224x224) _ hz3]
  simp only [View.readAt_eq_ld, harg2.read_unread, harg3.read_unread, harg4.read_unread, harg5.read_unread, harg6.read_unread, harg7.read_unread, harg8.read_unread, harg9.read_unread, View.ld_unit_zero (S := S1x1x2048) hz3]

end AnyInstance

/-! ## The layout operations of the body at explicit coordinates -/

/-- A [1,1,2048] block viewed [1,2048] reads point k at (0,0,k). -/
theorem dropRow_apply {α : Type} (x : S1x1x2048.Idx → α) (k : Fin 2048) :
    shapeCast S1x2048 x shapeCasts_S1x1x2048_S1x2048 (ix2 (0 : Fin 1) k) = x (ix3 (0 : Fin 1) (0 : Fin 1) k) :=
  shapeCast_1ab_ab_apply x shapeCasts_S1x1x2048_S1x2048 (0 : Fin 1) k

/-- One row spread over the 224 rows reads its entry at the column. -/
theorem rows_apply {α : Type} (v : S1x2048.Idx → α) (h : Fin 224) (k : Fin 2048) :
    broadcastTo S224x2048 v broadcasts_S1x2048_S224x2048 (ix2 h k) = v (ix2 (0 : Fin 1) k) :=
  broadcastTo_1b_ab_apply v broadcasts_S1x2048_S224x2048 h k

/-- One column spread over the 2048 columns reads its entry at the row. -/
theorem cols_apply {α : Type} (v : S224x1.Idx → α) (h : Fin 224) (k : Fin 2048) :
    broadcastTo S224x2048 v broadcasts_S224x1_S224x2048 (ix2 h k) = v (ix2 h (0 : Fin 1)) := by
  refine broadcastTo_apply v broadcasts_S224x1_S224x2048 (ix2 h k) (ix2 h (0 : Fin 1)) fun ax => ?_
  match ax with
  | ⟨0, _⟩ => rfl
  | ⟨1, _⟩ => rfl

/-- The row counter reads the row. -/
theorem rowIota_apply (h : Fin 224) :
    iota .tc S224x1 32 [0] iota_S224x1_d0_w32 (ix2 h (0 : Fin 1)) = BitVec.ofNat 32 h.val :=
  iota_single_apply .tc S224x1 32 0 iota_S224x1_d0_w32 (ix2 h (0 : Fin 1))

/-- The row counter spread over the columns reads the row. -/
theorem rowIotaCols_apply (h : Fin 224) (k : Fin 2048) :
    broadcastTo S224x2048 (iota .tc S224x1 32 [0] iota_S224x1_d0_w32) broadcasts_S224x1_S224x2048 (ix2 h k) = BitVec.ofNat 32 h.val :=
  (cols_apply _ h k).trans (rowIota_apply h)

/-! ## A selector's entry -/

/-- Where the two words agree the weight, else zero. -/
theorem sel_entry (it xs : IVec S224x2048 32) (ws : FVec Ideal S224x2048 .f32) (j : S224x2048.Idx) :
    select (cmpi .eq it xs) ws (broadcast S224x2048 (Scalar.ofBits (F := Ideal) .f32 0x00000000#32)) j
      = if it j = xs j then ws j else 0 := by
  show (if IntOp.cmpi .eq (it j) (xs j) = 1#1 then ws j else Ideal.ofBits .f32 0x00000000#32) = _
  rw [Ideal.ofBits_zero_f32]
  by_cases hj : it j = xs j
  · rw [if_pos hj, if_pos (StableHlo.Predicate.cmpi_eq_iff.mpr hj)]
  · rw [if_neg hj, if_neg (fun hc => hj (StableHlo.Predicate.cmpi_eq_iff.mp hc))]

/-- The selector built from a block of corners `x` (viewed [1,2048], spread over the rows) and a block of weights `wv`
    (a [1,2048] view cast to itself and spread over the rows), against a counter `it`: at (h, k). -/
theorem sel_rows_apply (it : IVec S224x2048 32) (xs : IVec S1x2048 32) (wv : FVec Ideal S1x2048 .f32) (h : Fin 224) (k : Fin 2048) :
    select (cmpi .eq it (broadcastTo S224x2048 xs broadcasts_S1x2048_S224x2048))
        (broadcastTo S224x2048 (shapeCast S1x2048 wv shapeCasts_S1x2048_S1x2048) broadcasts_S1x2048_S224x2048)
        (broadcast S224x2048 (Scalar.ofBits (F := Ideal) .f32 0x00000000#32)) (ix2 h k)
      = if it (ix2 h k) = xs (ix2 (0 : Fin 1) k) then wv (ix2 (0 : Fin 1) k) else 0 := by
  rw [sel_entry, rows_apply, rows_apply, shapeCast_self]

/-! ## The product of the two selectors at a pixel -/

theorem mm_lhs_0 (j : S224x224.Idx) (q : dot_S224x2048_S224x2048_S224x224_1_1_0_0_n_n.contr.Idx) :
    (dot_S224x2048_S224x2048_S224x224_1_1_0_0_n_n.lhsIdx j q 0).val = (j 0).val := by
  unfold DotDims.lhsIdx
  rw [dif_neg (show ¬(0 : Fin S224x2048.rank) ∈ dot_S224x2048_S224x2048_S224x224_1_1_0_0_n_n.lhsBatch by decide), dif_pos (show (0 : Fin S224x2048.rank) ∈ dot_S224x2048_S224x2048_S224x224_1_1_0_0_n_n.lhsNonContracting by decide)]
  rfl
theorem mm_lhs_1 (j : S224x224.Idx) (q : dot_S224x2048_S224x2048_S224x224_1_1_0_0_n_n.contr.Idx) :
    (dot_S224x2048_S224x2048_S224x224_1_1_0_0_n_n.lhsIdx j q 1).val = (q ⟨0, by decide⟩).val :=
  dot_S224x2048_S224x2048_S224x224_1_1_0_0_n_n.lhsIdx_val_of_single rfl j q
theorem mm_rhs_0 (j : S224x224.Idx) (q : dot_S224x2048_S224x2048_S224x224_1_1_0_0_n_n.contr.Idx) :
    (dot_S224x2048_S224x2048_S224x224_1_1_0_0_n_n.rhsIdx j q 0).val = (j 1).val := by
  unfold DotDims.rhsIdx
  rw [dif_neg (show ¬(0 : Fin S224x2048.rank) ∈ dot_S224x2048_S224x2048_S224x224_1_1_0_0_n_n.rhsBatch by decide), dif_pos (show (0 : Fin S224x2048.rank) ∈ dot_S224x2048_S224x2048_S224x224_1_1_0_0_n_n.rhsNonContracting by decide)]
  rfl
theorem mm_rhs_1 (j : S224x224.Idx) (q : dot_S224x2048_S224x2048_S224x224_1_1_0_0_n_n.contr.Idx) :
    (dot_S224x2048_S224x2048_S224x224_1_1_0_0_n_n.rhsIdx j q 1).val = (q ⟨0, by decide⟩).val :=
  dot_S224x2048_S224x2048_S224x224_1_1_0_0_n_n.rhsIdx_val_of_single rfl j q

/-- The product into zeros, at pixel (h, w): the sum over the tile's points of the row selector at (h, k) times the
    column selector at (w, k). -/
theorem mm_apply {φ₁ φ₂ : FTy} (a : FVec Ideal S224x2048 φ₁) (b : FVec Ideal S224x2048 φ₂) (h w : Fin 224) :
    matmul dot_S224x2048_S224x2048_S224x224_1_1_0_0_n_n none a b (constant (F := Ideal) S224x224 .f32 0x00000000#32) (ix2 h w)
      = ∑ k : Fin 2048, a (ix2 h k) * b (ix2 w k) := by
  simp only [matmul]
  rw [Ideal.matmul_constant_zero_apply, ← Equiv.sum_comp (contrEquiv1 dot_S224x2048_S224x2048_S224x224_1_1_0_0_n_n 2048 rfl rfl).symm]
  refine Finset.sum_congr rfl fun k _ => ?_
  have hk := contrEquiv1_symm_val dot_S224x2048_S224x2048_S224x224_1_1_0_0_n_n 2048 rfl rfl k
  have el : dot_S224x2048_S224x2048_S224x224_1_1_0_0_n_n.lhsIdx (ix2 h w) ((contrEquiv1 dot_S224x2048_S224x2048_S224x224_1_1_0_0_n_n 2048 rfl rfl).symm k) = ix2 h k := funext fun ax => Fin.ext (by
    match ax with
    | ⟨0, _⟩ => exact mm_lhs_0 _ _
    | ⟨1, _⟩ => exact (mm_lhs_1 _ _).trans hk)
  have er : dot_S224x2048_S224x2048_S224x224_1_1_0_0_n_n.rhsIdx (ix2 h w) ((contrEquiv1 dot_S224x2048_S224x2048_S224x224_1_1_0_0_n_n 2048 rfl rfl).symm k) = ix2 w k := funext fun ax => Fin.ext (by
    match ax with
    | ⟨0, _⟩ => exact mm_rhs_0 _ _
    | ⟨1, _⟩ => exact (mm_rhs_1 _ _).trans hk)
  rw [el, er]

/-! ## The payloads at an index -/

/-- The stored block at pixel (h, w): what was loaded there plus the product of the two selectors. -/
theorem pay1_apply (v8 v10 : IVec S1x2048 32) (v14 v16 v18 : FVec Ideal S1x2048 .f32) (v20 : IVec S224x1 32)
    (v27 : FVec Ideal S224x2048 .f32) (v28 v29 : IVec S224x2048 32) (v54 : Vec Ideal S1x224x224 .f32) (h w : Fin 224) :
    k0_pay1 v8 v10 v14 v16 v18 v20 v27 v28 v29 v54 (ix3 (0 : Fin 1) h w)
      = v54 (ix3 (0 : Fin 1) h w) + ∑ k : Fin 2048,
          (v27 (ix2 h k) + (if v28 (ix2 h k) = v29 (ix2 h k) then v14 (ix2 (0 : Fin 1) k) else 0))
            * ((if v20 (ix2 w (0 : Fin 1)) = v8 (ix2 (0 : Fin 1) k) then v16 (ix2 (0 : Fin 1) k) else 0)
                + (if v20 (ix2 w (0 : Fin 1)) = v10 (ix2 (0 : Fin 1) k) then v18 (ix2 (0 : Fin 1) k) else 0)) := by
  unfold k0_pay1
  rw [shapeCast_ab_1ab_apply, addf_apply, shapeCast_1ab_ab_apply, mm_apply]
  refine congrArg (v54 (ix3 (0 : Fin 1) h w) + ·) (Finset.sum_congr rfl fun k _ => ?_)
  rw [truncf_apply, truncf_apply, addf_apply, addf_apply, sel_rows_apply, sel_rows_apply, sel_entry, rows_apply, shapeCast_self, cols_apply]

/-- A block of corners or weights viewed [1,2048] reads point k. -/
theorem pay3_apply (x : Vec Ideal S1x1x2048 .i32) (k : Fin 2048) : k0_pay3 x (ix2 (0 : Fin 1) k) = x (ix3 (0 : Fin 1) (0 : Fin 1) k) := by
  unfold k0_pay3; exact dropRow_apply x k
theorem pay4_apply (x : Vec Ideal S1x1x2048 .i32) (k : Fin 2048) : k0_pay4 x (ix2 (0 : Fin 1) k) = x (ix3 (0 : Fin 1) (0 : Fin 1) k) := by
  unfold k0_pay4; exact dropRow_apply x k
theorem pay5_apply (x : Vec Ideal S1x1x2048 .f32) (k : Fin 2048) : k0_pay5 x (ix2 (0 : Fin 1) k) = x (ix3 (0 : Fin 1) (0 : Fin 1) k) := by
  unfold k0_pay5; exact dropRow_apply x k
theorem pay6_apply (x : Vec Ideal S1x1x2048 .f32) (k : Fin 2048) : k0_pay6 x (ix2 (0 : Fin 1) k) = x (ix3 (0 : Fin 1) (0 : Fin 1) k) := by
  unfold k0_pay6; exact dropRow_apply x k
theorem pay7_apply (x : Vec Ideal S1x1x2048 .f32) (k : Fin 2048) : k0_pay7 x (ix2 (0 : Fin 1) k) = x (ix3 (0 : Fin 1) (0 : Fin 1) k) := by
  unfold k0_pay7; exact dropRow_apply x k

/-- The first row selector at (h, k): the first row weight of point k where h is its first corner row. -/
theorem pay8_apply (x0 : Vec Ideal S1x1x2048 .i32) (x4 : Vec Ideal S1x1x2048 .f32) (h : Fin 224) (k : Fin 2048) :
    k0_pay8 x0 x4 (ix2 h k) = if BitVec.ofNat 32 h.val = x0 (ix3 (0 : Fin 1) (0 : Fin 1) k) then x4 (ix3 (0 : Fin 1) (0 : Fin 1) k) else 0 := by
  unfold k0_pay8
  rw [sel_rows_apply, rowIotaCols_apply, dropRow_apply, dropRow_apply]

/-- The row counter spread over the points. -/
theorem pay9_apply (h : Fin 224) (k : Fin 2048) : k0_pay9 (ix2 h k) = BitVec.ofNat 32 h.val := by
  unfold k0_pay9; exact rowIotaCols_apply h k

/-- The second corner rows spread over the rows. -/
theorem pay10_apply (x1 : Vec Ideal S1x1x2048 .i32) (h : Fin 224) (k : Fin 2048) :
    k0_pay10 x1 (ix2 h k) = x1 (ix3 (0 : Fin 1) (0 : Fin 1) k) := by
  unfold k0_pay10
  rw [rows_apply, dropRow_apply]

/-- The block a resetting point stores first is zero everywhere. -/
theorem pay2_apply (j : S1x224x224.Idx) : k0_pay2 (F := Ideal) j = 0 := by
  unfold k0_pay2
  exact Ideal.ofBits_zero_f32

/-- An adding point leaves, at pixel (h, w), what was there plus the tile's sum. -/
theorem outAdd_apply (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : ¬cond0_0 i)
    (x0 x1 x2 x3 : Vec Ideal S1x1x2048 .i32) (x4 x5 x6 x7 : Vec Ideal S1x1x2048 .f32) (xo8 : Vec Ideal S1x224x224 .f32) (h w : Fin 224) :
    outAdd (F := Ideal) c i arg2 harg2 arg3 harg3 arg4 harg4 arg5 harg5 arg6 harg6 arg7 harg7 arg8 harg8 arg9 harg9 arg10 harg10 hc0 x0 x1 x2 x3 x4 x5 x6 x7 xo8 (ix3 0 h w)
      = xo8 (ix3 0 h w) + ∑ k : Fin 2048, tileTerm x0 x1 x2 x3 x4 x5 x6 x7 h w k := by
  rw [outAdd_eq, pay1_apply]
  refine congrArg (xo8 (ix3 0 h w) + ·) (Finset.sum_congr rfl fun k _ => ?_)
  unfold tileTerm
  rw [pay8_apply, pay9_apply, pay10_apply, pay5_apply, rowIota_apply, pay3_apply, pay6_apply, pay4_apply, pay7_apply]

/-- A resetting point leaves, at pixel (h, w), zero plus the tile's sum. -/
theorem outReset_apply (c : Dev nD) (i : grid0.Coords) (arg2 : Memref sig .tc .vmem S1x1x2048 .i32) (harg2 : arg2.IsWhole) (arg3 : Memref sig .tc .vmem S1x1x2048 .i32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x224x224 .f32) (harg10 : arg10.IsWhole) (hc0 : cond0_0 i)
    (x0 x1 x2 x3 : Vec Ideal S1x1x2048 .i32) (x4 x5 x6 x7 : Vec Ideal S1x1x2048 .f32) (h w : Fin 224) :
    outReset (F := Ideal) c i arg2 harg2 arg3 harg3 arg4 harg4 arg5 harg5 arg6 harg6 arg7 harg7 arg8 harg8 arg9 harg9 arg10 harg10 hc0 x0 x1 x2 x3 x4 x5 x6 x7 (ix3 0 h w)
      = 0 + ∑ k : Fin 2048, tileTerm x0 x1 x2 x3 x4 x5 x6 x7 h w k := by
  rw [outReset_eq, pay1_apply, pay2_apply]
  refine congrArg ((0 : EReal) + ·) (Finset.sum_congr rfl fun k _ => ?_)
  unfold tileTerm
  rw [pay8_apply, pay9_apply, pay10_apply, pay5_apply, rowIota_apply, pay3_apply, pay6_apply, pay4_apply, pay7_apply]

end Cert.KernelIdeal.Hand

end
-- ==== Proof.LibNary3.lean ====
/-
  A host operation over a LITERAL family of three references (a concatenation of three operands): what its result
  buffer holds, with each operand's contents read AT ITS OWN REFERENCE — `Fin.cons (F ↑x) (Fin.cons (F ↑a) (Fin.cons (F ↑b) _))`
  in place of `fun k => F ↑(![x, a, b] k)`. Under the binder the reference `![x, a, b] k` is no literal, so no result
  lemma rewrites the operands' contents there; in this form a run's fold goes on rewriting them. The library states the
  same for a family of four.
-/
import Idealize.ShloMosaic.Lib.StableHlo.Run

namespace Idealize.ShloMosaic.StableHlo

variable {τ : Topo} {sig : RefSig} {Val : EltTy → Type}
variable {x a b y : Ref sig .tc}

/-- The result of an operation over three literal references, the operands' contents each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for the simplifier. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.KI.Sum.lean ====
/-
  The running sum a grid point leaves in the output block.

  Grid point t = 8 b + j works on batch row b and on the j-th tile of 2048 points. Its eight operand blocks are the
  entries (b, 0, 2048 j + k) of the operand arrays. After point t the output's staging buffer holds, at pixel (h, w),
  the sum of the selector products of the first 2048 (j + 1) points of row b: a resetting point starts the sum with
  its tile, an adding point extends what the point before left by its tile (induction on the point).
-/
import proofs.«118935_j6828998001445_1_alg».proof.Proof.KI.PointValue
import Idealize.ShloMosaic.Lib.StableHlo.Run
import proofs.«118935_j6828998001445_1_alg».proof.Proof.LibNary3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx
open scoped BigOperators

/-- The operand windows' block index at grid point `t` is (t / 8, 0, t % 8); the output window's is (t / 8, 0, 0). -/
theorem idx_facts : ∀ t : Fin cfg0.N,
    ((win0_0.index t (0 : Fin 3) = t.val / 8 ∧ win0_0.index t (1 : Fin 3) = 0 ∧ win0_0.index t (2 : Fin 3) = t.val % 8)
    ∧ (win0_1.index t (0 : Fin 3) = t.val / 8 ∧ win0_1.index t (1 : Fin 3) = 0 ∧ win0_1.index t (2 : Fin 3) = t.val % 8)
    ∧ (win0_2.index t (0 : Fin 3) = t.val / 8 ∧ win0_2.index t (1 : Fin 3) = 0 ∧ win0_2.index t (2 : Fin 3) = t.val % 8)
    ∧ (win0_3.index t (0 : Fin 3) = t.val / 8 ∧ win0_3.index t (1 : Fin 3) = 0 ∧ win0_3.index t (2 : Fin 3) = t.val % 8)
    ∧ (win0_4.index t (0 : Fin 3) = t.val / 8 ∧ win0_4.index t (1 : Fin 3) = 0 ∧ win0_4.index t (2 : Fin 3) = t.val % 8)
    ∧ (win0_5.index t (0 : Fin 3) = t.val / 8 ∧ win0_5.index t (1 : Fin 3) = 0 ∧ win0_5.index t (2 : Fin 3) = t.val % 8)
    ∧ (win0_6.index t (0 : Fin 3) = t.val / 8 ∧ win0_6.index t (1 : Fin 3) = 0 ∧ win0_6.index t (2 : Fin 3) = t.val % 8)
    ∧ (win0_7.index t (0 : Fin 3) = t.val / 8 ∧ win0_7.index t (1 : Fin 3) = 0 ∧ win0_7.index t (2 : Fin 3) = t.val % 8)
    ∧ (win0_8.index t (0 : Fin 3) = t.val / 8 ∧ win0_8.index t (1 : Fin 3) = 0 ∧ win0_8.index t (2 : Fin 3) = 0)) :=
  (by decide +kernel : ∀ t : Fin grid0.N, _)

theorem hN : cfg0.N = 1024 := N_0

/-- Batch row and tile of a grid point. -/
def rowOf (t : Fin cfg0.N) : Fin 128 := ⟨t.val / 8, by have := lt_of_lt_of_eq t.isLt hN; omega⟩
def ptOf (t : Fin cfg0.N) (k : Fin 2048) : Fin 16384 := ⟨2048 * (t.val % 8) + k.val, by have := k.isLt; omega⟩

/-- Reading any array through operand window 0's block at point `t`, entry `k`, reads its entry (row, 0, 2048 (t % 8) + k). -/
theorem blk0_read {α : Type} (t : Fin cfg0.N) (k : Fin 2048) (f : S128x1x16384.Idx → α) :
    f (((cfg0.win 0).blk t).view.emb (ix3 0 0 k)) = f (ix3 (rowOf t) 0 (ptOf t k)) := by
  have e := (idx_facts t).1
  refine congrArg f ?_
  funext a
  apply Fin.ext
  match a with
  | ⟨0, _⟩ => show win0_0.index t (0 : Fin 3) * 1 + 1 * 0 = t.val / 8; rw [e.1]; omega
  | ⟨1, _⟩ => show win0_0.index t (1 : Fin 3) * 1 + 1 * 0 = 0; rw [e.2.1]
  | ⟨2, _⟩ => show win0_0.index t (2 : Fin 3) * 2048 + 1 * k.val = 2048 * (t.val % 8) + k.val; rw [e.2.2]; omega

/-- Operand 0's block at point `t`, entry `k`, is the operand array's entry (row, 0, 2048 (t % 8) + k). -/
theorem iblk0_apply (c : Dev nD) (t : Fin cfg0.N) (k : Fin 2048) :
    (iblk m c 0 t : Vec Ideal S1x1x2048 .i32) (ix3 0 0 k) = V m c main_v113 (ix3 (rowOf t) 0 (ptOf t k)) := by
  unfold iblk
  rw [View.read_apply]
  refine (eq_of_heq (cast_heq _ _)).trans ?_
  exact blk0_read t k _

/-- Reading any array through operand window 1's block at point `t`, entry `k`, reads its entry (row, 0, 2048 (t % 8) + k). -/
theorem blk1_read {α : Type} (t : Fin cfg0.N) (k : Fin 2048) (f : S128x1x16384.Idx → α) :
    f (((cfg0.win 1).blk t).view.emb (ix3 0 0 k)) = f (ix3 (rowOf t) 0 (ptOf t k)) := by
  have e := (idx_facts t).2.1
  refine congrArg f ?_
  funext a
  apply Fin.ext
  match a with
  | ⟨0, _⟩ => show win0_1.index t (0 : Fin 3) * 1 + 1 * 0 = t.val / 8; rw [e.1]; omega
  | ⟨1, _⟩ => show win0_1.index t (1 : Fin 3) * 1 + 1 * 0 = 0; rw [e.2.1]
  | ⟨2, _⟩ => show win0_1.index t (2 : Fin 3) * 2048 + 1 * k.val = 2048 * (t.val % 8) + k.val; rw [e.2.2]; omega

/-- Operand 1's block at point `t`, entry `k`, is the operand array's entry (row, 0, 2048 (t % 8) + k). -/
theorem iblk1_apply (c : Dev nD) (t : Fin cfg0.N) (k : Fin 2048) :
    (iblk m c 1 t : Vec Ideal S1x1x2048 .i32) (ix3 0 0 k) = V m c main_v114 (ix3 (rowOf t) 0 (ptOf t k)) := by
  unfold iblk
  rw [View.read_apply]
  refine (eq_of_heq (cast_heq _ _)).trans ?_
  exact blk1_read t k _

/-- Reading any array through operand window 2's block at point `t`, entry `k`, reads its entry (row, 0, 2048 (t % 8) + k). -/
theorem blk2_read {α : Type} (t : Fin cfg0.N) (k : Fin 2048) (f : S128x1x16384.Idx → α) :
    f (((cfg0.win 2).blk t).view.emb (ix3 0 0 k)) = f (ix3 (rowOf t) 0 (ptOf t k)) := by
  have e := (idx_facts t).2.2.1
  refine congrArg f ?_
  funext a
  apply Fin.ext
  match a with
  | ⟨0, _⟩ => show win0_2.index t (0 : Fin 3) * 1 + 1 * 0 = t.val / 8; rw [e.1]; omega
  | ⟨1, _⟩ => show win0_2.index t (1 : Fin 3) * 1 + 1 * 0 = 0; rw [e.2.1]
  | ⟨2, _⟩ => show win0_2.index t (2 : Fin 3) * 2048 + 1 * k.val = 2048 * (t.val % 8) + k.val; rw [e.2.2]; omega

/-- Operand 2's block at point `t`, entry `k`, is the operand array's entry (row, 0, 2048 (t % 8) + k). -/
theorem iblk2_apply (c : Dev nD) (t : Fin cfg0.N) (k : Fin 2048) :
    (iblk m c 2 t : Vec Ideal S1x1x2048 .i32) (ix3 0 0 k) = V m c main_v115 (ix3 (rowOf t) 0 (ptOf t k)) := by
  unfold iblk
  rw [View.read_apply]
  refine (eq_of_heq (cast_heq _ _)).trans ?_
  exact blk2_read t k _

/-- Reading any array through operand window 3's block at point `t`, entry `k`, reads its entry (row, 0, 2048 (t % 8) + k). -/
theorem blk3_read {α : Type} (t : Fin cfg0.N) (k : Fin 2048) (f : S128x1x16384.Idx → α) :
    f (((cfg0.win 3).blk t).view.emb (ix3 0 0 k)) = f (ix3 (rowOf t) 0 (ptOf t k)) := by
  have e := (idx_facts t).2.2.2.1
  refine congrArg f ?_
  funext a
  apply Fin.ext
  match a with
  | ⟨0, _⟩ => show win0_3.index t (0 : Fin 3) * 1 + 1 * 0 = t.val / 8; rw [e.1]; omega
  | ⟨1, _⟩ => show win0_3.index t (1 : Fin 3) * 1 + 1 * 0 = 0; rw [e.2.1]
  | ⟨2, _⟩ => show win0_3.index t (2 : Fin 3) * 2048 + 1 * k.val = 2048 * (t.val % 8) + k.val; rw [e.2.2]; omega

/-- Operand 3's block at point `t`, entry `k`, is the operand array's entry (row, 0, 2048 (t % 8) + k). -/
theorem iblk3_apply (c : Dev nD) (t : Fin cfg0.N) (k : Fin 2048) :
    (iblk m c 3 t : Vec Ideal S1x1x2048 .i32) (ix3 0 0 k) = V m c main_v116 (ix3 (rowOf t) 0 (ptOf t k)) := by
  unfold iblk
  rw [View.read_apply]
  refine (eq_of_heq (cast_heq _ _)).trans ?_
  exact blk3_read t k _

/-- Reading any array through operand window 4's block at point `t`, entry `k`, reads its entry (row, 0, 2048 (t % 8) + k). -/
theorem blk4_read {α : Type} (t : Fin cfg0.N) (k : Fin 2048) (f : S128x1x16384.Idx → α) :
    f (((cfg0.win 4).blk t).view.emb (ix3 0 0 k)) = f (ix3 (rowOf t) 0 (ptOf t k)) := by
  have e := (idx_facts t).2.2.2.2.1
  refine congrArg f ?_
  funext a
  apply Fin.ext
  match a with
  | ⟨0, _⟩ => show win0_4.index t (0 : Fin 3) * 1 + 1 * 0 = t.val / 8; rw [e.1]; omega
  | ⟨1, _⟩ => show win0_4.index t (1 : Fin 3) * 1 + 1 * 0 = 0; rw [e.2.1]
  | ⟨2, _⟩ => show win0_4.index t (2 : Fin 3) * 2048 + 1 * k.val = 2048 * (t.val % 8) + k.val; rw [e.2.2]; omega

/-- Operand 4's block at point `t`, entry `k`, is the operand array's entry (row, 0, 2048 (t % 8) + k). -/
theorem iblk4_apply (c : Dev nD) (t : Fin cfg0.N) (k : Fin 2048) :
    (iblk m c 4 t : Vec Ideal S1x1x2048 .f32) (ix3 0 0 k) = V m c main_v117 (ix3 (rowOf t) 0 (ptOf t k)) := by
  unfold iblk
  rw [View.read_apply]
  refine (eq_of_heq (cast_heq _ _)).trans ?_
  exact blk4_read t k _

/-- Reading any array through operand window 5's block at point `t`, entry `k`, reads its entry (row, 0, 2048 (t % 8) + k). -/
theorem blk5_read {α : Type} (t : Fin cfg0.N) (k : Fin 2048) (f : S128x1x16384.Idx → α) :
    f (((cfg0.win 5).blk t).view.emb (ix3 0 0 k)) = f (ix3 (rowOf t) 0 (ptOf t k)) := by
  have e := (idx_facts t).2.2.2.2.2.1
  refine congrArg f ?_
  funext a
  apply Fin.ext
  match a with
  | ⟨0, _⟩ => show win0_5.index t (0 : Fin 3) * 1 + 1 * 0 = t.val / 8; rw [e.1]; omega
  | ⟨1, _⟩ => show win0_5.index t (1 : Fin 3) * 1 + 1 * 0 = 0; rw [e.2.1]
  | ⟨2, _⟩ => show win0_5.index t (2 : Fin 3) * 2048 + 1 * k.val = 2048 * (t.val % 8) + k.val; rw [e.2.2]; omega

/-- Operand 5's block at point `t`, entry `k`, is the operand array's entry (row, 0, 2048 (t % 8) + k). -/
theorem iblk5_apply (c : Dev nD) (t : Fin cfg0.N) (k : Fin 2048) :
    (iblk m c 5 t : Vec Ideal S1x1x2048 .f32) (ix3 0 0 k) = V m c main_v118 (ix3 (rowOf t) 0 (ptOf t k)) := by
  unfold iblk
  rw [View.read_apply]
  refine (eq_of_heq (cast_heq _ _)).trans ?_
  exact blk5_read t k _

/-- Reading any array through operand window 6's block at point `t`, entry `k`, reads its entry (row, 0, 2048 (t % 8) + k). -/
theorem blk6_read {α : Type} (t : Fin cfg0.N) (k : Fin 2048) (f : S128x1x16384.Idx → α) :
    f (((cfg0.win 6).blk t).view.emb (ix3 0 0 k)) = f (ix3 (rowOf t) 0 (ptOf t k)) := by
  have e := (idx_facts t).2.2.2.2.2.2.1
  refine congrArg f ?_
  funext a
  apply Fin.ext
  match a with
  | ⟨0, _⟩ => show win0_6.index t (0 : Fin 3) * 1 + 1 * 0 = t.val / 8; rw [e.1]; omega
  | ⟨1, _⟩ => show win0_6.index t (1 : Fin 3) * 1 + 1 * 0 = 0; rw [e.2.1]
  | ⟨2, _⟩ => show win0_6.index t (2 : Fin 3) * 2048 + 1 * k.val = 2048 * (t.val % 8) + k.val; rw [e.2.2]; omega

/-- Operand 6's block at point `t`, entry `k`, is the operand array's entry (row, 0, 2048 (t % 8) + k). -/
theorem iblk6_apply (c : Dev nD) (t : Fin cfg0.N) (k : Fin 2048) :
    (iblk m c 6 t : Vec Ideal S1x1x2048 .f32) (ix3 0 0 k) = V m c main_v119 (ix3 (rowOf t) 0 (ptOf t k)) := by
  unfold iblk
  rw [View.read_apply]
  refine (eq_of_heq (cast_heq _ _)).trans ?_
  exact blk6_read t k _

/-- Reading any array through operand window 7's block at point `t`, entry `k`, reads its entry (row, 0, 2048 (t % 8) + k). -/
theorem blk7_read {α : Type} (t : Fin cfg0.N) (k : Fin 2048) (f : S128x1x16384.Idx → α) :
    f (((cfg0.win 7).blk t).view.emb (ix3 0 0 k)) = f (ix3 (rowOf t) 0 (ptOf t k)) := by
  have e := (idx_facts t).2.2.2.2.2.2.2.1
  refine congrArg f ?_
  funext a
  apply Fin.ext
  match a with
  | ⟨0, _⟩ => show win0_7.index t (0 : Fin 3) * 1 + 1 * 0 = t.val / 8; rw [e.1]; omega
  | ⟨1, _⟩ => show win0_7.index t (1 : Fin 3) * 1 + 1 * 0 = 0; rw [e.2.1]
  | ⟨2, _⟩ => show win0_7.index t (2 : Fin 3) * 2048 + 1 * k.val = 2048 * (t.val % 8) + k.val; rw [e.2.2]; omega

/-- Operand 7's block at point `t`, entry `k`, is the operand array's entry (row, 0, 2048 (t % 8) + k). -/
theorem iblk7_apply (c : Dev nD) (t : Fin cfg0.N) (k : Fin 2048) :
    (iblk m c 7 t : Vec Ideal S1x1x2048 .f32) (ix3 0 0 k) = V m c main_v120 (ix3 (rowOf t) 0 (ptOf t k)) := by
  unfold iblk
  rw [View.read_apply]
  refine (eq_of_heq (cast_heq _ _)).trans ?_
  exact blk7_read t k _

/-! ## The running sum -/

/-- Point `n` of batch row `b` at pixel (h, w): the product of its row selector and its column selector, read off the
    operand arrays as the region finds them. -/
def ptTerm (c : Dev nD) (b : Fin 128) (h w : Fin 224) (n : Fin 16384) : EReal :=
  ((if BitVec.ofNat 32 h.val = V m c main_v113 (ix3 b 0 n) then V m c main_v117 (ix3 b 0 n) else 0 : EReal)
      + (if BitVec.ofNat 32 h.val = V m c main_v114 (ix3 b 0 n) then V m c main_v118 (ix3 b 0 n) else 0 : EReal))
    * ((if BitVec.ofNat 32 w.val = V m c main_v115 (ix3 b 0 n) then V m c main_v119 (ix3 b 0 n) else 0 : EReal)
      + (if BitVec.ofNat 32 w.val = V m c main_v116 (ix3 b 0 n) then V m c main_v120 (ix3 b 0 n) else 0 : EReal))

/-- The same over the naturals, zero past the row's end. -/
def ptTermN (c : Dev nD) (b : Fin 128) (h w : Fin 224) (n : ℕ) : EReal :=
  if hn : n < 16384 then ptTerm m c b h w ⟨n, hn⟩ else 0

/-- A tile's term from its eight entries, whatever the blocks. -/
theorem tileTerm_of_entries (x0 x1 x2 x3 : Vec Ideal S1x1x2048 .i32) (x4 x5 x6 x7 : Vec Ideal S1x1x2048 .f32) (h w : Fin 224) (k : Fin 2048)
    (a0 a1 a2 a3 : BitVec 32) (a4 a5 a6 a7 : EReal)
    (e0 : x0 (ix3 0 0 k) = a0) (e1 : x1 (ix3 0 0 k) = a1) (e2 : x2 (ix3 0 0 k) = a2) (e3 : x3 (ix3 0 0 k) = a3)
    (e4 : x4 (ix3 0 0 k) = a4) (e5 : x5 (ix3 0 0 k) = a5) (e6 : x6 (ix3 0 0 k) = a6) (e7 : x7 (ix3 0 0 k) = a7) :
    tileTerm x0 x1 x2 x3 x4 x5 x6 x7 h w k
      = ((if BitVec.ofNat 32 h.val = a0 then a4 else 0) + (if BitVec.ofNat 32 h.val = a1 then a5 else 0))
        * ((if BitVec.ofNat 32 w.val = a2 then a6 else 0) + (if BitVec.ofNat 32 w.val = a3 then a7 else 0)) := by
  subst e0 e1 e2 e3 e4 e5 e6 e7
  rfl

/-- A grid point's tile sum is the sum of its 2048 points' terms. -/
theorem tile_sum (c : Dev nD) (t : Fin cfg0.N) (h w : Fin 224) :
    ∑ k : Fin 2048, tileTerm (iblk m c 0 t) (iblk m c 1 t) (iblk m c 2 t) (iblk m c 3 t) (iblk m c 4 t) (iblk m c 5 t) (iblk m c 6 t) (iblk m c 7 t) h w k
      = ∑ k ∈ Finset.range 2048, ptTermN m c (rowOf t) h w (2048 * (t.val % 8) + k) := by
  refine Eq.trans ?_ (Finset.sum_range (fun n => ptTermN m c (rowOf t) h w (2048 * (t.val % 8) + n))).symm
  refine Finset.sum_congr rfl fun k _ => ?_
  have hk : 2048 * (t.val % 8) + k.val < 16384 := by have := k.isLt; omega
  refine Eq.trans ?_ (dif_pos hk).symm
  exact tileTerm_of_entries (iblk m c 0 t) (iblk m c 1 t) (iblk m c 2 t) (iblk m c 3 t) (iblk m c 4 t) (iblk m c 5 t) (iblk m c 6 t) (iblk m c 7 t) h w k
    (V m c main_v113 (ix3 (rowOf t) 0 (ptOf t k))) (V m c main_v114 (ix3 (rowOf t) 0 (ptOf t k))) (V m c main_v115 (ix3 (rowOf t) 0 (ptOf t k))) (V m c main_v116 (ix3 (rowOf t) 0 (ptOf t k))) (V m c main_v117 (ix3 (rowOf t) 0 (ptOf t k))) (V m c main_v118 (ix3 (rowOf t) 0 (ptOf t k))) (V m c main_v119 (ix3 (rowOf t) 0 (ptOf t k))) (V m c main_v120 (ix3 (rowOf t) 0 (ptOf t k)))
    (iblk0_apply m c t k) (iblk1_apply m c t k) (iblk2_apply m c t k) (iblk3_apply m c t k) (iblk4_apply m c t k) (iblk5_apply m c t k) (iblk6_apply m c t k) (iblk7_apply m c t k)

/-- A tile after the tiles before it extends the range. -/
theorem range_tile (f : ℕ → EReal) (j : ℕ) :
    ∑ x ∈ Finset.range (2048 * j), f x + ∑ k ∈ Finset.range 2048, f (2048 * j + k) = ∑ x ∈ Finset.range (2048 * (j + 1)), f x := by
  rw [Nat.mul_succ, Finset.sum_range_add]

/-- The first tile is the first range. -/
theorem first_tile (f : ℕ → EReal) (j : ℕ) (hj : j = 0) :
    ∑ k ∈ Finset.range 2048, f (2048 * j + k) = ∑ x ∈ Finset.range (2048 * (j + 1)), f x := by
  subst hj
  rw [Nat.mul_zero, Nat.zero_add, Nat.mul_one]
  exact Finset.sum_congr rfl fun k _ => by rw [Nat.zero_add]

/-- A resetting point leaves its tile's sum. -/
theorem outsAt_reset_apply (c : Dev nD) (h w : Fin 224) (n : ℕ) (hn : n < cfg0.N) (h0 : n % 8 = 0) :
    outsAt0 (F := Ideal) m c n hn (ix3 0 h w)
      = ∑ k ∈ Finset.range 2048, ptTermN m c (rowOf ⟨n, hn⟩) h w (2048 * (n % 8) + k) := by
  refine (congrFun (outsAt0_reset m c ⟨n, hn⟩ h0) (ix3 0 h w)).trans ?_
  refine (outReset_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) h w).trans ?_
  refine (zero_add _).trans ?_
  exact tile_sum m c ⟨n, hn⟩ h w

/-- An adding point leaves what the point before left plus its tile's sum. -/
theorem outsAt_add_apply (c : Dev nD) (h w : Fin 224) (n : ℕ) (hn : n + 1 < cfg0.N) (h0 : ¬(n + 1) % 8 = 0) :
    outsAt0 (F := Ideal) m c (n + 1) hn (ix3 0 h w)
      = outsAt0 (F := Ideal) m c n (Nat.lt_of_succ_lt hn) (ix3 0 h w)
        + ∑ k ∈ Finset.range 2048, ptTermN m c (rowOf ⟨n + 1, hn⟩) h w (2048 * ((n + 1) % 8) + k) := by
  refine (congrFun (outsAt0_add m c ⟨n + 1, hn⟩ h0) (ix3 0 h w)).trans ?_
  refine (outAdd_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun hh => h0 ((hcond0_0 ⟨n + 1, hn⟩).mp hh)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 m c n (Nat.lt_of_succ_lt hn)) h w).trans ?_
  exact congrArg (outsAt0 (F := Ideal) m c n (Nat.lt_of_succ_lt hn) (ix3 0 h w) + ·) (tile_sum m c ⟨n + 1, hn⟩ h w)

/-- After grid position `n` the output's staging buffer holds, at pixel (h, w), the sum over the first
    2048 (n % 8 + 1) points of batch row n / 8. -/
theorem outsAt_apply (c : Dev nD) (h w : Fin 224) : ∀ (n : ℕ) (hn : n < cfg0.N),
    outsAt0 (F := Ideal) m c n hn (ix3 0 h w)
      = ∑ x ∈ Finset.range (2048 * (n % 8 + 1)), ptTermN m c (rowOf ⟨n, hn⟩) h w x := by
  intro n
  induction n with
  | zero =>
    intro hn
    refine (outsAt_reset_apply m c h w 0 hn (Nat.zero_mod _)).trans ?_
    exact first_tile (ptTermN m c (rowOf ⟨0, hn⟩) h w) (0 % 8) (Nat.zero_mod _)
  | succ n ih =>
    intro hn
    have hN' : n + 1 < 1024 := lt_of_lt_of_eq hn hN
    by_cases h0 : (n + 1) % 8 = 0
    · refine (outsAt_reset_apply m c h w (n + 1) hn h0).trans ?_
      exact first_tile (ptTermN m c (rowOf ⟨n + 1, hn⟩) h w) ((n + 1) % 8) h0
    · refine (outsAt_add_apply m c h w n hn h0).trans ?_
      refine (congrArg (· + ∑ k ∈ Finset.range 2048, ptTermN m c (rowOf ⟨n + 1, hn⟩) h w (2048 * ((n + 1) % 8) + k)) (ih (Nat.lt_of_succ_lt hn))).trans ?_
      have hr : rowOf ⟨n, Nat.lt_of_succ_lt hn⟩ = rowOf ⟨n + 1, hn⟩ := by
        unfold rowOf; apply Fin.ext; show n / 8 = (n + 1) / 8; omega
      have hm : (n + 1) % 8 = n % 8 + 1 := by omega
      rw [hr, hm]
      exact range_tile (ptTermN m c (rowOf ⟨n + 1, hn⟩) h w) (n % 8 + 1)

end Cert.KernelIdeal.Hand

end
-- ==== Proof.KI.Image.lean ====
/-
  The image the kernel region leaves, and the main function's result.

  The output block is written back after the eighth tile of a batch row, when the running sum runs over all 16384
  points of the row; the write-backs tile the image array, one block per batch row, so the array ends holding the
  image. The closing stretch of the main function broadcasts it over three channels.
-/
import proofs.«118935_j6828998001445_1_alg».proof.Proof.KI.Sum
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx
open scoped BigOperators

/-! ## The image -/

/-- Pixel (h, w) of batch row b: the sum over the row's points. -/
def pix (c : Dev nD) (b : Fin 128) (h w : Fin 224) : EReal := ∑ n : Fin 16384, ptTerm m c b h w n

/-- The image array. -/
def img (c : Dev nD) : Buf (Elt Ideal) ((c : Thread nD τ).loc main_v121) :=
  fun i => pix m c ⟨(i 0).val, (i 0).isLt⟩ ⟨(i 1).val, (i 1).isLt⟩ ⟨(i 2).val, (i 2).isLt⟩

theorem img_apply (c : Dev nD) (b : Fin 128) (h w : Fin 224) : img m c (ix3 b h w) = pix m c b h w := rfl

/-- What the eighth tile's point writes back is its batch row's block of the image. -/
theorem flushed_eq (c : Dev nD) (t : Fin cfg0.N) (hf : (cfg0.win 8).flush t = true) :
    (dats m 0 c).flushed 8 t = ((cfg0.win 8).blk t).view.read (Elt Ideal) (img m c) := by
  have h7 : t.val % 8 = 7 := (flush0_8 t).mp hf
  have e := (idx_facts t).2.2.2.2.2.2.2.2
  show (cfg0.win 8).cut (grid0.coords t) ((dats m 0 c).after 8 t) = _
  rw [after0_8]
  funext j
  obtain ⟨j0, h, w, rfl⟩ : ∃ (j0 : Fin 1) (h w : Fin 224), j = ix3 j0 h w := ⟨j 0, j 1, j 2, eq_ix3 j⟩
  obtain rfl : j0 = 0 := Subsingleton.elim _ _
  rw [View.read_apply]
  refine Eq.trans ?_ (eq_of_heq (cast_heq _ _)).symm
  show outsAt0 m c t.val t.isLt (ix3 0 h w) = _
  have hemb : ((cfg0.win 8).blk t).view.emb (ix3 0 h w) = ix3 (rowOf t) h w := by
    funext a
    apply Fin.ext
    match a with
    | ⟨0, _⟩ => show win0_8.index t (0 : Fin 3) * 1 + 1 * 0 = t.val / 8; rw [e.1]; omega
    | ⟨1, _⟩ => show win0_8.index t (1 : Fin 3) * 224 + 1 * h.val = h.val; rw [e.2.1]; omega
    | ⟨2, _⟩ => show win0_8.index t (2 : Fin 3) * 224 + 1 * w.val = w.val; rw [e.2.2]; omega
  rw [hemb, img_apply, outsAt_apply, h7]
  unfold pix
  rw [Finset.sum_range]
  refine Finset.sum_congr rfl fun n _ => ?_
  unfold ptTermN
  rw [dif_pos n.isLt]

/-- The image array after the region. -/
theorem final_img (c : Dev nD) : (dats m 0 c).arrAt 8 cfg0.N = img m c :=
  (dats m 0 c).arrAt_eq_of_cover 8 (img m c) (flushed_eq m c) fun i => by
    have hb : (i 0).val < 128 := (i 0).isLt
    have hh : (i 1).val < 224 := (i 1).isLt
    have hw : (i 2).val < 224 := (i 2).isLt
    have ht : 8 * (i 0).val + 7 < cfg0.N := by rw [hN]; omega
    have e := (idx_facts ⟨8 * (i 0).val + 7, ht⟩).2.2.2.2.2.2.2.2
    refine ⟨⟨8 * (i 0).val + 7, ht⟩, (flush0_8 _).mpr (by show (8 * (i 0).val + 7) % 8 = 7; omega), ?_⟩
    show i ∈ ((View.whole main_v121).slice (win0_8.rect ⟨8 * (i 0).val + 7, ht⟩)).set
    rw [View.set_slice_whole, Rect.mem_set_unit]
    intro a
    match a with
    | ⟨0, _⟩ =>
      show win0_8.index ⟨8 * (i 0).val + 7, ht⟩ (0 : Fin 3) * 1 ≤ (i 0).val ∧ (i 0).val < win0_8.index ⟨8 * (i 0).val + 7, ht⟩ (0 : Fin 3) * 1 + 1
      rw [e.1]; show (8 * (i 0).val + 7) / 8 * 1 ≤ (i 0).val ∧ (i 0).val < (8 * (i 0).val + 7) / 8 * 1 + 1; omega
    | ⟨1, _⟩ =>
      show win0_8.index ⟨8 * (i 0).val + 7, ht⟩ (1 : Fin 3) * 224 ≤ (i 1).val ∧ (i 1).val < win0_8.index ⟨8 * (i 0).val + 7, ht⟩ (1 : Fin 3) * 224 + 224
      rw [e.2.1]; omega
    | ⟨2, _⟩ =>
      show win0_8.index ⟨8 * (i 0).val + 7, ht⟩ (2 : Fin 3) * 224 ≤ (i 2).val ∧ (i 2).val < win0_8.index ⟨8 * (i 0).val + 7, ht⟩ (2 : Fin 3) * 224 + 224
      rw [e.2.2]; omega

/-! ## The result of the main function -/

/-- The result: the image broadcast over a unit axis and then over three channels. -/
def result (c : Dev nD) : Buf (Elt Ideal) ((c : Thread nD τ).loc main_v123) :=
  broadcastInDim S128x3x224x224 ![0, 1, 2, 3] bcast_S128x1x224x224_S128x3x224x224_0_1_2_3
    (broadcastInDim S128x1x224x224 ![0, 2, 3] bcast_S128x224x224_S128x1x224x224_0_2_3 (img m c))

/-- Every channel of the result is the image. -/
theorem result_apply (c : Dev nD) (b : Fin 128) (ch : Fin 3) (h w : Fin 224) :
    result m c (ix4 b ch h w) = pix m c b h w := by
  unfold result
  rw [broadcastInDim_apply (k := ix4 b 0 h w) (hk := fun a => by fin_cases a <;> rfl),
    broadcastInDim_apply (k := ix3 b h w) (hk := fun a => by fin_cases a <;> rfl), img_apply]

/-- After the closing stretch the result buffer holds the broadcast image. -/
theorem tail_result (c : Dev nD) :
    Pipeline.afterTail₀ cfgs (dats m) 0 (V0 m) [hostOps1] c main_v123 = result m c := by
  unfold Pipeline.afterTail₀
  show StableHlo.after hostOps1 _ (Proc.devRef .tc main_v123) = _
  after_results
  rw [Pipeline.withArrays_arr spec0 launch0.win.arr_inj c _ _ 8, final_img]
  rfl

/-- The run, read: the result buffer at the broadcast image, the arguments as launched. -/
theorem run : θ_run defs (onTc (τ := τ) (main (F := Ideal))) ⟨m, fun _ => 0, ρ⟩ fun r => ∀ c : Dev nD,
      r.2.mem ((c : Thread nD τ).loc main_v123) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v123 (Pipeline.mem_restRefs_of main_v123 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefRead.lean ====
/-
  The reference's stages read at an index, brought into the proof: this module only names the one module that holds
  them, so that the modules that use them share one import.
-/
import proofs.«118935_j6828998001445_1_alg».proof.Proof.RefReadP
-- ==== Proof.Shared.lean ====
/-
  The operand arrays of the kernel region are the reference's own quantities.

  The two programs begin with the same host operations, so each operand array the kernel region is entered with is a
  stage of the reference applied to the same three arguments, broadcast over the unit axis the kernel's block
  layout adds: the corner rows and columns (the clipped floors converted to integers), the two scaled row weights
  (the scale times `py2 - py` and times `py - py1`) and the two column weights (`px2 - px` and `px - px1`).
-/
import proofs.«118935_j6828998001445_1_alg».proof.Proof.KI.Around
import proofs.«118935_j6828998001445_1_alg».proof.Proof.RefRead
import proofs.«118935_j6828998001445_1_alg».proof.Proof.LibNary3
import Idealize.ShloMosaic.Lib.StableHlo.Run

set_option maxRecDepth 16384

noncomputable section

namespace Cert.Shared

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ)

/-- The host operations' results in one pass, a concatenation of three operands read operand by operand. -/
macro "host_results" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

set_option maxHeartbeats 4000000 in
/-- The first corner rows. -/
theorem rows1 (c : Dev nD) :
    V m c main_v113 = broadcastInDim S128x1x16384 ![0, 2] bcast_S128x16384_S128x1x16384_0_2
      (Cert.ReferenceIdeal.Read.val_main_v122 (F := Ideal) (m ((c : Thread nD τ).loc main_arg0)) (m ((c : Thread nD τ).loc main_arg1)) (m ((c : Thread nD τ).loc main_arg2))) := by
  show StableHlo.after (List.flatten [hostOps0, hostOps0_1, hostOps0_2, hostOps0_3, hostOps0_4, hostOps0_5, hostOps0_6, hostOps0_7, hostOps0_8]) (fun b => m (c, b)) (Proc.devRef .tc main_v113) = _
  simp only [hostOps0, hostOps0_1, hostOps0_2, hostOps0_3, hostOps0_4, hostOps0_5, hostOps0_6, hostOps0_7, hostOps0_8, List.flatten_cons, List.flatten_nil, List.append_nil, List.cons_append, List.nil_append]
  host_results
  rfl

set_option maxHeartbeats 4000000 in
/-- The second corner rows. -/
theorem rows2 (c : Dev nD) :
    V m c main_v114 = broadcastInDim S128x1x16384 ![0, 2] bcast_S128x16384_S128x1x16384_0_2
      (Cert.ReferenceIdeal.Read.val_main_v126 (F := Ideal) (m ((c : Thread nD τ).loc main_arg0)) (m ((c : Thread nD τ).loc main_arg1)) (m ((c : Thread nD τ).loc main_arg2))) := by
  show StableHlo.after (List.flatten [hostOps0, hostOps0_1, hostOps0_2, hostOps0_3, hostOps0_4, hostOps0_5, hostOps0_6, hostOps0_7, hostOps0_8]) (fun b => m (c, b)) (Proc.devRef .tc main_v114) = _
  simp only [hostOps0, hostOps0_1, hostOps0_2, hostOps0_3, hostOps0_4, hostOps0_5, hostOps0_6, hostOps0_7, hostOps0_8, List.flatten_cons, List.flatten_nil, List.append_nil, List.cons_append, List.nil_append]
  host_results
  rfl

set_option maxHeartbeats 4000000 in
/-- The first corner columns. -/
theorem cols1 (c : Dev nD) :
    V m c main_v115 = broadcastInDim S128x1x16384 ![0, 2] bcast_S128x16384_S128x1x16384_0_2
      (Cert.ReferenceIdeal.Read.val_main_v120 (F := Ideal) (m ((c : Thread nD τ).loc main_arg0)) (m ((c : Thread nD τ).loc main_arg1)) (m ((c : Thread nD τ).loc main_arg2))) := by
  show StableHlo.after (List.flatten [hostOps0, hostOps0_1, hostOps0_2, hostOps0_3, hostOps0_4, hostOps0_5, hostOps0_6, hostOps0_7, hostOps0_8]) (fun b => m (c, b)) (Proc.devRef .tc main_v115) = _
  simp only [hostOps0, hostOps0_1, hostOps0_2, hostOps0_3, hostOps0_4, hostOps0_5, hostOps0_6, hostOps0_7, hostOps0_8, List.flatten_cons, List.flatten_nil, List.append_nil, List.cons_append, List.nil_append]
  host_results
  rfl

set_option maxHeartbeats 4000000 in
/-- The second corner columns. -/
theorem cols2 (c : Dev nD) :
    V m c main_v116 = broadcastInDim S128x1x16384 ![0, 2] bcast_S128x16384_S128x1x16384_0_2
      (Cert.ReferenceIdeal.Read.val_main_v124 (F := Ideal) (m ((c : Thread nD τ).loc main_arg0)) (m ((c : Thread nD τ).loc main_arg1)) (m ((c : Thread nD τ).loc main_arg2))) := by
  show StableHlo.after (List.flatten [hostOps0, hostOps0_1, hostOps0_2, hostOps0_3, hostOps0_4, hostOps0_5, hostOps0_6, hostOps0_7, hostOps0_8]) (fun b => m (c, b)) (Proc.devRef .tc main_v116) = _
  simp only [hostOps0, hostOps0_1, hostOps0_2, hostOps0_3, hostOps0_4, hostOps0_5, hostOps0_6, hostOps0_7, hostOps0_8, List.flatten_cons, List.flatten_nil, List.append_nil, List.cons_append, List.nil_append]
  host_results
  rfl

set_option maxHeartbeats 4000000 in
/-- The first row weights, scaled. -/
theorem rowW1 (c : Dev nD) :
    V m c main_v117 = broadcastInDim S128x1x16384 ![0, 2] bcast_S128x16384_S128x1x16384_0_2
      (mulf (F := Ideal) (s := S128x16384) (φ := .f32) (Cert.ReferenceIdeal.Read.val_main_v115 (F := Ideal) (m ((c : Thread nD τ).loc main_arg0)) (m ((c : Thread nD τ).loc main_arg1)) (m ((c : Thread nD τ).loc main_arg2))) (Cert.ReferenceIdeal.Read.val_main_v87 (F := Ideal) (m ((c : Thread nD τ).loc main_arg0)) (m ((c : Thread nD τ).loc main_arg1)) (m ((c : Thread nD τ).loc main_arg2)))) := by
  show StableHlo.after (List.flatten [hostOps0, hostOps0_1, hostOps0_2, hostOps0_3, hostOps0_4, hostOps0_5, hostOps0_6, hostOps0_7, hostOps0_8]) (fun b => m (c, b)) (Proc.devRef .tc main_v117) = _
  simp only [hostOps0, hostOps0_1, hostOps0_2, hostOps0_3, hostOps0_4, hostOps0_5, hostOps0_6, hostOps0_7, hostOps0_8, List.flatten_cons, List.flatten_nil, List.append_nil, List.cons_append, List.nil_append]
  host_results
  rfl

set_option maxHeartbeats 4000000 in
/-- The second row weights, scaled. -/
theorem rowW2 (c : Dev nD) :
    V m c main_v118 = broadcastInDim S128x1x16384 ![0, 2] bcast_S128x16384_S128x1x16384_0_2
      (mulf (F := Ideal) (s := S128x16384) (φ := .f32) (Cert.ReferenceIdeal.Read.val_main_v115 (F := Ideal) (m ((c : Thread nD τ).loc main_arg0)) (m ((c : Thread nD τ).loc main_arg1)) (m ((c : Thread nD τ).loc main_arg2))) (Cert.ReferenceIdeal.Read.val_main_v90 (F := Ideal) (m ((c : Thread nD τ).loc main_arg0)) (m ((c : Thread nD τ).loc main_arg1)) (m ((c : Thread nD τ).loc main_arg2)))) := by
  show StableHlo.after (List.flatten [hostOps0, hostOps0_1, hostOps0_2, hostOps0_3, hostOps0_4, hostOps0_5, hostOps0_6, hostOps0_7, hostOps0_8]) (fun b => m (c, b)) (Proc.devRef .tc main_v118) = _
  simp only [hostOps0, hostOps0_1, hostOps0_2, hostOps0_3, hostOps0_4, hostOps0_5, hostOps0_6, hostOps0_7, hostOps0_8, List.flatten_cons, List.flatten_nil, List.append_nil, List.cons_append, List.nil_append]
  host_results
  rfl

set_option maxHeartbeats 4000000 in
/-- The first column weights. -/
theorem colW1 (c : Dev nD) :
    V m c main_v119 = broadcastInDim S128x1x16384 ![0, 2] bcast_S128x16384_S128x1x16384_0_2
      (Cert.ReferenceIdeal.Read.val_main_v86 (F := Ideal) (m ((c : Thread nD τ).loc main_arg0)) (m ((c : Thread nD τ).loc main_arg1)) (m ((c : Thread nD τ).loc main_arg2))) := by
  show StableHlo.after (List.flatten [hostOps0, hostOps0_1, hostOps0_2, hostOps0_3, hostOps0_4, hostOps0_5, hostOps0_6, hostOps0_7, hostOps0_8]) (fun b => m (c, b)) (Proc.devRef .tc main_v119) = _
  simp only [hostOps0, hostOps0_1, hostOps0_2, hostOps0_3, hostOps0_4, hostOps0_5, hostOps0_6, hostOps0_7, hostOps0_8, List.flatten_cons, List.flatten_nil, List.append_nil, List.cons_append, List.nil_append]
  host_results
  rfl

set_option maxHeartbeats 4000000 in
/-- The second column weights. -/
theorem colW2 (c : Dev nD) :
    V m c main_v120 = broadcastInDim S128x1x16384 ![0, 2] bcast_S128x16384_S128x1x16384_0_2
      (Cert.ReferenceIdeal.Read.val_main_v92 (F := Ideal) (m ((c : Thread nD τ).loc main_arg0)) (m ((c : Thread nD τ).loc main_arg1)) (m ((c : Thread nD τ).loc main_arg2))) := by
  show StableHlo.after (List.flatten [hostOps0, hostOps0_1, hostOps0_2, hostOps0_3, hostOps0_4, hostOps0_5, hostOps0_6, hostOps0_7, hostOps0_8]) (fun b => m (c, b)) (Proc.devRef .tc main_v120) = _
  simp only [hostOps0, hostOps0_1, hostOps0_2, hostOps0_3, hostOps0_4, hostOps0_5, hostOps0_6, hostOps0_7, hostOps0_8, List.flatten_cons, List.flatten_nil, List.append_nil, List.cons_append, List.nil_append]
  host_results
  rfl

end Cert.Shared

end
-- ==== Proof.RefFacts.lean ====
/-
  Elementwise facts about the quantities both programs compute before they splat.

  For every batch row and point: the four integer corner coordinates (each the conversion to a 32-bit integer of a value
  clipped to [0, 223]) are below 224; and either the point's scale is zero, or its two corner rows are different
  integers and its two corner columns are different integers. The second holds because the scale is the feature times
  the mask, the mask being the conjunction of `px1 >= 0`, `py1 >= 0`, `px1 + 1 < 224`, `py1 + 1 < 224`: where the
  mask is zero so is the scale (zero times any extended real is zero), and where it is one, `px1` is a real number in
  [0, 223), so clipping leaves `px1` alone and takes `px1 + 1` to `min 223 (px1 + 1)`, whose floor is above the floor
  of `px1`; the same for `py1`.

  The file goes in three steps: facts about extended reals and their truncation to 32-bit integers; the same facts
  spelled with the operations the printed program applies (the clip, the mask); and the program's stages read at an
  index, which are instances of those.
-/
import proofs.«118935_j6828998001445_1_alg».proof.Proof.RefRead
import Idealize.ShloMosaic.PureOps.Ideal.Laws
import Idealize.ShloMosaic.Lib.IdealHost
import Mathlib.Algebra.Order.Floor.Semiring
import Mathlib.Data.EReal.Operations

noncomputable section

namespace Cert.RefFacts

open Cert.ReferenceIdeal Cert.ReferenceIdeal.Read Idealize.ShloMosaic Idealize.ShloMosaic.ValueIdx

/-! ### Extended reals and their truncation -/
/-- The f32 pattern `0x43600000` is the real 224. -/
theorem ofBits_224_f32 : Ideal.ofBits .f32 0x43600000#32 = ((224 : ℝ) : EReal) := by
  simp [Ideal.ofBits, Ideal.ieee, -EReal.coe_mul]; norm_num

/-- The embedding of the reals in the extended reals commutes with `max` and `min`. -/
theorem coe_max' (a b : ℝ) : ((max a b : ℝ) : EReal) = max (a : EReal) (b : EReal) :=
  EReal.coe_strictMono.monotone.map_max
theorem coe_min' (a b : ℝ) : ((min a b : ℝ) : EReal) = min (a : EReal) (b : EReal) :=
  EReal.coe_strictMono.monotone.map_min

theorem floor_le_223 {r : ℝ} (h1 : r ≤ 223) : ⌊r⌋₊ ≤ 223 := by
  have : ⌊r⌋₊ ≤ ⌊(223 : ℝ)⌋₊ := Nat.floor_le_floor h1
  simpa using this

/-- The truncation to a 32-bit integer of a real in [0, 223] is its floor. -/
theorem fptosi_coe (r : ℝ) (h0 : 0 ≤ r) (h1 : r ≤ 223) :
    Ideal.fptosi 32 (r : EReal) = BitVec.ofNat 32 ⌊r⌋₊ := by
  have hfl : ⌊r⌋ = ((⌊r⌋₊ : ℕ) : ℤ) := (Int.natCast_floor_eq_floor h0).symm
  have hle : ⌊r⌋₊ ≤ 223 := floor_le_223 h1
  have hp : ((2 ^ (32 - 1) : ℕ) : ℤ) = 2147483648 := by norm_num
  rw [Ideal.fptosi, Ideal.toIntClamped_coe, if_pos h0, hfl, hp]
  have h2 : min ((2147483648 : ℤ) - 1) ((⌊r⌋₊ : ℕ) : ℤ) = ((⌊r⌋₊ : ℕ) : ℤ) := min_eq_right (by omega)
  have h3 : max (-(2147483648 : ℤ)) ((⌊r⌋₊ : ℕ) : ℤ) = ((⌊r⌋₊ : ℕ) : ℤ) := max_eq_right (by omega)
  rw [h2, h3, BitVec.ofInt_natCast]

/-- A value clipped to [0, 223] is a real in that interval. -/
theorem clip_eq_coe (x : EReal) :
    ∃ r : ℝ, 0 ≤ r ∧ r ≤ 223 ∧ min ((223 : ℝ) : EReal) (max ((0 : ℝ) : EReal) x) = (r : EReal) := by
  induction x using EReal.rec with
  | bot => exact ⟨0, le_refl _, by norm_num, by simp⟩
  | coe r =>
    refine ⟨min 223 (max 0 r), le_min (by norm_num) (le_max_left _ _), min_le_left _ _, ?_⟩
    rw [coe_min', coe_max']
  | top => exact ⟨223, by norm_num, le_refl _, by simp⟩

/-- The 32-bit truncation of a value clipped to [0, 223] is below 224. -/
theorem fptosi_clip_lt (x : EReal) :
    (Ideal.fptosi 32 (min ((223 : ℝ) : EReal) (max ((0 : ℝ) : EReal) x))).toNat < 224 := by
  obtain ⟨r, h0, h1, hr⟩ := clip_eq_coe x
  rw [hr, fptosi_coe r h0 h1, BitVec.toNat_ofNat]
  have hle : ⌊r⌋₊ ≤ 223 := floor_le_223 h1
  omega

/-- For `0 ≤ x` and `x + 1 < 224`, the clipped truncations of `x` and `x + 1` are different integers. -/
theorem fptosi_clip_apart (x : EReal) (h0 : 0 ≤ x) (h1 : x + 1 < ((224 : ℝ) : EReal)) :
    Ideal.fptosi 32 (min ((223 : ℝ) : EReal) (max ((0 : ℝ) : EReal) x))
      ≠ Ideal.fptosi 32 (min ((223 : ℝ) : EReal) (max ((0 : ℝ) : EReal) (x + 1))) := by
  induction x using EReal.rec with
  | bot => exact absurd (le_bot_iff.mp h0) EReal.zero_ne_bot
  | top =>
    rw [show ((⊤ : EReal) + 1) = ⊤ from EReal.top_add_coe 1] at h1
    exact absurd h1 (not_lt.mpr le_top)
  | coe r =>
    have hr0 : 0 ≤ r := by exact_mod_cast h0
    have hr1 : r + 1 < 224 := by exact_mod_cast h1
    have e1 : min ((223 : ℝ) : EReal) (max ((0 : ℝ) : EReal) (r : EReal)) = (r : EReal) := by
      rw [← coe_max', ← coe_min', max_eq_right hr0, min_eq_right (by linarith)]
    have e2 : min ((223 : ℝ) : EReal) (max ((0 : ℝ) : EReal) ((r : EReal) + 1))
        = ((min 223 (r + 1) : ℝ) : EReal) := by
      have h' : ((r : EReal) + 1) = ((r + 1 : ℝ) : EReal) := by norm_cast
      rw [h', ← coe_max', max_eq_right (by linarith), ← coe_min']
    rw [e1, e2, fptosi_coe r hr0 (by linarith),
      fptosi_coe (min 223 (r + 1)) (le_min (by norm_num) (by linarith)) (min_le_left _ _)]
    have hlt : ⌊r⌋₊ < ⌊min 223 (r + 1)⌋₊ := by
      have ha : ⌊r⌋₊ < 223 := (Nat.floor_lt hr0).mpr (by push_cast; linarith)
      have hb : ((⌊r⌋₊ : ℕ) : ℝ) ≤ r := Nat.floor_le hr0
      apply Nat.lt_of_succ_le
      apply Nat.le_floor
      push_cast
      apply le_min
      · have : ((⌊r⌋₊ : ℕ) : ℝ) ≤ 222 := by exact_mod_cast (by omega : ⌊r⌋₊ ≤ 222)
        linarith
      · linarith
    have hle : ⌊min 223 (r + 1)⌋₊ ≤ 223 := floor_le_223 (min_le_left _ _)
    intro h
    have := congrArg BitVec.toNat h
    rw [BitVec.toNat_ofNat, BitVec.toNat_ofNat] at this
    omega

/-! ### The same facts, spelled with the operations of the printed program -/

theorem sitofp_223 : FloatOps.sitofp (F := Ideal) .f32 (223#32 : BitVec 32) = ((223 : ℝ) : EReal) := by
  show (((223#32 : BitVec 32).toInt : ℝ) : EReal) = _
  have : (223#32 : BitVec 32).toInt = 223 := by decide
  rw [this]; norm_num

theorem sitofp_0 : FloatOps.sitofp (F := Ideal) .f32 (0#32 : BitVec 32) = ((0 : ℝ) : EReal) := by
  show (((0#32 : BitVec 32).toInt : ℝ) : EReal) = _
  have : (0#32 : BitVec 32).toInt = 0 := by decide
  rw [this]; norm_num

/-- The clip to [0, 223] (its bounds converted from 32-bit integers) followed by the conversion to a 32-bit integer. -/
def clipI (x : Ideal .f32) : BitVec 32 :=
  FloatOps.fptosi (F := Ideal) 32 (FloatOps.minimumf (FloatOps.sitofp (F := Ideal) .f32 (223#32 : BitVec 32))
    (FloatOps.maximumf (FloatOps.sitofp (F := Ideal) .f32 (0#32 : BitVec 32)) x))

theorem clipI_eq (x : Ideal .f32) :
    clipI x = Ideal.fptosi 32 (min ((223 : ℝ) : EReal) (max ((0 : ℝ) : EReal) x)) := by
  unfold clipI; rw [sitofp_223, sitofp_0]; rfl

theorem clipI_lt (x : Ideal .f32) : (clipI x).toNat < 224 := by
  rw [clipI_eq]; exact fptosi_clip_lt x

/-- The mask: the conjunction of `a ≥ 0`, `b ≥ 0`, `a + 1 < 224`, `b + 1 < 224`, as the program computes it. -/
def maskI (a b : Ideal .f32) : BitVec 1 :=
  IntOp.andi (IntOp.andi (IntOp.andi
      (FloatOps.cmpf .oge a (FloatOps.ofBits (F := Ideal) .f32 0x00000000#32))
      (FloatOps.cmpf .oge b (FloatOps.ofBits (F := Ideal) .f32 0x00000000#32)))
      (FloatOps.cmpf .olt (FloatOps.addf a (FloatOps.ofBits (F := Ideal) .f32 0x3F800000#32)) (FloatOps.ofBits (F := Ideal) .f32 0x43600000#32)))
      (FloatOps.cmpf .olt (FloatOps.addf b (FloatOps.ofBits (F := Ideal) .f32 0x3F800000#32)) (FloatOps.ofBits (F := Ideal) .f32 0x43600000#32))

/-- The mask is zero unless all four comparisons hold. -/
theorem maskI_cases (a b : Ideal .f32) :
    maskI a b = 0#1 ∨ ((0 ≤ a ∧ a + 1 < ((224 : ℝ) : EReal)) ∧ (0 ≤ b ∧ b + 1 < ((224 : ℝ) : EReal))) := by
  unfold maskI
  simp only [Ideal.ofBits_def, Ideal.ofBits_zero_f32, Ideal.ofBits_one_f32, ofBits_224_f32, Ideal.addf_def,
    Ideal.cmpf_def, Ideal.cmp, IntOp.andi]
  by_cases h1 : (0 : EReal) ≤ a
  · by_cases h2 : (0 : EReal) ≤ b
    · by_cases h3 : a + 1 < ((224 : ℝ) : EReal)
      · by_cases h4 : b + 1 < ((224 : ℝ) : EReal)
        · exact Or.inr ⟨⟨h1, h3⟩, ⟨h2, h4⟩⟩
        · left; simp [h4]
      · left; simp [h3]
    · left; simp [h2]
  · left; simp [h1]

/-- Scale zero, or both corner pairs apart. -/
theorem scale_cases (f a b : Ideal .f32) :
    FloatOps.mulf f (FloatOps.uitofp (F := Ideal) .f32 (maskI a b)) = 0
      ∨ (clipI b ≠ clipI (FloatOps.addf b (FloatOps.ofBits (F := Ideal) .f32 0x3F800000#32))
          ∧ clipI a ≠ clipI (FloatOps.addf a (FloatOps.ofBits (F := Ideal) .f32 0x3F800000#32))) := by
  rcases maskI_cases a b with h | ⟨⟨ha0, ha1⟩, ⟨hb0, hb1⟩⟩
  · left
    rw [h]
    show f * (((0#1 : BitVec 1).toNat : ℝ) : EReal) = 0
    simp
  · right
    simp only [Ideal.ofBits_def, Ideal.ofBits_one_f32, Ideal.addf_def, clipI_eq]
    exact ⟨fptosi_clip_apart b hb0 hb1, fptosi_clip_apart a ha0 ha1⟩

/-! ### The program's stages read at an index -/

variable (x0 : (⟨S128x16384x3, .f32⟩ : BufTy).Contents (Elt Ideal)) (x1 x2 : (⟨S128, .f32⟩ : BufTy).Contents (Elt Ideal))

/-- The second corner's real column is the first's plus one. -/
theorem v83_eq (i : S128x16384.Idx) :
    val_main_v83 (F := Ideal) x0 x1 x2 i
      = FloatOps.addf (val_main_v80 (F := Ideal) x0 x1 x2 i) (FloatOps.ofBits (F := Ideal) .f32 0x3F800000#32) := by
  rw [val_main_v83_apply, val_main_v82_apply, val_main_cst_14_apply]

/-- The second corner's real row is the first's plus one. -/
theorem v85_eq (i : S128x16384.Idx) :
    val_main_v85 (F := Ideal) x0 x1 x2 i
      = FloatOps.addf (val_main_v81 (F := Ideal) x0 x1 x2 i) (FloatOps.ofBits (F := Ideal) .f32 0x3F800000#32) := by
  rw [val_main_v85_apply, val_main_v84_apply, val_main_cst_15_apply]

/-- The first corner column is the clip of the first real column. -/
theorem v120_eq (i : S128x16384.Idx) :
    val_main_v120 (F := Ideal) x0 x1 x2 i = clipI (val_main_v80 (F := Ideal) x0 x1 x2 i) := by
  rw [val_main_v120_apply, val_main_v119_apply, val_main_call0_v4_apply, val_main_call0_v3_apply, val_main_c_20_apply,
    val_main_call0_v2_apply, val_main_call0_v1_apply, val_main_call0_v0_apply, val_main_c_apply]
  rfl

/-- The first corner row is the clip of the first real row. -/
theorem v122_eq (i : S128x16384.Idx) :
    val_main_v122 (F := Ideal) x0 x1 x2 i = clipI (val_main_v81 (F := Ideal) x0 x1 x2 i) := by
  rw [val_main_v122_apply, val_main_v121_apply, val_main_call1_v4_apply, val_main_call1_v3_apply, val_main_c_22_apply,
    val_main_call1_v2_apply, val_main_call1_v1_apply, val_main_call1_v0_apply, val_main_c_21_apply]
  rfl

/-- The second corner column is the clip of the second real column. -/
theorem v124_eq (i : S128x16384.Idx) :
    val_main_v124 (F := Ideal) x0 x1 x2 i = clipI (val_main_v83 (F := Ideal) x0 x1 x2 i) := by
  rw [val_main_v124_apply, val_main_v123_apply, val_main_call2_v4_apply, val_main_call2_v3_apply, val_main_c_24_apply,
    val_main_call2_v2_apply, val_main_call2_v1_apply, val_main_call2_v0_apply, val_main_c_23_apply]
  rfl

/-- The second corner row is the clip of the second real row. -/
theorem v126_eq (i : S128x16384.Idx) :
    val_main_v126 (F := Ideal) x0 x1 x2 i = clipI (val_main_v85 (F := Ideal) x0 x1 x2 i) := by
  rw [val_main_v126_apply, val_main_v125_apply, val_main_call3_v4_apply, val_main_call3_v3_apply, val_main_c_26_apply,
    val_main_call3_v2_apply, val_main_call3_v1_apply, val_main_call3_v0_apply, val_main_c_25_apply]
  rfl

/-- The mask stage is the mask of the first real column and row. -/
theorem v108_eq (i : S128x16384.Idx) :
    val_main_v108 (F := Ideal) x0 x1 x2 i
      = maskI (val_main_v80 (F := Ideal) x0 x1 x2 i) (val_main_v81 (F := Ideal) x0 x1 x2 i) := by
  rw [val_main_v108_apply, val_main_v105_apply, val_main_v102_apply, val_main_v99_apply, val_main_v101_apply,
    val_main_v104_apply, val_main_v107_apply, v83_eq, v85_eq,
    val_main_v98_apply, val_main_cst_16_apply, val_main_v100_apply, val_main_cst_17_apply,
    val_main_v103_apply, val_main_cst_18_apply, val_main_v106_apply, val_main_cst_19_apply]
  rfl

/-- The first corner row is below 224. -/
theorem py1i_lt (i : S128x16384.Idx) : (val_main_v122 (F := Ideal) x0 x1 x2 i).toNat < 224 := by
  rw [v122_eq]; exact clipI_lt _
/-- The second corner row is below 224. -/
theorem py2i_lt (i : S128x16384.Idx) : (val_main_v126 (F := Ideal) x0 x1 x2 i).toNat < 224 := by
  rw [v126_eq]; exact clipI_lt _
/-- The first corner column is below 224. -/
theorem px1i_lt (i : S128x16384.Idx) : (val_main_v120 (F := Ideal) x0 x1 x2 i).toNat < 224 := by
  rw [v120_eq]; exact clipI_lt _
/-- The second corner column is below 224. -/
theorem px2i_lt (i : S128x16384.Idx) : (val_main_v124 (F := Ideal) x0 x1 x2 i).toNat < 224 := by
  rw [v124_eq]; exact clipI_lt _

/-- A point either has scale zero or has two different corner rows and two different corner columns. -/
theorem scale_zero_or_apart (i : S128x16384.Idx) :
    val_main_v115 (F := Ideal) x0 x1 x2 i = 0
      ∨ (val_main_v122 (F := Ideal) x0 x1 x2 i ≠ val_main_v126 (F := Ideal) x0 x1 x2 i
          ∧ val_main_v120 (F := Ideal) x0 x1 x2 i ≠ val_main_v124 (F := Ideal) x0 x1 x2 i) := by
  rw [val_main_v115_apply, val_main_v114_apply, v108_eq, v122_eq, v126_eq, v120_eq, v124_eq, v83_eq, v85_eq]
  exact scale_cases _ _ _

end Cert.RefFacts

end
-- ==== Proof.LibScatterFold.lean ====
/-
  A scatter whose body returns the update ("set"): the row-major left fold in which each update replaces the element at
  its result index. If at least one update lands on an element and every update that lands there carries the same value,
  the folded array holds that value there, whatever the order and whatever the start array.

  `foldl_proj_eq_of_hit` is the fold fact in the abstract (a state, a projection of it, steps that either set the
  projection to `v` or leave it alone); `scatter_set_apply` is it for `Host.scatter … (fun _ b => b)`;
  `rowScatter_resultIdx_eq_some_iff` reads the result index of a ROW scatter (operand [N, C], indices an [R, 1] column,
  updates [R, C]: update row `i` goes to the operand row its index word names, read signed, and is dropped when that is
  outside the operand) off the index column.
-/
import Idealize.ShloMosaic.PureOps.ShapeOps
import Idealize.ShloMosaic.Lib.ValueIdx

namespace Idealize.ShloMosaic.ScatterFold

open Idealize.ShloMosaic Idealize.ShloMosaic.ValueIdx

/-- A left fold whose steps either SET a projection of the state to `v` (the steps of `hit`) or LEAVE it (the others):
    if some step of the list hits, the projection of the result is `v`. The invariant, for every start state: the
    projection is already `v`, or a hit is still to come. -/
theorem foldl_proj_eq_of_hit {κ β α : Type} (step : β → κ → β) (π : β → α) (hit : κ → Prop) (v : α) (l : List κ)
    (hset : ∀ k ∈ l, hit k → ∀ r, π (step r k) = v)
    (hkeep : ∀ k ∈ l, ¬ hit k → ∀ r, π (step r k) = π r)
    (x : β) (hx : π x = v ∨ ∃ k ∈ l, hit k) : π (l.foldl step x) = v := by
  induction l generalizing x with
  | nil =>
    rcases hx with hx | ⟨k, hk, _⟩
    · exact hx
    · exact absurd hk List.not_mem_nil
  | cons k l ih =>
    rw [List.foldl_cons]
    refine ih (fun k' hk' => hset k' (List.mem_cons_of_mem _ hk')) (fun k' hk' => hkeep k' (List.mem_cons_of_mem _ hk')) _ ?_
    by_cases hk : hit k
    · exact Or.inl (hset k List.mem_cons_self hk x)
    · rcases hx with hx | ⟨k', hk', hh⟩
      · exact Or.inl ((hkeep k List.mem_cons_self hk x).trans hx)
      · rcases List.mem_cons.1 hk' with rfl | hk'
        · exact absurd hh hk
        · exact Or.inr ⟨k', hk', hh⟩

variable {s si u : Shape} {α : Type} {w : Nat}

/-- A "set" scatter read at `i'`: when some update's result index is `i'` and every update whose result index is `i'`
    carries `v`, the result at `i'` is `v` (the operand and the order of the updates play no part). -/
theorem scatter_set_apply (d : ScatterDims s si u) (x : s.Idx → α) (idx : IVec si w) (upd : u.Idx → α) (i' : s.Idx) (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_proj_eq_of_hit _ (fun r => r i') (fun n => d.resultIdx? (u.rowMajor.symm n) idx = some i') v _ ?_ ?_ x ?_
  · intro n _ hn r
    show (match d.resultIdx? (u.rowMajor.symm n) idx with
      | some i => fun i'' => if i'' = i then upd (u.rowMajor.symm n) else r i''
      | none => r) i' = v
    rw [hn]
    show (if i' = i' then upd (u.rowMajor.symm n) else r i') = v
    rw [if_pos rfl]
    exact hall _ hn
  · intro n _ hn r
    show (match d.resultIdx? (u.rowMajor.symm n) idx with
      | some i => fun i'' => if i'' = i then upd (u.rowMajor.symm n) else r i''
      | none => r) i' = r i'
    cases hr : d.resultIdx? (u.rowMajor.symm n) idx with
    | none => rfl
    | some i =>
      show (if i' = i then upd (u.rowMajor.symm n) else r i') = r i'
      rw [if_neg]
      intro h
      exact hn (by rw [hr, h])
  · obtain ⟨j, hj⟩ := hex
    refine Or.inr ⟨u.rowMajor j, List.mem_finRange _, ?_⟩
    show d.resultIdx? (u.rowMajor.symm (u.rowMajor j)) idx = some i'
    rw [Equiv.symm_apply_apply]
    exact hj

/-! ## The row scatter: one scalar index per update row, the window a whole row -/

section RowScatter

/-- The entries of a one-element list. -/
theorem getElem_of_eq_singleton {β : Type} {l : List β} {a : β} (h : l = [a]) (k : Nat) (hk : k < l.length) : l[k] = a := by
  subst h
  have hk0 : k = 0 := by simpa using hk
  subst hk0
  rfl

variable {N R C w : Nat} (d : ScatterDims ⟨2, ![N, C]⟩ ⟨2, ![R, 1]⟩ ⟨2, ![R, C]⟩)
  (huw : d.updateWindowDims = [1]) (hiw : d.insertedWindowDims = [0]) (hsd : d.scatterDimsToOperandDims = [0])
  (hiv : d.indexVectorDim = 1)

include hsd hiv huw in
theorem rowScatter_start_zero (idx : IVec ⟨2, ![R, 1]⟩ w) (j : (⟨2, ![R, C]⟩ : Shape).Idx) :
    d.start j idx 0 = (idx (ix2 (j 0) 0)).toInt := by
  have hm : (0 : Fin 2) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 2) d.scatterDimsToOperandDims = 0
    rw [hsd]; simp

include hsd in
theorem rowScatter_start_one (idx : IVec ⟨2, ![R, 1]⟩ w) (j : (⟨2, ![R, C]⟩ : Shape).Idx) :
    d.start j idx 1 = 0 := by
  have hm : (1 : Fin 2) ∉ d.scatterDimsToOperandDims := by rw [hsd]; simp
  unfold ScatterDims.start
  rw [dif_neg hm]

include hiw in
theorem rowScatter_window_zero (j : (⟨2, ![R, C]⟩ : Shape).Idx) : d.window j 0 = 0 := by
  have hsk : d.sKept = [1] := by
    show Shape.kept _ d.insertedWindowDims = [1]
    rw [hiw]; rfl
  have hm : (0 : Fin 2) ∉ d.sKept := by rw [hsk]; simp
  unfold ScatterDims.window
  rw [dif_neg hm]

include hiw huw in
theorem rowScatter_window_one (j : (⟨2, ![R, C]⟩ : Shape).Idx) : d.window j 1 = (j 1).val := by
  have hsk : d.sKept = [1] := by
    show Shape.kept _ d.insertedWindowDims = [1]
    rw [hiw]; rfl
  have hm : (1 : Fin 2) ∈ d.sKept := by rw [hsk]; exact List.mem_singleton.mpr rfl
  unfold ScatterDims.window
  rw [dif_pos hm, getElem_of_eq_singleton huw]

include huw hiw hsd hiv in
/-- The result index of update element `(i, c)` of a ROW scatter (one scalar index per update row, read off the
    index column; the window one whole row): it is `k` exactly when the row's index word, read signed, is `k`'s row
    and `c` is `k`'s column. -/
theorem rowScatter_resultIdx_eq_some_iff (idx : IVec ⟨2, ![R, 1]⟩ w) (i : Fin R) (c : Fin C) (k : (⟨2, ![N, C]⟩ : Shape).Idx) :
    d.resultIdx? (ix2 i c) idx = some k ↔ (idx (ix2 i 0)).toInt = ((k 0).val : Int) ∧ (k 1).val = c.val := by
  have h00 : d.start (ix2 i c) idx 0 = (idx (ix2 i 0)).toInt := rowScatter_start_zero d huw hsd hiv idx (ix2 i c)
  have h01 := rowScatter_start_one d hsd idx (ix2 i c)
  have h10 := rowScatter_window_zero d hiw (ix2 i c)
  have h11 : d.window (ix2 i c) 1 = c.val := rowScatter_window_one d huw hiw (ix2 i c)
  have e0 : d.start (ix2 i c) idx 0 + (d.window (ix2 i c) 0 : Int) = (idx (ix2 i 0)).toInt := by
    rw [h00, h10]; simp
  have e1 : d.start (ix2 i c) idx 1 + (d.window (ix2 i c) 1 : Int) = (c.val : Int) := by
    rw [h01, h11]; simp
  have hk0 := (k 0).isLt
  have hk1 := (k 1).isLt
  unfold ScatterDims.resultIdx?
  constructor
  · intro h
    split at h
    · next hin =>
      have hf := Option.some.inj h
      have f0 := congrArg (fun f => (f 0).val) hf
      have f1 := congrArg (fun f => (f 1).val) hf
      simp only at f0 f1
      have i0 := hin 0
      have i1 := hin 1
      rw [e0] at i0 f0
      rw [e1] at i1 f1
      constructor
      · omega
      · omega
    · exact absurd h (by simp)
  · rintro ⟨hr, hc⟩
    have hin : ∀ a, 0 ≤ d.start (ix2 i c) idx a + (d.window (ix2 i c) a : Int)
        ∧ d.start (ix2 i c) idx a + (d.window (ix2 i c) a : Int) < ((⟨2, ![N, C]⟩ : Shape).size a : Nat) := by
      intro a
      match a with
      | ⟨0, _⟩ =>
        show 0 ≤ d.start (ix2 i c) idx 0 + (d.window (ix2 i c) 0 : Int) ∧ d.start (ix2 i c) idx 0 + (d.window (ix2 i c) 0 : Int) < (N : Nat)
        rw [e0, hr]
        have : (k 0).val < N := hk0
        omega
      | ⟨1, _⟩ =>
        show 0 ≤ d.start (ix2 i c) idx 1 + (d.window (ix2 i c) 1 : Int) ∧ d.start (ix2 i c) idx 1 + (d.window (ix2 i c) 1 : Int) < (C : Nat)
        rw [e1]
        have : c.val < C := c.isLt
        omega
    rw [dif_pos hin]
    congr 1
    funext a
    apply Fin.ext
    match a with
    | ⟨0, _⟩ =>
      show (d.start (ix2 i c) idx 0 + (d.window (ix2 i c) 0 : Int)).toNat = (k 0).val
      rw [e0, hr]; simp
    | ⟨1, _⟩ =>
      show (d.start (ix2 i c) idx 1 + (d.window (ix2 i c) 1 : Int)).toNat = (k 1).val
      rw [e1, hc]; simp

end RowScatter

end Idealize.ShloMosaic.ScatterFold
-- ==== Proof.LibScatterSum.lean ====
/-
  The accumulating host scatter (a scatter whose body adds; exact at the ideal instance: each operand element plus the
  sum of the updates that land on it) read at an index as a sum over the update ROWS, for the two shapes a segment sum
  lowers to: the ROW scatter (operand [N, C], one index word per update row, the window a whole row) and the SCALAR
  scatter (operand [N], one index word per update element). An update whose index word, read signed, names no operand
  row lands nowhere, so it adds nothing: in both forms the sum keeps exactly the rows whose word is the row read.
-/
import Idealize.ShloMosaic.PureOps.Ideal
import Idealize.ShloMosaic.Lib.ValueIdx
import proofs.«118935_j6828998001445_1_alg».proof.Proof.LibScatterFold

open scoped BigOperators

namespace Idealize.ShloMosaic.ScatterSum

open Idealize.ShloMosaic Idealize.ShloMosaic.ValueIdx Idealize.ShloMosaic.ScatterFold

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter -/

/-- The accumulating ROW scatter at element `(k0, k1)`: the operand's element plus the sum, over the update rows whose
    index word read signed is `k0`, of the row's element in column `k1`. -/
theorem rowScatterAdd_apply {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![R, 1]⟩ w) (upd : (⟨2, ![R, C]⟩ : Shape).Idx → EReal)
    (k0 : Fin N) (k1 : Fin C) :
    Ideal.hostScatterAdd d x idx upd (ix2 k0 k1)
      = x (ix2 k0 k1) + ∑ n : Fin R, if (idx (ix2 n 0)).toInt = (k0.val : Int) then upd (ix2 n k1) else 0 := by
  unfold Ideal.hostScatterAdd
  congr 1
  rw [Finset.sum_filter, sum_idx2]
  refine Finset.sum_congr rfl fun n _ => ?_
  have hiff : ∀ c : Fin C, (d.resultIdx? (ix2 n c) idx = some (ix2 k0 k1))
      ↔ ((idx (ix2 n 0)).toInt = (k0.val : Int) ∧ k1.val = c.val) :=
    fun c => rowScatter_resultIdx_eq_some_iff d huw hiw hsd hiv idx n c (ix2 k0 k1)
  by_cases hA : (idx (ix2 n 0)).toInt = (k0.val : Int)
  · rw [if_pos hA, Finset.sum_eq_single k1]
    · rw [if_pos ((hiff k1).2 ⟨hA, rfl⟩)]
    · intro c _ hc
      rw [if_neg]
      intro h
      exact hc (Fin.ext ((hiff c).1 h).2.symm)
    · intro h; exact absurd (Finset.mem_univ _) h
  · rw [if_neg hA]
    refine Finset.sum_eq_zero fun c _ => ?_
    rw [if_neg]
    intro h
    exact hA ((hiff c).1 h).1

/-! ## The scalar scatter: one index word per update element, no window -/

section VecScatter

variable {N R w : Nat} (d : ScatterDims ⟨1, ![N]⟩ ⟨2, ![R, 1]⟩ ⟨1, ![R]⟩)
  (huw : d.updateWindowDims = []) (hiw : d.insertedWindowDims = [0]) (hsd : d.scatterDimsToOperandDims = [0])
  (hiv : d.indexVectorDim = 1)

include hsd hiv huw in
theorem vecScatter_start_zero (idx : IVec ⟨2, ![R, 1]⟩ w) (j : (⟨1, ![R]⟩ : Shape).Idx) :
    d.start j idx 0 = (idx (ix2 (j 0) 0)).toInt := by
  have hm : (0 : Fin 1) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 1) d.scatterDimsToOperandDims = 0
    rw [hsd]; simp

include hiw in
theorem vecScatter_window_zero (j : (⟨1, ![R]⟩ : Shape).Idx) : d.window j 0 = 0 := by
  have hsk : d.sKept = [] := by
    show Shape.kept _ d.insertedWindowDims = []
    rw [hiw]; rfl
  have hm : (0 : Fin 1) ∉ d.sKept := by rw [hsk]; simp
  unfold ScatterDims.window
  rw [dif_neg hm]

include huw hiw hsd hiv in
/-- The result index of update element `i` of a SCALAR scatter: it is `k` exactly when the element's index word, read
    signed, is `k`'s coordinate. -/
theorem vecScatter_resultIdx_eq_some_iff (idx : IVec ⟨2, ![R, 1]⟩ w) (i : Fin R) (k : (⟨1, ![N]⟩ : Shape).Idx) :
    d.resultIdx? (ix1 i) idx = some k ↔ (idx (ix2 i 0)).toInt = ((k 0).val : Int) := by
  have h00 : d.start (ix1 i) idx 0 = (idx (ix2 i 0)).toInt := vecScatter_start_zero d huw hsd hiv idx (ix1 i)
  have h10 := vecScatter_window_zero d hiw (ix1 i)
  have e0 : d.start (ix1 i) idx 0 + (d.window (ix1 i) 0 : Int) = (idx (ix2 i 0)).toInt := by
    rw [h00, h10]; simp
  have hk0 := (k 0).isLt
  unfold ScatterDims.resultIdx?
  constructor
  · intro h
    split at h
    · next hin =>
      have hf := Option.some.inj h
      have f0 := congrArg (fun f => (f 0).val) hf
      simp only at f0
      have i0 := hin 0
      rw [e0] at i0 f0
      omega
    · exact absurd h (by simp)
  · intro hr
    have hin : ∀ a, 0 ≤ d.start (ix1 i) idx a + (d.window (ix1 i) a : Int)
        ∧ d.start (ix1 i) idx a + (d.window (ix1 i) a : Int) < ((⟨1, ![N]⟩ : Shape).size a : Nat) := by
      intro a
      match a with
      | ⟨0, _⟩ =>
        show 0 ≤ d.start (ix1 i) idx 0 + (d.window (ix1 i) 0 : Int)
          ∧ d.start (ix1 i) idx 0 + (d.window (ix1 i) 0 : Int) < (N : Nat)
        rw [e0, hr]
        have : (k 0).val < N := hk0
        omega
    rw [dif_pos hin]
    congr 1
    funext a
    apply Fin.ext
    match a with
    | ⟨0, _⟩ =>
      show (d.start (ix1 i) idx 0 + (d.window (ix1 i) 0 : Int)).toNat = (k 0).val
      rw [e0, hr]; simp

include huw hiw hsd hiv in
/-- The accumulating SCALAR scatter at element `k0`: the operand's element plus the sum of the update elements whose
    index word read signed is `k0`. -/
theorem vecScatterAdd_apply (x : (⟨1, ![N]⟩ : Shape).Idx → EReal) (idx : IVec ⟨2, ![R, 1]⟩ w)
    (upd : (⟨1, ![R]⟩ : Shape).Idx → EReal) (k0 : Fin N) :
    Ideal.hostScatterAdd d x idx upd (ix1 k0)
      = x (ix1 k0) + ∑ n : Fin R, if (idx (ix2 n 0)).toInt = (k0.val : Int) then upd (ix1 n) else 0 := by
  unfold Ideal.hostScatterAdd
  congr 1
  rw [Finset.sum_filter, sum_idx1]
  refine Finset.sum_congr rfl fun n _ => ?_
  have hiff : (d.resultIdx? (ix1 n) idx = some (ix1 k0)) ↔ (idx (ix2 n 0)).toInt = (k0.val : Int) :=
    vecScatter_resultIdx_eq_some_iff d huw hiw hsd hiv idx n (ix1 k0)
  by_cases hA : (idx (ix2 n 0)).toInt = (k0.val : Int)
  · rw [if_pos hA, if_pos (hiff.2 hA)]
  · rw [if_neg hA, if_neg (fun h => hA (hiff.1 h))]

end VecScatter

end Idealize.ShloMosaic.ScatterSum
-- ==== Proof.RefSum.lean ====
/-
  The reference's result read at a pixel: the scatter-add of the four corner values of every point, as a sum over the
  points of one batch row.

  The result at (b, channel, h, w) is the scattered array at flat index b * 50176 + h * 224 + w. The scatter adds, to a
  zero array, every update whose index is that flat index. The updates are indexed by (b', n, k) with k one of the four
  corners; the index of (b', n, k) is b' * 50176 + py * 224 + px for the corner's row py and column px, computed in
  32-bit integers; as every corner coordinate is below 224 nothing wraps, the index is never negative, and it equals
  the flat index exactly when b' = b, py = h and px = w. So only the points of batch row b contribute, each its corner
  values at the corners that hit (h, w).
-/
import proofs.«118935_j6828998001445_1_alg».proof.Proof.RefRead
import proofs.«118935_j6828998001445_1_alg».proof.Proof.LibScatterSum
import Idealize.ShloMosaic.Lib.StableHlo.Predicate
import Mathlib.Algebra.BigOperators.Fin
import Mathlib.Data.Fintype.BigOperators

open scoped BigOperators

noncomputable section

namespace Cert.RefSum

open Cert.ReferenceIdeal Cert.ReferenceIdeal.Read Idealize.ShloMosaic Idealize.ShloMosaic.ValueIdx

/-! ## The flat position of (b, n, k) in a [128, 16384, 4] array, and sums over it -/

/-- The row-major position 65536 b + 4 n + k of (b, n, k), as a bijection onto the flat index range. -/
def flatEquiv : Fin 128 × Fin 16384 × Fin 4 ≃ Fin 8388608 where
  toFun p := ⟨65536 * p.1.val + 4 * p.2.1.val + p.2.2.val, by
    have h1 := p.1.isLt; have h2 := p.2.1.isLt; have h3 := p.2.2.isLt; omega⟩
  invFun m := (⟨m.val / 65536, by have := m.isLt; omega⟩, ⟨m.val / 4 % 16384, by omega⟩, ⟨m.val % 4, by omega⟩)
  left_inv p := by
    obtain ⟨⟨a, ha⟩, ⟨b, hb⟩, ⟨c, hc⟩⟩ := p
    simp only [Prod.mk.injEq, Fin.mk.injEq]
    refine ⟨by omega, by omega, by omega⟩
  right_inv m := by
    obtain ⟨m, hm⟩ := m
    simp only [Fin.mk.injEq]
    omega

/-- A sum over the flat index range is the triple sum over (b, n, k). -/
theorem sum_flat {M : Type*} [AddCommMonoid M] (f : Fin 8388608 → M) :
    ∑ m, f m = ∑ b : Fin 128, ∑ n : Fin 16384, ∑ k : Fin 4, f (flatEquiv (b, n, k)) := by
  rw [← Equiv.sum_comp flatEquiv f, Fintype.sum_prod_type]
  refine Finset.sum_congr rfl fun b _ => ?_
  rw [Fintype.sum_prod_type]

/-! ## The index word b * 50176 + P * 224 + Q in 32-bit arithmetic -/

/-- With P, Q below 224 and b below 128 the word does not wrap: its value is the natural number. -/
theorem word_toNat (b : Fin 128) (P Q : BitVec 32) (hP : P.toNat < 224) (hQ : Q.toNat < 224) :
    (IntOp.addi (IntOp.addi (IntOp.muli (BitVec.ofNat 32 b.val) 50176#32) (IntOp.muli P 224#32)) Q).toNat
      = b.val * 50176 + P.toNat * 224 + Q.toNat := by
  have hb := b.isLt
  simp only [IntOp.addi, IntOp.muli, BitVec.toNat_add, BitVec.toNat_mul, BitVec.toNat_ofNat]
  omega

/-- It is below 2^31, so read signed it is the same number. -/
theorem word_toInt (b : Fin 128) (P Q : BitVec 32) (hP : P.toNat < 224) (hQ : Q.toNat < 224) :
    (IntOp.addi (IntOp.addi (IntOp.muli (BitVec.ofNat 32 b.val) 50176#32) (IntOp.muli P 224#32)) Q).toInt
      = ((b.val * 50176 + P.toNat * 224 + Q.toNat : Nat) : Int) := by
  have hb := b.isLt
  have e := word_toNat b P Q hP hQ
  rw [StableHlo.Predicate.toInt_eq_toNat_of_lt (by rw [e]; omega), e]

/-- A 32-bit word is the word of a small number exactly when that number is its value. -/
theorem ofNat_eq_iff (h : Nat) (hh : h < 2 ^ 32) (P : BitVec 32) : BitVec.ofNat 32 h = P ↔ P.toNat = h := by
  rw [← BitVec.toNat_inj, BitVec.toNat_ofNat, Nat.mod_eq_of_lt hh]; exact eq_comm

/-- The index word of (b', P, Q) is the flat index of (b, h, w) exactly when b' = b, P = h and Q = w: the mixed-radix
    digits of a number below 128 * 224 * 224 are unique. -/
theorem word_eq_iff (b' b : Fin 128) (h w : Fin 224) (P Q : BitVec 32) (hP : P.toNat < 224) (hQ : Q.toNat < 224) :
    (IntOp.addi (IntOp.addi (IntOp.muli (BitVec.ofNat 32 b'.val) 50176#32) (IntOp.muli P 224#32)) Q).toInt
        = ((b.val * 50176 + h.val * 224 + w.val : Nat) : Int)
      ↔ b' = b ∧ BitVec.ofNat 32 h.val = P ∧ BitVec.ofNat 32 w.val = Q := by
  have hb' := b'.isLt; have hb := b.isLt; have hh := h.isLt; have hw := w.isLt
  rw [word_toInt b' P Q hP hQ, ofNat_eq_iff h.val (by omega) P, ofNat_eq_iff w.val (by omega) Q, Fin.ext_iff]
  omega

/-- A word that is not negative is kept by "if negative then add the array's length". -/
theorem select_nonneg (W : BitVec 32) (hW : W.toNat < 2 ^ 31) :
    Scalar.select (IntOp.cmpi .slt W 0#32) (IntOp.addi W 6422528#32) W = W := by
  have h : ¬ IntOp.cmpi .slt W 0#32 = 1#1 := by
    rw [StableHlo.Predicate.slt_iff_toNat hW (by decide)]; simp
  exact if_neg h

/-! ## A concatenation of four [128, 16384, 1] arrays along the last axis, read at (b, n, k): operand k at (b, n, 0) -/

theorem concat4_apply_0 {α : Type} (y0 y1 y2 y3 : S128x16384x1.Idx → α)
    (h : Shape.Concatenates [S128x16384x1, S128x16384x1, S128x16384x1, S128x16384x1] S128x16384x4 2)
    (b : Fin 128) (n : Fin 16384) :
    concatenate S128x16384x4 2 [⟨S128x16384x1, y0⟩, ⟨S128x16384x1, y1⟩, ⟨S128x16384x1, y2⟩, ⟨S128x16384x1, y3⟩] h (ix3 b n 0)
      = y0 (ix3 b n 0) :=
  concatenate_apply_piece (t := S128x16384x4) 2 [⟨S128x16384x1, y0⟩, ⟨S128x16384x1, y1⟩, ⟨S128x16384x1, y2⟩, ⟨S128x16384x1, y3⟩] h
    (ix3 b n 0) 0 (by simp) S128x16384x1 y0 rfl rfl 0 rfl (ix3 b n 0)
    (fun c hc => match c, hc with | ⟨0, _⟩, _ => rfl | ⟨1, _⟩, _ => rfl | ⟨2, _⟩, hc => absurd rfl hc) rfl

theorem concat4_apply_1 {α : Type} (y0 y1 y2 y3 : S128x16384x1.Idx → α)
    (h : Shape.Concatenates [S128x16384x1, S128x16384x1, S128x16384x1, S128x16384x1] S128x16384x4 2)
    (b : Fin 128) (n : Fin 16384) :
    concatenate S128x16384x4 2 [⟨S128x16384x1, y0⟩, ⟨S128x16384x1, y1⟩, ⟨S128x16384x1, y2⟩, ⟨S128x16384x1, y3⟩] h (ix3 b n 1)
      = y1 (ix3 b n 0) :=
  concatenate_apply_piece (t := S128x16384x4) 2 [⟨S128x16384x1, y0⟩, ⟨S128x16384x1, y1⟩, ⟨S128x16384x1, y2⟩, ⟨S128x16384x1, y3⟩] h
    (ix3 b n 1) 1 (by simp) S128x16384x1 y1 rfl rfl 1 rfl (ix3 b n 0)
    (fun c hc => match c, hc with | ⟨0, _⟩, _ => rfl | ⟨1, _⟩, _ => rfl | ⟨2, _⟩, hc => absurd rfl hc) rfl

theorem concat4_apply_2 {α : Type} (y0 y1 y2 y3 : S128x16384x1.Idx → α)
    (h : Shape.Concatenates [S128x16384x1, S128x16384x1, S128x16384x1, S128x16384x1] S128x16384x4 2)
    (b : Fin 128) (n : Fin 16384) :
    concatenate S128x16384x4 2 [⟨S128x16384x1, y0⟩, ⟨S128x16384x1, y1⟩, ⟨S128x16384x1, y2⟩, ⟨S128x16384x1, y3⟩] h (ix3 b n 2)
      = y2 (ix3 b n 0) :=
  concatenate_apply_piece (t := S128x16384x4) 2 [⟨S128x16384x1, y0⟩, ⟨S128x16384x1, y1⟩, ⟨S128x16384x1, y2⟩, ⟨S128x16384x1, y3⟩] h
    (ix3 b n 2) 2 (by simp) S128x16384x1 y2 rfl rfl 2 rfl (ix3 b n 0)
    (fun c hc => match c, hc with | ⟨0, _⟩, _ => rfl | ⟨1, _⟩, _ => rfl | ⟨2, _⟩, hc => absurd rfl hc) rfl

theorem concat4_apply_3 {α : Type} (y0 y1 y2 y3 : S128x16384x1.Idx → α)
    (h : Shape.Concatenates [S128x16384x1, S128x16384x1, S128x16384x1, S128x16384x1] S128x16384x4 2)
    (b : Fin 128) (n : Fin 16384) :
    concatenate S128x16384x4 2 [⟨S128x16384x1, y0⟩, ⟨S128x16384x1, y1⟩, ⟨S128x16384x1, y2⟩, ⟨S128x16384x1, y3⟩] h (ix3 b n 3)
      = y3 (ix3 b n 0) :=
  concatenate_apply_piece (t := S128x16384x4) 2 [⟨S128x16384x1, y0⟩, ⟨S128x16384x1, y1⟩, ⟨S128x16384x1, y2⟩, ⟨S128x16384x1, y3⟩] h
    (ix3 b n 3) 3 (by simp) S128x16384x1 y3 rfl rfl 3 rfl (ix3 b n 0)
    (fun c hc => match c, hc with | ⟨0, _⟩, _ => rfl | ⟨1, _⟩, _ => rfl | ⟨2, _⟩, hc => absurd rfl hc) rfl

/-! ## Index maps of the layout operations at explicit coordinates -/

/-- Dropping the unit last axis of (b, n, c). -/
theorem keep2_eq (g : S128x16384x1.Idx → S128x16384.Idx)
    (hg : ∀ i, g i = fun a => match a with
      | ⟨0, _⟩ => ⟨(i 0).val, (i 0).isLt⟩
      | ⟨1, _⟩ => ⟨(i 1).val, (i 1).isLt⟩)
    (b : Fin 128) (n : Fin 16384) (c : Fin 1) : g (ix3 b n c) = ix2 b n := by
  rw [hg]; funext a
  match a with
  | ⟨0, _⟩ => rfl
  | ⟨1, _⟩ => rfl

/-! ## The scatter at an element -/

/-- The accumulating scalar scatter of this program, into an operand that is zero at the element read: the sum of the
    update elements whose index word, read signed, is that element's position. Stated over any operand, index and
    update arrays. -/
theorem scatterAdd_apply_of_zero (x : S6422528.Idx → EReal) (idx : IVec S8388608x1 32) (upd : S8388608.Idx → EReal)
    (k0 : Fin 6422528) (hx : x (ix1 k0) = 0) :
    (Host.scatterAdd (F := Ideal) (φ := .f32) scatter_S6422528_S8388608x1_S8388608_n_0_0_1 x idx upd) (ix1 k0)
      = ∑ m : Fin 8388608, if (idx (ix2 m 0)).toInt = (k0.val : Int) then upd (ix1 m) else 0 := by
  show Ideal.hostScatterAdd scatter_S6422528_S8388608x1_S8388608_n_0_0_1 x idx upd (ix1 k0) = _
  rw [ScatterSum.vecScatterAdd_apply scatter_S6422528_S8388608x1_S8388608_n_0_0_1 rfl rfl rfl rfl, hx, zero_add]

variable (x0 : (⟨S128x16384x3, .f32⟩ : BufTy).Contents (Elt Ideal)) (x1 x2 : (⟨S128, .f32⟩ : BufTy).Contents (Elt Ideal))

/-! ## The stages read at explicit coordinates -/

/-- The batch row's base index (stage 130 at row b'): b' * 50176 as a 32-bit word. -/
theorem base_apply (i : S128x1.Idx) :
    val_main_v130 (F := Ideal) i = IntOp.muli (BitVec.ofNat 32 (i 0).val) 50176#32 := by
  rw [val_main_v130_apply, val_main_v129_apply, val_main_v127_apply, val_main_v128_apply, val_main_c_27_apply]

/-- The corner row of corner k: the first corner row for k = 0, 2 and the second for k = 1, 3. -/
def rowOf (k : Fin 4) : S128x16384.Idx → BitVec 32 :=
  match k with
  | ⟨0, _⟩ => val_main_v122 (F := Ideal) x0 x1 x2
  | ⟨1, _⟩ => val_main_v126 (F := Ideal) x0 x1 x2
  | ⟨2, _⟩ => val_main_v122 (F := Ideal) x0 x1 x2
  | ⟨3, _⟩ => val_main_v126 (F := Ideal) x0 x1 x2

/-- The corner column of corner k: the first corner column for k = 0, 1 and the second for k = 2, 3. -/
def colOf (k : Fin 4) : S128x16384.Idx → BitVec 32 :=
  match k with
  | ⟨0, _⟩ => val_main_v120 (F := Ideal) x0 x1 x2
  | ⟨1, _⟩ => val_main_v120 (F := Ideal) x0 x1 x2
  | ⟨2, _⟩ => val_main_v124 (F := Ideal) x0 x1 x2
  | ⟨3, _⟩ => val_main_v124 (F := Ideal) x0 x1 x2

/-- The weight of corner k: the product of its column weight and its row weight. -/
def wgtOf (k : Fin 4) : S128x16384.Idx → EReal :=
  match k with
  | ⟨0, _⟩ => val_main_v88 (F := Ideal) x0 x1 x2
  | ⟨1, _⟩ => val_main_v91 (F := Ideal) x0 x1 x2
  | ⟨2, _⟩ => val_main_v94 (F := Ideal) x0 x1 x2
  | ⟨3, _⟩ => val_main_v97 (F := Ideal) x0 x1 x2

theorem rowOf_0 : rowOf x0 x1 x2 0 = val_main_v122 (F := Ideal) x0 x1 x2 := rfl
theorem rowOf_1 : rowOf x0 x1 x2 1 = val_main_v126 (F := Ideal) x0 x1 x2 := rfl
theorem rowOf_2 : rowOf x0 x1 x2 2 = val_main_v122 (F := Ideal) x0 x1 x2 := rfl
theorem rowOf_3 : rowOf x0 x1 x2 3 = val_main_v126 (F := Ideal) x0 x1 x2 := rfl
theorem colOf_0 : colOf x0 x1 x2 0 = val_main_v120 (F := Ideal) x0 x1 x2 := rfl
theorem colOf_1 : colOf x0 x1 x2 1 = val_main_v120 (F := Ideal) x0 x1 x2 := rfl
theorem colOf_2 : colOf x0 x1 x2 2 = val_main_v124 (F := Ideal) x0 x1 x2 := rfl
theorem colOf_3 : colOf x0 x1 x2 3 = val_main_v124 (F := Ideal) x0 x1 x2 := rfl
theorem wgtOf_0 : wgtOf x0 x1 x2 0 = val_main_v88 (F := Ideal) x0 x1 x2 := rfl
theorem wgtOf_1 : wgtOf x0 x1 x2 1 = val_main_v91 (F := Ideal) x0 x1 x2 := rfl
theorem wgtOf_2 : wgtOf x0 x1 x2 2 = val_main_v94 (F := Ideal) x0 x1 x2 := rfl
theorem wgtOf_3 : wgtOf x0 x1 x2 3 = val_main_v97 (F := Ideal) x0 x1 x2 := rfl

/-- The four flat-index stages at (b', n): base + row * 224 + column, in 32-bit arithmetic. -/
theorem v135_apply' (b' : Fin 128) (n : Fin 16384) :
    val_main_v135 (F := Ideal) x0 x1 x2 (ix2 b' n)
      = IntOp.addi (IntOp.addi (IntOp.muli (BitVec.ofNat 32 b'.val) 50176#32) (IntOp.muli (val_main_v122 (F := Ideal) x0 x1 x2 (ix2 b' n)) 224#32))
          (val_main_v120 (F := Ideal) x0 x1 x2 (ix2 b' n)) := by
  rw [val_main_v135_apply, val_main_v134_apply, val_main_v133_apply, base_apply, val_main_v132_apply, val_main_v131_apply,
    val_main_c_28_apply]

theorem v140_apply' (b' : Fin 128) (n : Fin 16384) :
    val_main_v140 (F := Ideal) x0 x1 x2 (ix2 b' n)
      = IntOp.addi (IntOp.addi (IntOp.muli (BitVec.ofNat 32 b'.val) 50176#32) (IntOp.muli (val_main_v126 (F := Ideal) x0 x1 x2 (ix2 b' n)) 224#32))
          (val_main_v120 (F := Ideal) x0 x1 x2 (ix2 b' n)) := by
  rw [val_main_v140_apply, val_main_v139_apply, val_main_v138_apply, base_apply, val_main_v137_apply, val_main_v136_apply,
    val_main_c_29_apply]

theorem v145_apply' (b' : Fin 128) (n : Fin 16384) :
    val_main_v145 (F := Ideal) x0 x1 x2 (ix2 b' n)
      = IntOp.addi (IntOp.addi (IntOp.muli (BitVec.ofNat 32 b'.val) 50176#32) (IntOp.muli (val_main_v122 (F := Ideal) x0 x1 x2 (ix2 b' n)) 224#32))
          (val_main_v124 (F := Ideal) x0 x1 x2 (ix2 b' n)) := by
  rw [val_main_v145_apply, val_main_v144_apply, val_main_v143_apply, base_apply, val_main_v142_apply, val_main_v141_apply,
    val_main_c_30_apply]

theorem v150_apply' (b' : Fin 128) (n : Fin 16384) :
    val_main_v150 (F := Ideal) x0 x1 x2 (ix2 b' n)
      = IntOp.addi (IntOp.addi (IntOp.muli (BitVec.ofNat 32 b'.val) 50176#32) (IntOp.muli (val_main_v126 (F := Ideal) x0 x1 x2 (ix2 b' n)) 224#32))
          (val_main_v124 (F := Ideal) x0 x1 x2 (ix2 b' n)) := by
  rw [val_main_v150_apply, val_main_v149_apply, val_main_v148_apply, base_apply, val_main_v147_apply, val_main_v146_apply,
    val_main_c_31_apply]

/-- The concatenated index array (stage 155) at (b', n, k): the index word of corner k. -/
theorem index_apply (b' : Fin 128) (n : Fin 16384) (k : Fin 4) :
    val_main_v155 (F := Ideal) x0 x1 x2 (ix3 b' n k)
      = IntOp.addi (IntOp.addi (IntOp.muli (BitVec.ofNat 32 b'.val) 50176#32) (IntOp.muli (rowOf x0 x1 x2 k (ix2 b' n)) 224#32))
          (colOf x0 x1 x2 k (ix2 b' n)) := by
  unfold val_main_v155
  match k with
  | ⟨0, _⟩ =>
    refine (concat4_apply_0 _ _ _ _ _ b' n).trans ?_
    rw [val_main_v151_apply, keep2_eq idx_main_v151 (fun _ => rfl)]
    exact v135_apply' x0 x1 x2 b' n
  | ⟨1, _⟩ =>
    refine (concat4_apply_1 _ _ _ _ _ b' n).trans ?_
    rw [val_main_v152_apply, keep2_eq idx_main_v152 (fun _ => rfl)]
    exact v140_apply' x0 x1 x2 b' n
  | ⟨2, _⟩ =>
    refine (concat4_apply_2 _ _ _ _ _ b' n).trans ?_
    rw [val_main_v153_apply, keep2_eq idx_main_v153 (fun _ => rfl)]
    exact v145_apply' x0 x1 x2 b' n
  | ⟨3, _⟩ =>
    refine (concat4_apply_3 _ _ _ _ _ b' n).trans ?_
    rw [val_main_v154_apply, keep2_eq idx_main_v154 (fun _ => rfl)]
    exact v150_apply' x0 x1 x2 b' n

/-- The concatenated weight array (stage 113) at (b', n, k): the weight of corner k at (b', n). -/
theorem weight_apply (b' : Fin 128) (n : Fin 16384) (k : Fin 4) :
    val_main_v113 (F := Ideal) x0 x1 x2 (ix3 b' n k) = wgtOf x0 x1 x2 k (ix2 b' n) := by
  unfold val_main_v113
  match k with
  | ⟨0, _⟩ =>
    refine (concat4_apply_0 _ _ _ _ _ b' n).trans ?_
    rw [val_main_v109_apply, keep2_eq idx_main_v109 (fun _ => rfl)]; rfl
  | ⟨1, _⟩ =>
    refine (concat4_apply_1 _ _ _ _ _ b' n).trans ?_
    rw [val_main_v110_apply, keep2_eq idx_main_v110 (fun _ => rfl)]; rfl
  | ⟨2, _⟩ =>
    refine (concat4_apply_2 _ _ _ _ _ b' n).trans ?_
    rw [val_main_v111_apply, keep2_eq idx_main_v111 (fun _ => rfl)]; rfl
  | ⟨3, _⟩ =>
    refine (concat4_apply_3 _ _ _ _ _ b' n).trans ?_
    rw [val_main_v112_apply, keep2_eq idx_main_v112 (fun _ => rfl)]; rfl

/-- The scaled corner values (stage 118) at (b', n, k): the weight of corner k times the point's scale. -/
theorem update_apply (b' : Fin 128) (n : Fin 16384) (k : Fin 4) :
    val_main_v118 (F := Ideal) x0 x1 x2 (ix3 b' n k) = wgtOf x0 x1 x2 k (ix2 b' n) * val_main_v115 (F := Ideal) x0 x1 x2 (ix2 b' n) := by
  have e117 : idx_main_v117 (ix3 b' n k) = ix3 b' n (0 : Fin 1) := by
    funext a
    match a with
    | ⟨0, _⟩ => rfl
    | ⟨1, _⟩ => rfl
    | ⟨2, _⟩ => rfl
  rw [val_main_v118_apply, weight_apply, val_main_v117_apply, e117, val_main_v116_apply, keep2_eq idx_main_v116 (fun _ => rfl)]
  rfl

/-- The flat position 65536 b' + 4 n + k reshapes back to (b', n, k). -/
theorem flat_idx157 (b' : Fin 128) (n : Fin 16384) (k : Fin 4) :
    idx_main_v157 (ix1 (flatEquiv (b', n, k))) = ix3 b' n k := by
  have hb := b'.isLt; have hn := n.isLt; have hk := k.isLt
  funext a
  match a with
  | ⟨0, _⟩ => exact Fin.ext (by show (65536 * b'.val + 4 * n.val + k.val) / 65536 = b'.val; omega)
  | ⟨1, _⟩ => exact Fin.ext (by show (65536 * b'.val + 4 * n.val + k.val) / 4 % 16384 = n.val; omega)
  | ⟨2, _⟩ => exact Fin.ext (by show (65536 * b'.val + 4 * n.val + k.val) % 4 = k.val; omega)

theorem flat_idx158 (b' : Fin 128) (n : Fin 16384) (k : Fin 4) :
    idx_main_v158 (ix1 (flatEquiv (b', n, k))) = ix3 b' n k := flat_idx157 b' n k

/-- The flattened update array (stage 158) at the flat position of (b', n, k). -/
theorem v158_flat (b' : Fin 128) (n : Fin 16384) (k : Fin 4) :
    val_main_v158 (F := Ideal) x0 x1 x2 (ix1 (flatEquiv (b', n, k))) = wgtOf x0 x1 x2 k (ix2 b' n) * val_main_v115 (F := Ideal) x0 x1 x2 (ix2 b' n) := by
  rw [val_main_v158_apply, flat_idx158, update_apply]

/-- The scatter's index array (stage 163: the flattened indices, a negative one moved up by the array's length) at
    the flat position of (b', n, k): the index word of corner k, which is not negative. -/
theorem v163_flat (hP : ∀ k i, (rowOf x0 x1 x2 k i).toNat < 224) (hQ : ∀ k i, (colOf x0 x1 x2 k i).toNat < 224)
    (b' : Fin 128) (n : Fin 16384) (k : Fin 4) :
    val_main_v163 (F := Ideal) x0 x1 x2 (ix1 (flatEquiv (b', n, k)))
      = IntOp.addi (IntOp.addi (IntOp.muli (BitVec.ofNat 32 b'.val) 50176#32) (IntOp.muli (rowOf x0 x1 x2 k (ix2 b' n)) 224#32))
          (colOf x0 x1 x2 k (ix2 b' n)) := by
  rw [val_main_v163_apply, val_main_v160_apply, val_main_v162_apply, val_main_v157_apply, flat_idx157, val_main_v159_apply,
    val_main_c_33_apply, val_main_v161_apply, val_main_c_34_apply, index_apply]
  refine select_nonneg _ ?_
  rw [word_toNat b' _ _ (hP k _) (hQ k _)]
  have hb := b'.isLt; have h1 := hP k (ix2 b' n); have h2 := hQ k (ix2 b' n)
  omega

/-- The scattered array (stage 165) at flat index k0: the sum of the updates whose index word, read signed, is k0 (the
    scatter adds into an array of zeros). -/
theorem v165_apply' (k0 : Fin 6422528) :
    val_main_v165 (F := Ideal) x0 x1 x2 (ix1 k0)
      = ∑ m : Fin 8388608,
          if (val_main_v163 (F := Ideal) x0 x1 x2 (ix1 m)).toInt = (k0.val : Int) then val_main_v158 (F := Ideal) x0 x1 x2 (ix1 m) else 0 := by
  have hx : val_main_v156 (F := Ideal) (ix1 k0) = (0 : EReal) := by
    rw [val_main_v156_apply, val_main_cst_32_apply]; exact Ideal.ofBits_zero_f32
  have hs := scatterAdd_apply_of_zero (val_main_v156 (F := Ideal)) (val_main_v164 (F := Ideal) x0 x1 x2) (val_main_v158 (F := Ideal) x0 x1 x2) k0 hx
  unfold val_main_v165
  refine hs.trans (Finset.sum_congr rfl fun m _ => ?_)
  have e164 : idx_main_v164 (ix2 m (0 : Fin 1)) = ix1 m := by
    funext a
    match a with
    | ⟨0, _⟩ => rfl
  rw [val_main_v164_apply, e164]

/-- The reference's result at pixel (h, w) of batch row b, any channel: the sum over the points n of the row of the four
    corner values `(wx * wy) * scale` (stages 88, 91, 94, 97 times stage 115) at the corners whose row and column are
    h and w (rows: stages 122 and 126; columns: stages 120 and 124), given that every corner coordinate is below 224. -/
theorem result_apply
    (hP1 : ∀ i : S128x16384.Idx, (val_main_v122 (F := Ideal) x0 x1 x2 i).toNat < 224)
    (hP2 : ∀ i : S128x16384.Idx, (val_main_v126 (F := Ideal) x0 x1 x2 i).toNat < 224)
    (hQ1 : ∀ i : S128x16384.Idx, (val_main_v120 (F := Ideal) x0 x1 x2 i).toNat < 224)
    (hQ2 : ∀ i : S128x16384.Idx, (val_main_v124 (F := Ideal) x0 x1 x2 i).toNat < 224)
    (b : Fin 128) (ch : Fin 3) (h w : Fin 224) :
    val_main_v167 (F := Ideal) x0 x1 x2 (ix4 b ch h w)
      = ∑ n : Fin 16384,
          ((if BitVec.ofNat 32 h.val = val_main_v122 (F := Ideal) x0 x1 x2 (ix2 b n) ∧ BitVec.ofNat 32 w.val = val_main_v120 (F := Ideal) x0 x1 x2 (ix2 b n)
              then val_main_v88 (F := Ideal) x0 x1 x2 (ix2 b n) * val_main_v115 (F := Ideal) x0 x1 x2 (ix2 b n) else 0)
            + (if BitVec.ofNat 32 h.val = val_main_v126 (F := Ideal) x0 x1 x2 (ix2 b n) ∧ BitVec.ofNat 32 w.val = val_main_v120 (F := Ideal) x0 x1 x2 (ix2 b n)
              then val_main_v91 (F := Ideal) x0 x1 x2 (ix2 b n) * val_main_v115 (F := Ideal) x0 x1 x2 (ix2 b n) else 0)
            + (if BitVec.ofNat 32 h.val = val_main_v122 (F := Ideal) x0 x1 x2 (ix2 b n) ∧ BitVec.ofNat 32 w.val = val_main_v124 (F := Ideal) x0 x1 x2 (ix2 b n)
              then val_main_v94 (F := Ideal) x0 x1 x2 (ix2 b n) * val_main_v115 (F := Ideal) x0 x1 x2 (ix2 b n) else 0)
            + (if BitVec.ofNat 32 h.val = val_main_v126 (F := Ideal) x0 x1 x2 (ix2 b n) ∧ BitVec.ofNat 32 w.val = val_main_v124 (F := Ideal) x0 x1 x2 (ix2 b n)
              then val_main_v97 (F := Ideal) x0 x1 x2 (ix2 b n) * val_main_v115 (F := Ideal) x0 x1 x2 (ix2 b n) else 0)) := by
  have hP : ∀ k i, (rowOf x0 x1 x2 k i).toNat < 224 := fun k i => by
    match k with
    | ⟨0, _⟩ => exact hP1 i
    | ⟨1, _⟩ => exact hP2 i
    | ⟨2, _⟩ => exact hP1 i
    | ⟨3, _⟩ => exact hP2 i
  have hQ : ∀ k i, (colOf x0 x1 x2 k i).toNat < 224 := fun k i => by
    match k with
    | ⟨0, _⟩ => exact hQ1 i
    | ⟨1, _⟩ => exact hQ1 i
    | ⟨2, _⟩ => exact hQ2 i
    | ⟨3, _⟩ => exact hQ2 i
  have hK : b.val * 50176 + h.val * 224 + w.val < 6422528 := by
    have hb := b.isLt; have hh := h.isLt; have hw := w.isLt; omega
  -- the result at (b, ch, h, w) is the scattered array at the flat index of (b, h, w)
  have hidx : idx_main_v166 (idx_main_v167 (ix4 b ch h w)) = ix1 ⟨b.val * 50176 + h.val * 224 + w.val, hK⟩ := by
    funext a
    match a with
    | ⟨0, _⟩ => exact Fin.ext (by show ((b.val * 1 + 0) * 224 + h.val) * 224 + w.val = b.val * 50176 + h.val * 224 + w.val; omega)
  rw [val_main_v167_apply, val_main_v166_apply, hidx, v165_apply' x0 x1 x2 ⟨_, hK⟩, sum_flat]
  -- each update at the flat position of (b', n, k): its index word and its value
  have hterm : ∀ (b' : Fin 128) (n : Fin 16384) (k : Fin 4),
      (if (val_main_v163 (F := Ideal) x0 x1 x2 (ix1 (flatEquiv (b', n, k)))).toInt
            = ((⟨b.val * 50176 + h.val * 224 + w.val, hK⟩ : Fin 6422528).val : Int)
          then val_main_v158 (F := Ideal) x0 x1 x2 (ix1 (flatEquiv (b', n, k))) else 0)
        = if b' = b ∧ BitVec.ofNat 32 h.val = rowOf x0 x1 x2 k (ix2 b' n) ∧ BitVec.ofNat 32 w.val = colOf x0 x1 x2 k (ix2 b' n)
          then wgtOf x0 x1 x2 k (ix2 b' n) * val_main_v115 (F := Ideal) x0 x1 x2 (ix2 b' n) else 0 := fun b' n k => by
    rw [v163_flat x0 x1 x2 hP hQ, v158_flat]
    exact if_congr (word_eq_iff b' b h w _ _ (hP k _) (hQ k _)) rfl rfl
  -- only the batch row b contributes
  rw [Finset.sum_eq_single b]
  · have hsame : ∀ (n : Fin 16384) (k : Fin 4),
        (if (val_main_v163 (F := Ideal) x0 x1 x2 (ix1 (flatEquiv (b, n, k)))).toInt
              = ((⟨b.val * 50176 + h.val * 224 + w.val, hK⟩ : Fin 6422528).val : Int)
            then val_main_v158 (F := Ideal) x0 x1 x2 (ix1 (flatEquiv (b, n, k))) else 0)
          = if BitVec.ofNat 32 h.val = rowOf x0 x1 x2 k (ix2 b n) ∧ BitVec.ofNat 32 w.val = colOf x0 x1 x2 k (ix2 b n)
            then wgtOf x0 x1 x2 k (ix2 b n) * val_main_v115 (F := Ideal) x0 x1 x2 (ix2 b n) else 0 := fun n k => by
      rw [hterm]; exact if_congr (and_iff_right rfl) rfl rfl
    refine Finset.sum_congr rfl fun n _ => ?_
    rw [Fin.sum_univ_four, hsame, hsame, hsame, hsame, rowOf_0, rowOf_1, rowOf_2, rowOf_3, colOf_0, colOf_1, colOf_2, colOf_3,
      wgtOf_0, wgtOf_1, wgtOf_2, wgtOf_3]
  · intro b' _ hb'
    refine Finset.sum_eq_zero fun n _ => Finset.sum_eq_zero fun k _ => ?_
    rw [hterm, if_neg (fun hc => hb' hc.1)]
  · intro hb; exact absurd (Finset.mem_univ b) hb

end Cert.RefSum

end
-- ==== Proof.Splat.lean ====
/-
  Bilinear splatting, two ways.

  A point with integer corner rows `p1, p2`, corner columns `q1, q2`, row weights `wy1, wy2`, column weights
  `wx1, wx2` and a scale `s` adds to pixel `(h, w)` of an image

    * as the product of a row selector and a column selector,
        ([h = p1] s wy1 + [h = p2] s wy2) ([w = q1] wx1 + [w = q2] wx2),
    * or as four separate corner terms, [h = p1, w = q1] (wx1 wy1) s + [h = p2, w = q1] (wx1 wy2) s + ...

  On the extended reals a product does not distribute over a sum in general, so the two agree only for a reason: either
  the scale is zero (every term vanishes), or the two corner rows differ and the two corner columns differ, and then
  each selector has at most one live summand, so that the product is a single product of the commutative,
  associative multiplication. Out-of-image points are of the first kind (their mask is zero) and in-image points of
  the second (their corners are consecutive integers).
-/
import Idealize.ShloMosaic.PureOps.Ideal

open scoped BigOperators

namespace Cert.Splat

/-- One point's contribution to one pixel: the product of its selectors is the sum of its four corner terms. -/
theorem point_eq {p1 p2 q1 q2 h w : BitVec 32} {s wy1 wy2 wx1 wx2 : EReal}
    (hm : s = 0 ∨ (p1 ≠ p2 ∧ q1 ≠ q2)) :
    ((if h = p1 then s * wy1 else 0) + (if h = p2 then s * wy2 else 0))
        * ((if w = q1 then wx1 else 0) + (if w = q2 then wx2 else 0))
      = (if h = p1 ∧ w = q1 then (wx1 * wy1) * s else 0) + (if h = p2 ∧ w = q1 then (wx1 * wy2) * s else 0)
        + (if h = p1 ∧ w = q2 then (wx2 * wy1) * s else 0) + (if h = p2 ∧ w = q2 then (wx2 * wy2) * s else 0) := by
  rcases hm with rfl | ⟨hp, hq⟩
  · simp only [zero_mul, mul_zero, ite_self, add_zero]
  · by_cases h1 : h = p1
    · have h2 : ¬ h = p2 := fun e => hp (h1.symm.trans e)
      by_cases w1 : w = q1
      · have w2 : ¬ w = q2 := fun e => hq (w1.symm.trans e)
        rw [if_pos h1, if_neg h2, if_pos w1, if_neg w2, if_pos (⟨h1, w1⟩ : _ ∧ _), if_neg (fun e : _ ∧ _ => h2 e.1), if_neg (fun e : _ ∧ _ => w2 e.2), if_neg (fun e : _ ∧ _ => h2 e.1)]
        simp only [add_zero]
        ac_rfl
      · by_cases w2 : w = q2
        · rw [if_pos h1, if_neg h2, if_neg w1, if_pos w2, if_neg (fun e : _ ∧ _ => w1 e.2), if_neg (fun e : _ ∧ _ => h2 e.1), if_pos (⟨h1, w2⟩ : _ ∧ _), if_neg (fun e : _ ∧ _ => h2 e.1)]
          simp only [add_zero, zero_add]
          ac_rfl
        · rw [if_pos h1, if_neg h2, if_neg w1, if_neg w2, if_neg (fun e : _ ∧ _ => w1 e.2), if_neg (fun e : _ ∧ _ => h2 e.1), if_neg (fun e : _ ∧ _ => w2 e.2), if_neg (fun e : _ ∧ _ => h2 e.1)]
          simp only [add_zero, mul_zero]
    · by_cases h2 : h = p2
      · by_cases w1 : w = q1
        · have w2 : ¬ w = q2 := fun e => hq (w1.symm.trans e)
          rw [if_neg h1, if_pos h2, if_pos w1, if_neg w2, if_neg (fun e : _ ∧ _ => h1 e.1), if_pos (⟨h2, w1⟩ : _ ∧ _), if_neg (fun e : _ ∧ _ => h1 e.1), if_neg (fun e : _ ∧ _ => w2 e.2)]
          simp only [add_zero, zero_add]
          ac_rfl
        · by_cases w2 : w = q2
          · rw [if_neg h1, if_pos h2, if_neg w1, if_pos w2, if_neg (fun e : _ ∧ _ => h1 e.1), if_neg (fun e : _ ∧ _ => w1 e.2), if_neg (fun e : _ ∧ _ => h1 e.1), if_pos (⟨h2, w2⟩ : _ ∧ _)]
            simp only [add_zero, zero_add]
            ac_rfl
          · rw [if_neg h1, if_pos h2, if_neg w1, if_neg w2, if_neg (fun e : _ ∧ _ => h1 e.1), if_neg (fun e : _ ∧ _ => w1 e.2), if_neg (fun e : _ ∧ _ => h1 e.1), if_neg (fun e : _ ∧ _ => w2 e.2)]
            simp only [add_zero, mul_zero]
      · by_cases w1 : w = q1
        · by_cases w2 : w = q2
          · rw [if_neg h1, if_neg h2, if_pos w1, if_pos w2, if_neg (fun e : _ ∧ _ => h1 e.1), if_neg (fun e : _ ∧ _ => h2 e.1), if_neg (fun e : _ ∧ _ => h1 e.1), if_neg (fun e : _ ∧ _ => h2 e.1)]
            simp only [add_zero, zero_mul]
          · rw [if_neg h1, if_neg h2, if_pos w1, if_neg w2, if_neg (fun e : _ ∧ _ => h1 e.1), if_neg (fun e : _ ∧ _ => h2 e.1), if_neg (fun e : _ ∧ _ => h1 e.1), if_neg (fun e : _ ∧ _ => h2 e.1)]
            simp only [add_zero, zero_mul]
        · by_cases w2 : w = q2
          · rw [if_neg h1, if_neg h2, if_neg w1, if_pos w2, if_neg (fun e : _ ∧ _ => h1 e.1), if_neg (fun e : _ ∧ _ => h2 e.1), if_neg (fun e : _ ∧ _ => h1 e.1), if_neg (fun e : _ ∧ _ => h2 e.1)]
            simp only [add_zero, zero_mul]
          · rw [if_neg h1, if_neg h2, if_neg w1, if_neg w2, if_neg (fun e : _ ∧ _ => h1 e.1), if_neg (fun e : _ ∧ _ => h2 e.1), if_neg (fun e : _ ∧ _ => h1 e.1), if_neg (fun e : _ ∧ _ => h2 e.1)]
            simp only [add_zero, zero_mul]

end Cert.Splat
-- ==== Proof.Bridge.lean ====
/-
  The kernel's image is the reference's scatter, pixel by pixel.

  The kernel's pixel is the sum over the points of a batch row of the product of the row selector and the column
  selector; the reference's is the sum over the same points of the four corner terms. The operand arrays of the
  kernel are the reference's own corner rows, corner columns, weights and scale; for each point the product of the
  selectors is the sum of its corner terms, because a point either has scale zero or has two different corner rows
  and two different corner columns.
-/
import proofs.«118935_j6828998001445_1_alg».proof.Proof.KI.Image
import proofs.«118935_j6828998001445_1_alg».proof.Proof.Shared
import proofs.«118935_j6828998001445_1_alg».proof.Proof.RefFacts
import proofs.«118935_j6828998001445_1_alg».proof.Proof.RefSum
import proofs.«118935_j6828998001445_1_alg».proof.Proof.Splat

set_option maxRecDepth 16384

open scoped BigOperators

noncomputable section

namespace Cert.Bridge

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- An operand array, a [128, 16384] array broadcast to [128, 1, 16384], read at (b, 0, n). -/
theorem operand_apply {α : Type} (x : S128x16384.Idx → α) (b : Fin 128) (n : Fin 16384) :
    broadcastInDim S128x1x16384 ![0, 2] bcast_S128x16384_S128x1x16384_0_2 x (ix3 b 0 n) = x (ix2 b n) :=
  broadcastInDim_apply _ _ x (ix3 b 0 n) (ix2 b n) (fun a => by fin_cases a <;> rfl)

/-- The product of a row selector and a column selector. -/
def selProd (h w p1 p2 q1 q2 : BitVec 32) (a1 a2 c1 c2 : EReal) : EReal :=
  ((if h = p1 then a1 else 0) + (if h = p2 then a2 else 0)) * ((if w = q1 then c1 else 0) + (if w = q2 then c2 else 0))

theorem selProd_congr {h w p1 p2 q1 q2 p1' p2' q1' q2' : BitVec 32} {a1 a2 c1 c2 a1' a2' c1' c2' : EReal}
    (e1 : p1 = p1') (e2 : p2 = p2') (e3 : q1 = q1') (e4 : q2 = q2') (e5 : a1 = a1') (e6 : a2 = a2') (e7 : c1 = c1') (e8 : c2 = c2') :
    selProd h w p1 p2 q1 q2 a1 a2 c1 c2 = selProd h w p1' p2' q1' q2' a1' a2' c1' c2' := by
  subst e1 e2 e3 e4 e5 e6 e7 e8; rfl

/-- A point's term is the selector product of the eight operand entries. -/
theorem ptTerm_eq (c : Dev nD) (b : Fin 128) (h w : Fin 224) (n : Fin 16384) :
    ptTerm m c b h w n = selProd (BitVec.ofNat 32 h.val) (BitVec.ofNat 32 w.val)
      (V m c main_v113 (ix3 b 0 n)) (V m c main_v114 (ix3 b 0 n)) (V m c main_v115 (ix3 b 0 n)) (V m c main_v116 (ix3 b 0 n))
      (V m c main_v117 (ix3 b 0 n)) (V m c main_v118 (ix3 b 0 n)) (V m c main_v119 (ix3 b 0 n)) (V m c main_v120 (ix3 b 0 n)) := rfl

variable (c : Dev nD) (b : Fin 128) (n : Fin 16384)

/-- The operand arrays at (b, 0, n) are the reference's stages at (b, n). -/
theorem rows1_at : V m c main_v113 (ix3 b 0 n) = Cert.ReferenceIdeal.Read.val_main_v122 (F := Ideal) (m ((c : Thread nD τ).loc main_arg0)) (m ((c : Thread nD τ).loc main_arg1)) (m ((c : Thread nD τ).loc main_arg2)) (ix2 b n) :=
  (congrFun (Cert.Shared.rows1 m c) (ix3 b 0 n)).trans (operand_apply _ b n)
theorem rows2_at : V m c main_v114 (ix3 b 0 n) = Cert.ReferenceIdeal.Read.val_main_v126 (F := Ideal) (m ((c : Thread nD τ).loc main_arg0)) (m ((c : Thread nD τ).loc main_arg1)) (m ((c : Thread nD τ).loc main_arg2)) (ix2 b n) :=
  (congrFun (Cert.Shared.rows2 m c) (ix3 b 0 n)).trans (operand_apply _ b n)
theorem cols1_at : V m c main_v115 (ix3 b 0 n) = Cert.ReferenceIdeal.Read.val_main_v120 (F := Ideal) (m ((c : Thread nD τ).loc main_arg0)) (m ((c : Thread nD τ).loc main_arg1)) (m ((c : Thread nD τ).loc main_arg2)) (ix2 b n) :=
  (congrFun (Cert.Shared.cols1 m c) (ix3 b 0 n)).trans (operand_apply _ b n)
theorem cols2_at : V m c main_v116 (ix3 b 0 n) = Cert.ReferenceIdeal.Read.val_main_v124 (F := Ideal) (m ((c : Thread nD τ).loc main_arg0)) (m ((c : Thread nD τ).loc main_arg1)) (m ((c : Thread nD τ).loc main_arg2)) (ix2 b n) :=
  (congrFun (Cert.Shared.cols2 m c) (ix3 b 0 n)).trans (operand_apply _ b n)
theorem rowW1_at : V m c main_v117 (ix3 b 0 n)
    = Cert.ReferenceIdeal.Read.val_main_v115 (F := Ideal) (m ((c : Thread nD τ).loc main_arg0)) (m ((c : Thread nD τ).loc main_arg1)) (m ((c : Thread nD τ).loc main_arg2)) (ix2 b n) * Cert.ReferenceIdeal.Read.val_main_v87 (F := Ideal) (m ((c : Thread nD τ).loc main_arg0)) (m ((c : Thread nD τ).loc main_arg1)) (m ((c : Thread nD τ).loc main_arg2)) (ix2 b n) :=
  ((congrFun (Cert.Shared.rowW1 m c) (ix3 b 0 n)).trans (operand_apply _ b n)).trans (mulf_apply _ _ _)
theorem rowW2_at : V m c main_v118 (ix3 b 0 n)
    = Cert.ReferenceIdeal.Read.val_main_v115 (F := Ideal) (m ((c : Thread nD τ).loc main_arg0)) (m ((c : Thread nD τ).loc main_arg1)) (m ((c : Thread nD τ).loc main_arg2)) (ix2 b n) * Cert.ReferenceIdeal.Read.val_main_v90 (F := Ideal) (m ((c : Thread nD τ).loc main_arg0)) (m ((c : Thread nD τ).loc main_arg1)) (m ((c : Thread nD τ).loc main_arg2)) (ix2 b n) :=
  ((congrFun (Cert.Shared.rowW2 m c) (ix3 b 0 n)).trans (operand_apply _ b n)).trans (mulf_apply _ _ _)
theorem colW1_at : V m c main_v119 (ix3 b 0 n) = Cert.ReferenceIdeal.Read.val_main_v86 (F := Ideal) (m ((c : Thread nD τ).loc main_arg0)) (m ((c : Thread nD τ).loc main_arg1)) (m ((c : Thread nD τ).loc main_arg2)) (ix2 b n) :=
  (congrFun (Cert.Shared.colW1 m c) (ix3 b 0 n)).trans (operand_apply _ b n)
theorem colW2_at : V m c main_v120 (ix3 b 0 n) = Cert.ReferenceIdeal.Read.val_main_v92 (F := Ideal) (m ((c : Thread nD τ).loc main_arg0)) (m ((c : Thread nD τ).loc main_arg1)) (m ((c : Thread nD τ).loc main_arg2)) (ix2 b n) :=
  (congrFun (Cert.Shared.colW2 m c) (ix3 b 0 n)).trans (operand_apply _ b n)

/-- The four corner weights are the products of a column weight and a row weight. -/
theorem w11_at (x0 : (⟨Cert.ReferenceIdeal.S128x16384x3, .f32⟩ : BufTy).Contents (Elt Ideal)) (x1 x2 : (⟨Cert.ReferenceIdeal.S128, .f32⟩ : BufTy).Contents (Elt Ideal)) (i : Cert.ReferenceIdeal.S128x16384.Idx) :
    Cert.ReferenceIdeal.Read.val_main_v88 (F := Ideal) x0 x1 x2 i = Cert.ReferenceIdeal.Read.val_main_v86 (F := Ideal) x0 x1 x2 i * Cert.ReferenceIdeal.Read.val_main_v87 (F := Ideal) x0 x1 x2 i := rfl
theorem w12_at (x0 : (⟨Cert.ReferenceIdeal.S128x16384x3, .f32⟩ : BufTy).Contents (Elt Ideal)) (x1 x2 : (⟨Cert.ReferenceIdeal.S128, .f32⟩ : BufTy).Contents (Elt Ideal)) (i : Cert.ReferenceIdeal.S128x16384.Idx) :
    Cert.ReferenceIdeal.Read.val_main_v91 (F := Ideal) x0 x1 x2 i = Cert.ReferenceIdeal.Read.val_main_v86 (F := Ideal) x0 x1 x2 i * Cert.ReferenceIdeal.Read.val_main_v90 (F := Ideal) x0 x1 x2 i := rfl
theorem w21_at (x0 : (⟨Cert.ReferenceIdeal.S128x16384x3, .f32⟩ : BufTy).Contents (Elt Ideal)) (x1 x2 : (⟨Cert.ReferenceIdeal.S128, .f32⟩ : BufTy).Contents (Elt Ideal)) (i : Cert.ReferenceIdeal.S128x16384.Idx) :
    Cert.ReferenceIdeal.Read.val_main_v94 (F := Ideal) x0 x1 x2 i = Cert.ReferenceIdeal.Read.val_main_v92 (F := Ideal) x0 x1 x2 i * Cert.ReferenceIdeal.Read.val_main_v87 (F := Ideal) x0 x1 x2 i := rfl
theorem w22_at (x0 : (⟨Cert.ReferenceIdeal.S128x16384x3, .f32⟩ : BufTy).Contents (Elt Ideal)) (x1 x2 : (⟨Cert.ReferenceIdeal.S128, .f32⟩ : BufTy).Contents (Elt Ideal)) (i : Cert.ReferenceIdeal.S128x16384.Idx) :
    Cert.ReferenceIdeal.Read.val_main_v97 (F := Ideal) x0 x1 x2 i = Cert.ReferenceIdeal.Read.val_main_v92 (F := Ideal) x0 x1 x2 i * Cert.ReferenceIdeal.Read.val_main_v90 (F := Ideal) x0 x1 x2 i := rfl

/-- One point's selector product, over the reference's quantities, is the sum of its four corner terms. -/
theorem point (h w : Fin 224) :
    ptTerm m c b h w n
      = ((if BitVec.ofNat 32 h.val = Cert.ReferenceIdeal.Read.val_main_v122 (F := Ideal) (m ((c : Thread nD τ).loc main_arg0)) (m ((c : Thread nD τ).loc main_arg1)) (m ((c : Thread nD τ).loc main_arg2)) (ix2 b n) ∧ BitVec.ofNat 32 w.val = Cert.ReferenceIdeal.Read.val_main_v120 (F := Ideal) (m ((c : Thread nD τ).loc main_arg0)) (m ((c : Thread nD τ).loc main_arg1)) (m ((c : Thread nD τ).loc main_arg2)) (ix2 b n)
            then Cert.ReferenceIdeal.Read.val_main_v88 (F := Ideal) (m ((c : Thread nD τ).loc main_arg0)) (m ((c : Thread nD τ).loc main_arg1)) (m ((c : Thread nD τ).loc main_arg2)) (ix2 b n) * Cert.ReferenceIdeal.Read.val_main_v115 (F := Ideal) (m ((c : Thread nD τ).loc main_arg0)) (m ((c : Thread nD τ).loc main_arg1)) (m ((c : Thread nD τ).loc main_arg2)) (ix2 b n) else 0)
          + (if BitVec.ofNat 32 h.val = Cert.ReferenceIdeal.Read.val_main_v126 (F := Ideal) (m ((c : Thread nD τ).loc main_arg0)) (m ((c : Thread nD τ).loc main_arg1)) (m ((c : Thread nD τ).loc main_arg2)) (ix2 b n) ∧ BitVec.ofNat 32 w.val = Cert.ReferenceIdeal.Read.val_main_v120 (F := Ideal) (m ((c : Thread nD τ).loc main_arg0)) (m ((c : Thread nD τ).loc main_arg1)) (m ((c : Thread nD τ).loc main_arg2)) (ix2 b n)
            then Cert.ReferenceIdeal.Read.val_main_v91 (F := Ideal) (m ((c : Thread nD τ).loc main_arg0)) (m ((c : Thread nD τ).loc main_arg1)) (m ((c : Thread nD τ).loc main_arg2)) (ix2 b n) * Cert.ReferenceIdeal.Read.val_main_v115 (F := Ideal) (m ((c : Thread nD τ).loc main_arg0)) (m ((c : Thread nD τ).loc main_arg1)) (m ((c : Thread nD τ).loc main_arg2)) (ix2 b n) else 0)
          + (if BitVec.ofNat 32 h.val = Cert.ReferenceIdeal.Read.val_main_v122 (F := Ideal) (m ((c : Thread nD τ).loc main_arg0)) (m ((c : Thread nD τ).loc main_arg1)) (m ((c : Thread nD τ).loc main_arg2)) (ix2 b n) ∧ BitVec.ofNat 32 w.val = Cert.ReferenceIdeal.Read.val_main_v124 (F := Ideal) (m ((c : Thread nD τ).loc main_arg0)) (m ((c : Thread nD τ).loc main_arg1)) (m ((c : Thread nD τ).loc main_arg2)) (ix2 b n)
            then Cert.ReferenceIdeal.Read.val_main_v94 (F := Ideal) (m ((c : Thread nD τ).loc main_arg0)) (m ((c : Thread nD τ).loc main_arg1)) (m ((c : Thread nD τ).loc main_arg2)) (ix2 b n) * Cert.ReferenceIdeal.Read.val_main_v115 (F := Ideal) (m ((c : Thread nD τ).loc main_arg0)) (m ((c : Thread nD τ).loc main_arg1)) (m ((c : Thread nD τ).loc main_arg2)) (ix2 b n) else 0)
          + (if BitVec.ofNat 32 h.val = Cert.ReferenceIdeal.Read.val_main_v126 (F := Ideal) (m ((c : Thread nD τ).loc main_arg0)) (m ((c : Thread nD τ).loc main_arg1)) (m ((c : Thread nD τ).loc main_arg2)) (ix2 b n) ∧ BitVec.ofNat 32 w.val = Cert.ReferenceIdeal.Read.val_main_v124 (F := Ideal) (m ((c : Thread nD τ).loc main_arg0)) (m ((c : Thread nD τ).loc main_arg1)) (m ((c : Thread nD τ).loc main_arg2)) (ix2 b n)
            then Cert.ReferenceIdeal.Read.val_main_v97 (F := Ideal) (m ((c : Thread nD τ).loc main_arg0)) (m ((c : Thread nD τ).loc main_arg1)) (m ((c : Thread nD τ).loc main_arg2)) (ix2 b n) * Cert.ReferenceIdeal.Read.val_main_v115 (F := Ideal) (m ((c : Thread nD τ).loc main_arg0)) (m ((c : Thread nD τ).loc main_arg1)) (m ((c : Thread nD τ).loc main_arg2)) (ix2 b n) else 0)) := by
  refine (ptTerm_eq m c b h w n).trans ?_
  refine (selProd_congr (rows1_at m c b n) (rows2_at m c b n) (cols1_at m c b n) (cols2_at m c b n) (rowW1_at m c b n) (rowW2_at m c b n)
    (colW1_at m c b n) (colW2_at m c b n)).trans ?_
  unfold selProd
  refine (Cert.Splat.point_eq (Cert.RefFacts.scale_zero_or_apart _ _ _ (ix2 b n))).trans ?_
  rw [w11_at, w12_at, w21_at, w22_at]

/-- The kernel's pixel is the reference's result at that pixel, in every channel. -/
theorem pix_eq (c : Dev nD) (b : Fin 128) (ch : Fin 3) (h w : Fin 224) :
    pix m c b h w = Cert.ReferenceIdeal.Read.val_main_v167 (F := Ideal) (m ((c : Thread nD τ).loc main_arg0)) (m ((c : Thread nD τ).loc main_arg1)) (m ((c : Thread nD τ).loc main_arg2)) (ix4 b ch h w) := by
  rw [Cert.RefSum.result_apply _ _ _ (Cert.RefFacts.py1i_lt _ _ _) (Cert.RefFacts.py2i_lt _ _ _) (Cert.RefFacts.px1i_lt _ _ _)
    (Cert.RefFacts.px2i_lt _ _ _) b ch h w]
  unfold pix
  exact Finset.sum_congr rfl fun n _ => point m c b n h w

/-- The kernel's result array is the reference's result array. -/
theorem result_eq (c : Dev nD) :
    result m c = Cert.ReferenceIdeal.Read.val_main_v167 (F := Ideal) (m ((c : Thread nD τ).loc main_arg0)) (m ((c : Thread nD τ).loc main_arg1)) (m ((c : Thread nD τ).loc main_arg2)) := by
  funext i
  obtain ⟨b, ch, h, w, rfl⟩ : ∃ (b : Fin 128) (ch : Fin 3) (h w : Fin 224), i = ix4 b ch h w := ⟨i 0, i 1, i 2, i 3, eq_ix4 i⟩
  rw [result_apply]
  exact pix_eq m c b ch h w

end Cert.Bridge

end
-- ==== Proof.RefRun.lean ====
/-
  The reference's run: every fair execution of its main function terminates with the result buffer at the last stage
  of the three arguments, and the arguments as launched.

  The main function is a straight line of 225 host operations, none of which allocates a buffer, so after the run
  every buffer holds the fold of the operations' results over the launch contents. Read at the result buffer, the fold
  is the composition of the operations' functions along the data flow; the stage functions are that same composition,
  one definition per operation, so the two are one term once the definitions are unfolded.
-/
import proofs.«118935_j6828998001445_1_alg».proof.Proof.RefRunP
import proofs.«118935_j6828998001445_1_alg».proof.Proof.RefReadP
import proofs.«118935_j6828998001445_1_alg».proof.Proof.LibNary3
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

open Lean Elab Tactic Meta in
/-- Closes `a = b` by reflexivity when the two sides are one term once definitions are unfolded: the proof term is
    `Eq.refl a`, and that it has the type `a = b` is checked when the theorem is type-checked, where equal subterms
    of the two long compositions are compared once. -/
elab "kernel_rfl" : tactic => do
  let g ← getMainGoal
  let t ← instantiateMVars (← g.getType)
  let some (_, lhs, _) := t.eq? | throwError "kernel_rfl: the goal is not an equation"
  g.assign (← mkEqRefl lhs)

/-- The operations' results in one pass, a concatenation of three operands read operand by operand. -/
macro "host_results" : tactic =>
  `(tactic| (simp (disch := decide) only [after_cons, after_nil, nullary_result', unary_result', binary_result', ternary_result', quaternary_result', reshape_result', nary3_result', nary4_result', nary_result', unaryIndexed_result', binaryIndexed_result', nullary_result_ne', unary_result_ne', binary_result_ne', ternary_result_ne', quaternary_result_ne', reshape_result_ne', nary_result_ne', unaryIndexed_result_ne', binaryIndexed_result_ne']))

set_option maxRecDepth 8192 in
/-- No operation of the list allocates a buffer. -/
theorem ops_fresh : (ops : List (HloOp τ sig (Elt F))).Forall fun op => op.fresh = ∅ := by
  simp only [List.Forall]; repeat' constructor

set_option maxRecDepth 8192 in
set_option maxHeartbeats 8000000 in
/-- The fold of the operations at the result buffer is the last stage of the arguments. -/
theorem result_stage (m : (ℓ : Loc nD τ sig) → Buf (Elt F) ℓ) (c : Dev nD) :
    after ops (launchContents m c) (Proc.devRef .tc main_v167)
      = Cert.ReferenceIdeal.Read.val_main_v167 (F := F) (m ((c.tc : Thread nD τ).loc main_arg0)) (m ((c.tc : Thread nD τ).loc main_arg1)) (m ((c.tc : Thread nD τ).loc main_arg2)) := by
  host_results
  kernel_rfl

set_option maxRecDepth 8192 in
set_option maxHeartbeats 8000000 in
/-- On every device, from any memory with zero counters: every weakly fair execution of the main function terminates
    with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v167) = Cert.ReferenceIdeal.Read.val_main_v167 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v167).trans (result_stage m c),
      (h c main_arg0).trans (by host_results <;> rfl),
      (h c main_arg1).trans (by host_results <;> rfl),
      (h c main_arg2).trans (by host_results <;> rfl)⟩)
    (run_seq scopedRefs_eq scopedSems_eq defs main (fun _ => ops) main_eq (fun _ => ops_sub) m ρ
      (hfresh := fun _ => List.forall_iff_forall_mem.mp ops_fresh))

end Cert.ReferenceIdeal.Value

end
-- ==== Proof.lean ====
/-
  A point cloud rendered by bilinear splatting, as a Pallas kernel and as a jnp scatter-add.

  Both programs rotate the points, compute for every point its pixel position, the four neighbouring pixel corners
  (clipped into the 224 x 224 image), the bilinear weights and a depth feature masked to the points whose four corners
  lie inside the image. The reference adds each point's four corner values `(wx wy) scale` into a zero image by one
  scatter. The kernel writes the same scatter as a product of two selection matrices per batch row,
  `image[b, h, w] = sum over n of ([h = py1] s wy1 + [h = py2] s wy2) ([w = px1] wx1 + [w = px2] wx2)`,
  accumulated over eight tiles of 2048 points on a 128 x 8 grid, the first tile of a row resetting the output block.
  Both broadcast the image over three channels.

  The frames of the two kernel programs are the region's run on its grid (Proof/KB, Proof/KI): the body's two runs, by
  case on whether the point resets the block, and the output block's contents by recursion on the point. The
  reference's frame is its run with the result dropped (Proof/RefRun). The ideal pass rewrote nothing. For the value claim, the
  kernel's image is read off the run pixel by pixel (Proof/KI/PointValue, Proof/KI/Image), the reference's result is
  read as a sum over the points (Proof/RefSum), the kernel's operand arrays are the reference's own stages
  (Proof/Shared), and for each point the selector product is the sum of the four corner terms because a point
  either has scale zero or has distinct corner rows and distinct corner columns (Proof/RefFacts, Proof/Splat).
-/
import proofs.«118935_j6828998001445_1_alg».proof.Defs
import proofs.«118935_j6828998001445_1_alg».proof.Proof.Gen.Kernel
import proofs.«118935_j6828998001445_1_alg».proof.Proof.Gen.KernelIdeal
import proofs.«118935_j6828998001445_1_alg».proof.Proof.Gen.ReferenceIdeal
import proofs.«118935_j6828998001445_1_alg».proof.Proof.Gen.Pre_finite_inputs
import proofs.«118935_j6828998001445_1_alg».proof.Proof.KB.Frame
import proofs.«118935_j6828998001445_1_alg».proof.Proof.KI.Frame
import proofs.«118935_j6828998001445_1_alg».proof.Proof.Bridge
import proofs.«118935_j6828998001445_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result buffer ends at the broadcast image and the reference's at its scatter's
    broadcast, of arguments that agree: one array. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
